-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S2x2048x512 .f32 .bf16

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 2048, 512]⟩ ⟨3, ![2, 2048, 4096]⟩ 2 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 512]⟩ ⟨2, ![128, 4096]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 512]⟩ ⟨2, ![128, 4096]⟩ 1 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 2048, 512]⟩ ⟨3, ![2, 2048, 4096]⟩ 2 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2x2048x512 : Shape := ⟨3, ![2, 2048, 512]⟩
abbrev S2x128 : Shape := ⟨2, ![2, 128]⟩
abbrev S128x512 : Shape := ⟨2, ![128, 512]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S2x128 : S_.BroadcastsInDim S2x128 (![] : Fin 0 → Fin S2x128.rank)
  reducesTo_S2x128_S_d0_1 : S2x128.ReducesTo [0, 1] S_
  bcast_S_S128x512 : S_.BroadcastsInDim S128x512 (![] : Fin 0 → Fin S128x512.rank)
  reducesTo_S128x512_S_d0_1 : S128x512.ReducesTo [0, 1] S_

variable [Facts]

def fn_part1 {F : FTy → Type} [FloatOps F] (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  main_v18

def fn {F : FTy → Type} [FloatOps F] (main_arg0 : FVec F S2x2048x512 .f32) (main_arg1 : FVec F S2x128 .f32) (main_arg2 : FVec F S128x512 .f32) (main_arg3 : FVec F S128x512 .f32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_v4 : FVec F S2x128 .f32 := Host.absf main_arg1
  let main_cst_0 : FVec F S_ .f32 := constant S_ .f32 0x7F800000#32
  let main_v5 : FVec F S2x128 .f32 := broadcastInDim S2x128 ![] bcast_S_S2x128 main_cst_0
  let main_v6 : IVec S2x128 1 := cmpf .olt main_v4 main_v5
  let main_c_1 : IVec S_ 1 := constantI S_ 1 1#1
  let main_v7 : IVec S_ 1 := (fun x v => Host.reduce IntOp.andi x v reducesTo_S2x128_S_d0_1 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_v13 main_v16
-- ==== Pre_finite_inputs_ReferenceIdeal.lean ====
abbrev S2x2048x4096 : Shape := ⟨3, ![2, 2048, 4096]⟩
abbrev S2x128 : Shape := ⟨2, ![2, 128]⟩
abbrev S128x4096 : Shape := ⟨2, ![128, 4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S2x128 : S_.BroadcastsInDim S2x128 (![] : Fin 0 → Fin S2x128.rank)
  reducesTo_S2x128_S_d0_1 : S2x128.ReducesTo [0, 1] S_
  bcast_S_S128x4096 : S_.BroadcastsInDim S128x4096 (![] : Fin 0 → Fin S128x4096.rank)
  reducesTo_S128x4096_S_d0_1 : S128x4096.ReducesTo [0, 1] S_

variable [Facts]

def fn_part1 {F : FTy → Type} [FloatOps F] (main_v13 : IVec S_ 1) (main_v16 : IVec S128x4096 1) : IVec S_ 1 :=
  let main_c_5 : IVec S_ 1 := constantI S_ 1 1#1
  let main_v17 : IVec S_ 1 := (fun x v => Host.reduce IntOp.andi x v reducesTo_S128x4096_S_d0_1 h_S_) main_v16 main_c_5
  let main_v18 : IVec S_ 1 := andi main_v13 main_v17
  main_v18

def fn {F : FTy → Type} [FloatOps F] (main_arg0 : FVec F S2x2048x4096 .f32) (main_arg1 : FVec F S2x128 .f32) (main_arg2 : FVec F S128x4096 .f32) (main_arg3 : FVec F S128x4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S2x128 .f32 := Host.absf main_arg1
  let main_cst_0 : FVec F S_ .f32 := constant S_ .f32 0x7F800000#32
  let main_v5 : FVec F S2x128 .f32 := broadcastInDim S2x128 ![] bcast_S_S2x128 main_cst_0
  let main_v6 : IVec S2x128 1 := cmpf .olt main_v4 main_v5
  let main_c_1 : IVec S_ 1 := constantI S_ 1 1#1
  let main_v7 : IVec S_ 1 := (fun x v => Host.reduce IntOp.andi x v reducesTo_S2x128_S_d0_1 h_S_) main_v6 main_c_1
  let main_v8 : IVec S_ 1 := andi main_v3 main_v7
  let main_v9 : FVec F S128x4096 .f32 := Host.absf main_arg2
  let main_cst_2 : FVec F S_ .f32 := constant S_ .f32 0x7F800000#32
  let main_v10 : FVec F S128x4096 .f32 := broadcastInDim S128x4096 ![] bcast_S_S128x4096 main_cst_2
  let main_v11 : IVec S128x4096 1 := cmpf .olt main_v9 main_v10
  let main_c_3 : IVec S_ 1 := constantI S_ 1 1#1
  let main_v12 : IVec S_ 1 := (fun x v => Host.reduce IntOp.andi x v reducesTo_S128x4096_S_d0_1 h_S_) main_v11 main_c_3
  let main_v13 : IVec S_ 1 := andi main_v8 main_v12
  let main_v14 : FVec F S128x4096 .f32 := Host.absf main_arg3
  let main_cst_4 : FVec F S_ .f32 := constant S_ .f32 0x7F800000#32
  let main_v15 : FVec F S128x4096 .f32 := broadcastInDim S128x4096 ![] bcast_S_S128x4096 main_cst_4
  let main_v16 : IVec S128x4096 1 := cmpf .olt main_v14 main_v15
  fn_part1 (F := F) main_v13 main_v16
-- ==== Kernel.lean ====
abbrev S2x2048x512 : Shape := ⟨3, ![2, 2048, 512]⟩
abbrev S2x128 : Shape := ⟨2, ![2, 128]⟩
abbrev S128x512 : Shape := ⟨2, ![128, 512]⟩
abbrev S8x4x2048 : Shape := ⟨3, ![8, 4, 2048]⟩
abbrev S8 : Shape := ⟨1, ![8]⟩
abbrev S_ : Shape := ⟨0, ![]⟩
abbrev S2x2048 : Shape := ⟨2, ![2, 2048]⟩
abbrev S4x2048 : Shape := ⟨2, ![4, 2048]⟩
abbrev S1x4x2048 : Shape := ⟨3, ![1, 4, 2048]⟩
abbrev S1 : Shape := ⟨1, ![1]⟩
abbrev S2x512 : Shape := ⟨2, ![2, 512]⟩
abbrev S2x2048x1 : Shape := ⟨3, ![2, 2048, 1]⟩
abbrev S2x1x512 : Shape := ⟨3, ![2, 1, 512]⟩

abbrev nBuf : Space → Nat
  | .hbm => 5
  | .vmem => 6
  | .smem => 0
  | _ => 0

abbrev bufTy : (tb : Table) → Fin (tcTables nBuf tb) → BufTy
  | .hbm, ⟨0, _⟩ => ⟨S2x2048x512, .f32⟩
  | .hbm, ⟨1, _⟩ => ⟨S2x128, .f32⟩
  | .hbm, ⟨2, _⟩ => ⟨S128x512, .f32⟩
  | .hbm, ⟨3, _⟩ => ⟨S128x512, .f32⟩
  | .hbm, ⟨4, _⟩ => ⟨S2x2048x512, .bf16⟩
  | .local _ .vmem, ⟨0, _⟩ => ⟨S2x2048x512, .f32⟩
  | .local _ .vmem, ⟨1, _⟩ => ⟨S2x128, .f32⟩
  | .local _ .vmem, ⟨2, _⟩ => ⟨S128x512, .f32⟩
  | .local _ .vmem, ⟨3, _⟩ => ⟨S128x512, .f32⟩
  | .local _ .vmem, ⟨4, _⟩ => ⟨S2x2048x512, .bf16⟩
  | .local _ .vmem, ⟨5, _⟩ => ⟨S8x4x2048, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v105 : Index := Scalar.indexCast v2
  let c0_66 : Index := 0#32
  let c0_67 : Index := 0#32
  ![v105.toNat, 0, 0]
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_79 : BitVec 32 := 0#32
  let c0_i32_80 : BitVec 32 := 0#32
  ![v2.toNat, 0, 0]
def k0_dev8 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_69 : BitVec 32 := 1#32
  let v109 : BitVec 32 := Scalar.addi v2 c1_i32_69
  let c8_i32_70 : BitVec 32 := 8#32
  let c0_i32_71 : BitVec 32 := 0#32
  let v110 : BitVec 1 := Scalar.cmpi .eq c8_i32_70 c0_i32_71
  let c1_i32_72 : BitVec 32 := 1#32
  let v111 : BitVec 32 := Scalar.select v110 c1_i32_72 c8_i32_70
  let v112 : BitVec 32 := Scalar.remsi v109 v111
  let c0_i32_74 : BitVec 32 := 0#32
  let v114 : BitVec 1 := Scalar.cmpi .slt v112 c0_i32_74
  let c0_i32_75 : BitVec 32 := 0#32
  let v115 : BitVec 1 := Scalar.cmpi .slt v111 c0_i32_75
  let v116 : BitVec 1 := Scalar.xori v114 v115
  let c0_i32_73 : BitVec 32 := 0#32
  let v113 : BitVec 1 := Scalar.cmpi .ne v112 c0_i32_73
  let v117 : BitVec 1 := Scalar.andi v116 v113
  let v118 : BitVec 32 := Scalar.addi v112 v111
  let v119 : BitVec 32 := Scalar.select v117 v118 v112
  let c1_i32_77 : BitVec 32 := 1#32
  let v120 : BitVec 32 := Scalar.muli v119 c1_i32_77
  let v121 : BitVec 32 := Scalar.addi c0_i32_78 v120
  v121.toNat
def k0_dev9 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_83 : BitVec 32 := 2#32
  let v130 : BitVec 32 := Scalar.addi v2 c2_i32_83
  let c8_i32_84 : BitVec 32 := 8#32
  let c0_i32_85 : BitVec 32 := 0#32
  let v131 : BitVec 1 := Scalar.cmpi .eq c8_i32_84 c0_i32_85
  let c1_i32_86 : BitVec 32 := 1#32
  let v132 : BitVec 32 := Scalar.select v131 c1_i32_86 c8_i32_84
  let v133 : BitVec 32 := Scalar.remsi v130 v132
  let c0_i32_88 : BitVec 32 := 0#32
  let v135 : BitVec 1 := Scalar.cmpi .slt v133 c0_i32_88
  let c0_i32_89 : BitVec 32 := 0#32
  let v136 : BitVec 1 := Scalar.cmpi .slt v132 c0_i32_89
  let v137 : BitVec 1 := Scalar.xori v135 v136
  let c0_i32_87 : BitVec 32 := 0#32
  let v134 : BitVec 1 := Scalar.cmpi .ne v133 c0_i32_87
  let v138 : BitVec 1 := Scalar.andi v137 v134
  let v139 : BitVec 32 := Scalar.addi v133 v132
  let v140 : BitVec 32 := Scalar.select v138 v139 v133
  let c1_i32_91 : BitVec 32 := 1#32
  let v141 : BitVec 32 := Scalar.muli v140 c1_i32_91
  let v142 : BitVec 32 := Scalar.addi c0_i32_92 v141
  v142.toNat
def k0_dev10 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_97 : BitVec 32 := 3#32
  let v151 : BitVec 32 := Scalar.addi v2 c3_i32_97
  let c8_i32_98 : BitVec 32 := 8#32
  let c0_i32_99 : BitVec 32 := 0#32
  let v152 : BitVec 1 := Scalar.cmpi .eq c8_i32_98 c0_i32_99
  let c1_i32_100 : BitVec 32 := 1#32
  let v153 : BitVec 32 := Scalar.select v152 c1_i32_100 c8_i32_98
  let v154 : BitVec 32 := Scalar.remsi v151 v153
  let c0_i32_102 : BitVec 32 := 0#32
  let v156 : BitVec 1 := Scalar.cmpi .slt v154 c0_i32_102
  let c0_i32_103 : BitVec 32 := 0#32
  let v157 : BitVec 1 := Scalar.cmpi .slt v153 c0_i32_103
  let v158 : BitVec 1 := Scalar.xori v156 v157
  let c0_i32_101 : BitVec 32 := 0#32
  let v155 : BitVec 1 := Scalar.cmpi .ne v154 c0_i32_101
  let v159 : BitVec 1 := Scalar.andi v158 v155
  let v160 : BitVec 32 := Scalar.addi v154 v153
  let v161 : BitVec 32 := Scalar.select v159 v160 v154
  let c1_i32_105 : BitVec 32 := 1#32
  let v162 : BitVec 32 := Scalar.muli v161 c1_i32_105
  let v163 : BitVec 32 := Scalar.addi c0_i32_106 v162
  v163.toNat
def k0_dev11 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_111 : BitVec 32 := 4#32
  let v172 : BitVec 32 := Scalar.addi v2 c4_i32_111
  let c8_i32_112 : BitVec 32 := 8#32
  let c0_i32_113 : BitVec 32 := 0#32
  let v173 : BitVec 1 := Scalar.cmpi .eq c8_i32_112 c0_i32_113
  let c1_i32_114 : BitVec 32 := 1#32
  let v174 : BitVec 32 := Scalar.select v173 c1_i32_114 c8_i32_112
  let v175 : BitVec 32 := Scalar.remsi v172 v174
  let c0_i32_116 : BitVec 32 := 0#32
  let v177 : BitVec 1 := Scalar.cmpi .slt v175 c0_i32_116
  let c0_i32_117 : BitVec 32 := 0#32
  let v178 : BitVec 1 := Scalar.cmpi .slt v174 c0_i32_117
  let v179 : BitVec 1 := Scalar.xori v177 v178
  let c0_i32_115 : BitVec 32 := 0#32
  let v176 : BitVec 1 := Scalar.cmpi .ne v175 c0_i32_115
  let v180 : BitVec 1 := Scalar.andi v179 v176
  let v181 : BitVec 32 := Scalar.addi v175 v174
  let v182 : BitVec 32 := Scalar.select v180 v181 v175
  let c1_i32_119 : BitVec 32 := 1#32
  let v183 : BitVec 32 := Scalar.muli v182 c1_i32_119
  let v184 : BitVec 32 := Scalar.addi c0_i32_120 v183
  v184.toNat
def k0_dev12 (d0 : Dev nD) : Nat :=
  let c0_i32_134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_125 : BitVec 32 := 5#32
  let v193 : BitVec 32 := Scalar.addi v2 c5_i32_125
  let c8_i32_126 : BitVec 32 := 8#32
  let c0_i32_127 : BitVec 32 := 0#32
  let v194 : BitVec 1 := Scalar.cmpi .eq c8_i32_126 c0_i32_127
  let c1_i32_128 : BitVec 32 := 1#32
  let v195 : BitVec 32 := Scalar.select v194 c1_i32_128 c8_i32_126
  let v196 : BitVec 32 := Scalar.remsi v193 v195
  let c0_i32_130 : BitVec 32 := 0#32
  let v198 : BitVec 1 := Scalar.cmpi .slt v196 c0_i32_130
  let c0_i32_131 : BitVec 32 := 0#32
  let v199 : BitVec 1 := Scalar.cmpi .slt v195 c0_i32_131
  let v200 : BitVec 1 := Scalar.xori v198 v199
  let c0_i32_129 : BitVec 32 := 0#32
  let v197 : BitVec 1 := Scalar.cmpi .ne v196 c0_i32_129
  let v201 : BitVec 1 := Scalar.andi v200 v197
  let v202 : BitVec 32 := Scalar.addi v196 v195
  let v203 : BitVec 32 := Scalar.select v201 v202 v196
  let c1_i32_133 : BitVec 32 := 1#32
  let v204 : BitVec 32 := Scalar.muli v203 c1_i32_133
  let v205 : BitVec 32 := Scalar.addi c0_i32_134 v204
  v205.toNat
def k0_dev13 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_139 : BitVec 32 := 6#32
  let v214 : BitVec 32 := Scalar.addi v2 c6_i32_139
  let c8_i32_140 : BitVec 32 := 8#32
  let c0_i32_141 : BitVec 32 := 0#32
  let v215 : BitVec 1 := Scalar.cmpi .eq c8_i32_140 c0_i32_141
  let c1_i32_142 : BitVec 32 := 1#32
  let v216 : BitVec 32 := Scalar.select v215 c1_i32_142 c8_i32_140
  let v217 : BitVec 32 := Scalar.remsi v214 v216
  let c0_i32_144 : BitVec 32 := 0#32
  let v219 : BitVec 1 := Scalar.cmpi .slt v217 c0_i32_144
  let c0_i32_145 : BitVec 32 := 0#32
  let v220 : BitVec 1 := Scalar.cmpi .slt v216 c0_i32_145
  let v221 : BitVec 1 := Scalar.xori v219 v220
  let c0_i32_143 : BitVec 32 := 0#32
  let v218 : BitVec 1 := Scalar.cmpi .ne v217 c0_i32_143
  let v222 : BitVec 1 := Scalar.andi v221 v218
  let v223 : BitVec 32 := Scalar.addi v217 v216
  let v224 : BitVec 32 := Scalar.select v222 v223 v217
  let c1_i32_147 : BitVec 32 := 1#32
  let v225 : BitVec 32 := Scalar.muli v224 c1_i32_147
  let v226 : BitVec 32 := Scalar.addi c0_i32_148 v225
  v226.toNat
def k0_dev14 (d0 : Dev nD) : Nat :=
  let c0_i32_162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_153 : BitVec 32 := 7#32
  let v235 : BitVec 32 := Scalar.addi v2 c7_i32_153
  let c8_i32_154 : BitVec 32 := 8#32
  let c0_i32_155 : BitVec 32 := 0#32
  let v236 : BitVec 1 := Scalar.cmpi .eq c8_i32_154 c0_i32_155
  let c1_i32_156 : BitVec 32 := 1#32
  let v237 : BitVec 32 := Scalar.select v236 c1_i32_156 c8_i32_154
  let v238 : BitVec 32 := Scalar.remsi v235 v237
  let c0_i32_158 : BitVec 32 := 0#32
  let v240 : BitVec 1 := Scalar.cmpi .slt v238 c0_i32_158
  let c0_i32_159 : BitVec 32 := 0#32
  let v241 : BitVec 1 := Scalar.cmpi .slt v237 c0_i32_159
  let v242 : BitVec 1 := Scalar.xori v240 v241
  let c0_i32_157 : BitVec 32 := 0#32
  let v239 : BitVec 1 := Scalar.cmpi .ne v238 c0_i32_157
  let v243 : BitVec 1 := Scalar.andi v242 v239
  let v244 : BitVec 32 := Scalar.addi v238 v237
  let v245 : BitVec 32 := Scalar.select v243 v244 v238
  let c1_i32_161 : BitVec 32 := 1#32
  let v246 : BitVec 32 := Scalar.muli v245 c1_i32_161
  let v247 : BitVec 32 := Scalar.addi c0_i32_162 v246
  v247.toNat
def k0_off4 (d0 : Dev nD) (c1_i32_178 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v268 : BitVec 32 := Scalar.addi v2 c1_i32_178
  let c8_i32_179 : BitVec 32 := 8#32
  let c0_i32_180 : BitVec 32 := 0#32
  let v269 : BitVec 1 := Scalar.cmpi .eq c8_i32_179 c0_i32_180
  let c1_i32_181 : BitVec 32 := 1#32
  let v270 : BitVec 32 := Scalar.select v269 c1_i32_181 c8_i32_179
  let v271 : BitVec 32 := Scalar.remsi v268 v270
  let c0_i32_183 : BitVec 32 := 0#32
  let v273 : BitVec 1 := Scalar.cmpi .slt v271 c0_i32_183
  let c0_i32_184 : BitVec 32 := 0#32
  let v274 : BitVec 1 := Scalar.cmpi .slt v270 c0_i32_184
  let v275 : BitVec 1 := Scalar.xori v273 v274
  let c0_i32_182 : BitVec 32 := 0#32
  let v272 : BitVec 1 := Scalar.cmpi .ne v271 c0_i32_182
  let v276 : BitVec 1 := Scalar.andi v275 v272
  let v277 : BitVec 32 := Scalar.addi v271 v270
  let v278 : BitVec 32 := Scalar.select v276 v277 v271
  ![v278.toNat]
def k0_off5 (d0 : Dev nD) (c1_i32_178 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v268 : BitVec 32 := Scalar.addi v2 c1_i32_178
  let c8_i32_179 : BitVec 32 := 8#32
  let c0_i32_180 : BitVec 32 := 0#32
  let v269 : BitVec 1 := Scalar.cmpi .eq c8_i32_179 c0_i32_180
  let c1_i32_181 : BitVec 32 := 1#32
  let v270 : BitVec 32 := Scalar.select v269 c1_i32_181 c8_i32_179
  let v271 : BitVec 32 := Scalar.remsi v268 v270
  let c0_i32_183 : BitVec 32 := 0#32
  let v273 : BitVec 1 := Scalar.cmpi .slt v271 c0_i32_183
  let c0_i32_184 : BitVec 32 := 0#32
  let v274 : BitVec 1 := Scalar.cmpi .slt v270 c0_i32_184
  let v275 : BitVec 1 := Scalar.xori v273 v274
  let c0_i32_182 : BitVec 32 := 0#32
  let v272 : BitVec 1 := Scalar.cmpi .ne v271 c0_i32_182
  let v276 : BitVec 1 := Scalar.andi v275 v272
  let v277 : BitVec 32 := Scalar.addi v271 v270
  let v278 : BitVec 32 := Scalar.select v276 v277 v271
  let c0_i32_188 : BitVec 32 := 0#32
  let c0_i32_189 : BitVec 32 := 0#32
  ![v278.toNat, 0, 0]
abbrev stage0_0 : Fin 1 → Memref sig .tc .vmem S2x2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

class Facts₀ : Prop where
  hamt_1 : (1#32 : BitVec 32).msb = false
  inb_S2x2048x512_S2x2048x512_0_0_0 : ∀ a, (![0, 0, 0] : Fin 3 → Nat) a + S2x2048x512.size a ≤ S2x2048x512.size a
  h_S2x2048x512 : 0 < S2x2048x512.numel
  shapeCasts_S2x2048x512_S2x2048x512 : S2x2048x512.ShapeCasts S2x2048x512
  bitsLt_bf16_f32 : FTy.bits .bf16 < FTy.bits .f32
  reduces_S2x2048x512_S2x2048 : S2x2048x512.Reduces [2] S2x2048
  concatenates_S2x2048_S2x2048_S4x2048_d0 : Shape.Concatenates [S2x2048, S2x2048] S4x2048 0
  shapeCasts_S4x2048_S1x4x2048 : S4x2048.ShapeCasts S1x4x2048
  h_S1x4x2048 : 0 < S1x4x2048.numel
  shapeCasts_S1x4x2048_S1x4x2048 : S1x4x2048.ShapeCasts S1x4x2048
  hamt_7 : (7#32 : BitVec 32).msb = false
  inb_S8_S1_1 : ∀ a, (![1] : Fin 1 → Nat) a + S1.size a ≤ S8.size a
  squeezes_S1_S_ : S1.Squeezes S_
  squeezes_S1x4x2048_S4x2048 : S1x4x2048.Squeezes S4x2048
  inb_S8_S1_2 : ∀ a, (![2] : Fin 1 → Nat) a + S1.size a ≤ S8.size a
  inb_S8_S1_3 : ∀ a, (![3] : Fin 1 → Nat) a + S1.size a ≤ S8.size a
  inb_S8_S1_4 : ∀ a, (![4] : Fin 1 → Nat) a + S1.size a ≤ S8.size a
  inb_S8_S1_5 : ∀ a, (![5] : Fin 1 → Nat) a + S1.size a ≤ S8.size a
  inb_S8_S1_6 : ∀ a, (![6] : Fin 1 → Nat) a + S1.size a ≤ S8.size a
  inb_S8_S1_7 : ∀ a, (![7] : Fin 1 → Nat) a + S1.size a ≤ S8.size a
  inb_S2x128_S2x128_0_0 : ∀ a, (![0, 0] : Fin 2 → Nat) a + S2x128.size a ≤ S2x128.size a
  h_S2x128 : 0 < S2x128.numel
  shapeCasts_S2x128_S2x128 : S2x128.ShapeCasts S2x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S8x4x2048_S8x4x2048_0_0_0 : ∀ a, (![0, 0, 0] : Fin 3 → Nat) a + S8x4x2048.size a ≤ S8x4x2048.size a
  h_S8x4x2048 : 0 < S8x4x2048.numel
  reduces_S8x4x2048_S4x2048 : S8x4x2048.Reduces [0] S4x2048
  slices_S4x2048_o0_0_S2x2048 : S4x2048.Slices ![0, 0] S2x2048
  slices_S4x2048_o2_0_S2x2048 : S4x2048.Slices ![2, 0] S2x2048
  shapeCasts_S2x2048_S2x2048x1 : S2x2048.ShapeCasts S2x2048x1
  shapeCasts_S2x512_S2x1x512 : S2x512.ShapeCasts S2x1x512
  broadcasts_S2x2048x1_S2x2048x512 : S2x2048x1.Broadcasts S2x2048x512
  broadcasts_S2x1x512_S2x2048x512 : S2x1x512.Broadcasts S2x2048x512
  packedbf16_S2x2048x512_S2x2048x512_0_0_0 : (Rect.unit (s := S2x2048x512) ![0, 0, 0] S2x2048x512.size inb_S2x2048x512_S2x2048x512_0_0_0).PackedRows (EltTy.packing .bf16)
  dot_S2x128_S128x512_S2x512_1_0_0_1_n_n_wf : DotDims.WF S2x128 S128x512 S2x512 [1] [0] [0] [1] [] []
  hcc0_scratch1 : 5 + S8.numel ≤ 21
  hcc0_scratch2 : 13 + S8.numel ≤ 21
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off1_inb : ∀ d0 : Dev nD, ∀ a, (k0_off1 d0) a + S1x4x2048.size a ≤ S8x4x2048.size a
  k0_off2_inb : ∀ d0 : Dev nD, ∀ a, (k0_off2 d0) a + S1.size a ≤ S8.size a
  k0_off3_inb : ∀ d0 : Dev nD, ∀ a, (k0_off3 d0) a + S1x4x2048.size a ≤ S8x4x2048.size a
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_off4_inb : ∀ d0 : Dev nD, ∀ (r : Fin 7), ∀ a, (k0_off4 d0 (BitVec.ofNat 32 (1 + r.val))) a + S1.size a ≤ S8.size a
  k0_off5_inb : ∀ d0 : Dev nD, ∀ (r : Fin 7), ∀ a, (k0_off5 d0 (BitVec.ofNat 32 (1 + r.val))) a + S1x4x2048.size a ≤ S8x4x2048.size a
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole

variable [Facts₀]

abbrev cc0_scratch1 : DmaSems sig S8 := SemArray.consecutive 5 S8 hcc0_scratch1
abbrev cc0_scratch2 : DmaSems sig S8 := SemArray.consecutive 13 S8 hcc0_scratch2
def dot_S2x128_S128x512_S2x512_1_0_0_1_n_n : DotDims S2x128 S128x512 S2x512 where
  lhsContracting := [1]
  rhsContracting := [0]
  lhsNonContracting := [0]
  rhsNonContracting := [1]
  lhsBatch := []
  rhsBatch := []
  wf := dot_S2x128_S128x512_S2x512_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_v1) true false (stage0_4 0) (sem0_4 0) (Memref.isWhole_whole _) (hstage0_4 0)

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x2048x4096 : Shape := ⟨3, ![2, 2048, 4096]⟩
abbrev S2x128 : Shape := ⟨2, ![2, 128]⟩
abbrev S128x4096 : Shape := ⟨2, ![128, 4096]⟩
abbrev S_ : Shape := ⟨0, ![]⟩
abbrev S2x2048 : Shape := ⟨2, ![2, 2048]⟩
abbrev S2x2048x1 : Shape := ⟨3, ![2, 2048, 1]⟩
abbrev S2x4096 : Shape := ⟨2, ![2, 4096]⟩
abbrev S2x1x4096 : Shape := ⟨3, ![2, 1, 4096]⟩

abbrev nBuf : Space → Nat
  | .hbm => 54
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S2x128, .f32⟩
  | .hbm, ⟨2, _⟩ => ⟨S128x4096, .f32⟩
  | .hbm, ⟨3, _⟩ => ⟨S128x4096, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .i32⟩
  | .hbm, ⟨11, _⟩ => ⟨S_, .f32⟩
  | .hbm, ⟨12, _⟩ => ⟨S2x2048, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x4096, .f32⟩
  | .hbm, ⟨18, _⟩ => ⟨S2x2048x4096, .f32⟩
  | .hbm, ⟨19, _⟩ => ⟨S2x2048x4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2x2048, .f32⟩
  | .hbm, ⟨25, _⟩ => ⟨S2x2048x1, .f32⟩
  | .hbm, ⟨26, _⟩ => ⟨S2x2048x1, .f32⟩
  | .hbm, ⟨27, _⟩ => ⟨S2x2048x1, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S2x2048x1, .f32⟩
  | .hbm, ⟨33, _⟩ => ⟨S2x2048x1, .f32⟩
  | .hbm, ⟨34, _⟩ => ⟨S2x2048x4096, .f32⟩
  | .hbm, ⟨35, _⟩ => ⟨S2x2048x4096, .f32⟩
  | .hbm, ⟨36, _⟩ => ⟨S_, .f32⟩
  | .hbm, ⟨37, _⟩ => ⟨S2x2048x1, .f32⟩
  | .hbm, ⟨38, _⟩ => ⟨S2x2048x1, .f32⟩
  | .hbm, ⟨39, _⟩ => ⟨S2x2048x1, .f32⟩
  | .hbm, ⟨40, _⟩ => ⟨S2x2048x4096, .f32⟩
  | .hbm, ⟨41, _⟩ => ⟨S2x2048x4096, .f32⟩
  | .hbm, ⟨42, _⟩ => ⟨S2x4096, .f32⟩
  | .hbm, ⟨43, _⟩ => ⟨S2x4096, .f32⟩
  | .hbm, ⟨44, _⟩ => ⟨S2x1x4096, .f32⟩
  | .hbm, ⟨45, _⟩ => ⟨S_, .f32⟩
  | .hbm, ⟨46, _⟩ => ⟨S2x1x4096, .f32⟩
  | .hbm, ⟨47, _⟩ => ⟨S2x1x4096, .f32⟩
  | .hbm, ⟨48, _⟩ => ⟨S2x2048x4096, .f32⟩
  | .hbm, ⟨49, _⟩ => ⟨S2x2048x4096, .f32⟩
  | .hbm, ⟨50, _⟩ => ⟨S2x1x4096, .f32⟩
  | .hbm, ⟨51, _⟩ => ⟨S2x2048x4096, .f32⟩
  | .hbm, ⟨52, _⟩ => ⟨S2x2048x4096, .f32⟩
  | .hbm, ⟨53, _⟩ => ⟨S2x2048x4096, .bf16⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_2 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩

abbrev nD : Nat := 1
abbrev τ : Topo := Topo.v7x

variable {F : FTy → Type} [FloatOps F]

class Facts₀ : Prop where
  reducesTo_S2x2048x4096_S2x2048_d2 : S2x2048x4096.ReducesTo [2] S2x2048
  h_S_ : 0 < S_.numel
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S2x2048x1_S2x2048x4096_0_1_2 : S2x2048x1.BroadcastsInDim S2x2048x4096 (![0, 1, 2] : Fin 3 → Fin S2x2048x4096.rank)
  bcast_S2x4096_S2x1x4096_0_2 : S2x4096.BroadcastsInDim S2x1x4096 (![0, 2] : Fin 2 → Fin S2x1x4096.rank)
  bcast_S_S2x1x4096 : S_.BroadcastsInDim S2x1x4096 (![] : Fin 0 → Fin S2x1x4096.rank)
  bcast_S2x1x4096_S2x2048x4096_0_1_2 : S2x1x4096.BroadcastsInDim S2x2048x4096 (![0, 1, 2] : Fin 3 → Fin S2x2048x4096.rank)
  bitsLt_bf16_f32 : FTy.bits .bf16 < FTy.bits .f32
  dot_S2x128_S128x4096_S2x4096_1_0_0_1_n_n_wf : DotDims.WF S2x128 S128x4096 S2x4096 [1] [0] [0] [1] [] []

variable [Facts₀]

def dot_S2x128_S128x4096_S2x4096_1_0_0_1_n_n : DotDims S2x128 S128x4096 S2x4096 where
  lhsContracting := [1]
  rhsContracting := [0]
  lhsNonContracting := [0]
  rhsNonContracting := [1]
  lhsBatch := []
  rhsBatch := []
  wf := dot_S2x128_S128x4096_S2x4096_1_0_0_1_n_n_wf

class Facts : Prop extends Facts₀ where

variable [Facts]
-- ==== Proof.KernelIdeal.Peers.lean ====
/-
  The ring arithmetic of the eight devices.

  Device `c` addresses, for every step `d = 1 … 7`, the device `d` places further round the ring,
  `(c + d) mod 8`: once for the entry signal, once for the copy of its row, once to name the row and the
  semaphore it receives on. The program computes each of these with word arithmetic; here each is shown to be
  that device, by evaluation over the eight devices.
-/
import proofs.«900765_g7700000000000766_dist_diff_adaln_cshard_i_b2_s2048_c512_v7x_i8_bf16_1_alg».proof.Proof.Gen.KernelIdeal
import Idealize.ShloMosaic.Lib.Decide

set_option Elab.async false

namespace Cert.KernelIdeal.Peers

open Idealize.ShloMosaic Cert.KernelIdeal Cert.KernelIdeal.Gen

/-- The device `d` places after `c` round the ring. -/
def peer (c : Dev nD) (d : Fin 8) : Dev nD := ⟨(c.val + d.val) % 8, Nat.mod_lt _ (by decide)⟩

/-- The step from `c` to `p`: `peer c (step c p) = p`. -/
def step (c p : Dev nD) : Fin 8 := ⟨(p.val + 8 - c.val) % 8, Nat.mod_lt _ (by decide)⟩

theorem peer_step : ∀ c p : Dev nD, peer c (step c p) = p := by decide
theorem step_peer : ∀ (c : Dev nD) (d : Fin 8), step c (peer c d) = d := by decide
theorem peer_zero : ∀ c : Dev nD, peer c 0 = c := by decide
theorem peer_ne : ∀ (c : Dev nD) (d : Fin 8), d ≠ 0 → peer c d ≠ c := by decide
theorem step_ne_zero : ∀ c p : Dev nD, p ≠ c → step c p ≠ 0 := by decide
theorem peer_inj : ∀ (c : Dev nD) (d d' : Fin 8), peer c d = peer c d' → d = d' := by decide
/-- Going `d` places on and then `8 − d` places on returns. -/
theorem peer_peer_neg : ∀ (c : Dev nD) (d : Fin 8), peer (peer c d) (step (peer c d) c) = c := by decide

/-- The seven entry signals and the seven copies each address the device that many places on. -/
theorem dev1_eq : ∀ c : Dev nD, (⟨k0_dev1 c, k0_dev1_lt c⟩ : Dev nD) = peer c 1 := by decide +kernel
theorem dev2_eq : ∀ c : Dev nD, (⟨k0_dev2 c, k0_dev2_lt c⟩ : Dev nD) = peer c 2 := by decide +kernel
theorem dev3_eq : ∀ c : Dev nD, (⟨k0_dev3 c, k0_dev3_lt c⟩ : Dev nD) = peer c 3 := by decide +kernel
theorem dev4_eq : ∀ c : Dev nD, (⟨k0_dev4 c, k0_dev4_lt c⟩ : Dev nD) = peer c 4 := by decide +kernel
theorem dev5_eq : ∀ c : Dev nD, (⟨k0_dev5 c, k0_dev5_lt c⟩ : Dev nD) = peer c 5 := by decide +kernel
theorem dev6_eq : ∀ c : Dev nD, (⟨k0_dev6 c, k0_dev6_lt c⟩ : Dev nD) = peer c 6 := by decide +kernel
theorem dev7_eq : ∀ c : Dev nD, (⟨k0_dev7 c, k0_dev7_lt c⟩ : Dev nD) = peer c 7 := by decide +kernel
theorem dev8_eq : ∀ c : Dev nD, (⟨k0_dev8 c, k0_dev8_lt c⟩ : Dev nD) = peer c 1 := by decide +kernel
theorem dev9_eq : ∀ c : Dev nD, (⟨k0_dev9 c, k0_dev9_lt c⟩ : Dev nD) = peer c 2 := by decide +kernel
theorem dev10_eq : ∀ c : Dev nD, (⟨k0_dev10 c, k0_dev10_lt c⟩ : Dev nD) = peer c 3 := by decide +kernel
theorem dev11_eq : ∀ c : Dev nD, (⟨k0_dev11 c, k0_dev11_lt c⟩ : Dev nD) = peer c 4 := by decide +kernel
theorem dev12_eq : ∀ c : Dev nD, (⟨k0_dev12 c, k0_dev12_lt c⟩ : Dev nD) = peer c 5 := by decide +kernel
theorem dev13_eq : ∀ c : Dev nD, (⟨k0_dev13 c, k0_dev13_lt c⟩ : Dev nD) = peer c 6 := by decide +kernel
theorem dev14_eq : ∀ c : Dev nD, (⟨k0_dev14 c, k0_dev14_lt c⟩ : Dev nD) = peer c 7 := by decide +kernel

/-- The row and the receive semaphore of step `1 + r`: those of the device that many places on. -/
theorem off4_eq : ∀ (c : Dev nD) (r : Fin 7), k0_off4 c (BitVec.ofNat 32 (1 + r.val)) = ![(peer c ⟨1 + r.val, by omega⟩).val] := by decide +kernel
theorem off5_eq : ∀ (c : Dev nD) (r : Fin 7), k0_off5 c (BitVec.ofNat 32 (1 + r.val)) = ![(peer c ⟨1 + r.val, by omega⟩).val, 0, 0] := by decide +kernel

end Cert.KernelIdeal.Peers
-- ==== Proof.KernelIdeal.Terms.lean ====
/-
  The kernel's values as pure functions of the arrays.

  Device `p` contributes one row of statistics of its block `x_p` (2 × 2048 × 512): for every batch `b` and
  position `s` the sum over its 512 channels of `x` and of `x²`, the two stacked into a 4 × 2048 row. The gathered
  table has these eight rows; every device ends holding the same table. Its sum over the eight rows is the sum over
  all 4096 channels, from which mean, variance, the inverse standard deviation and the result are computed.
-/
import proofs.«900765_g7700000000000766_dist_diff_adaln_cshard_i_b2_s2048_c512_v7x_i8_bf16_1_alg».proof.Proof.Gen.KernelIdeal.Skeleton
import Idealize.ShloMosaic.Lib.ValueIdx

noncomputable section

namespace Cert.KernelIdeal.Terms

open Idealize.ShloMosaic Cert.KernelIdeal Cert.KernelIdeal.Gen

variable {F : FTy → Type} [FloatOps F]

/-- One device's row of the table: the channel sums of its block and of its block's squares. -/
def statRow (x : Vec F S2x2048x512 .f32) : FVec F S1x4x2048 .f32 := k0_pay3 (k0_pay1 x)

/-- The gathered table: row `p` is device `p`'s row. -/
def allStats (X : Dev nD → Vec F S2x2048x512 .f32) : Vec F S8x4x2048 .f32 :=
  fun i => statRow (X (i 0)) (ValueIdx.ix3 (0 : Fin 1) (i 1) (i 2))

/-- The result block of a device from its own blocks and the gathered table. -/
def outOf (x : Vec F S2x2048x512 .f32) (t : Vec F S2x128 .f32) (ws wsh : Vec F S128x512 .f32)
    (st : Vec F S8x4x2048 .f32) : FVec F S2x2048x512 .bf16 :=
  k0_pay8 (k0_pay2 (k0_pay1 x)) (k0_pay4 t wsh) (k0_pay5 t ws) (k0_pay6 st) (k0_pay7 st)

end Cert.KernelIdeal.Terms

end
-- ==== Proof.KernelIdeal.Proto.lean ====
/-
  The cross-device protocol of the all-gather of statistics rows, as a schedule of rounds.

  Every device `c` has one entry cell (the barrier semaphore), and for every step `d` one send cell and one
  receive cell. Every duty is named by the device that pays it, and everything happens in round 0:
  * the entry cell of `c` has seven duties of one unit, one from every other device `p`; `p`'s signal hands
    `c` the row of `p`'s table that `c` will write (row `c`), at arbitrary contents;
  * the receive cell of `c` for device `p ≠ c` has one duty, the row's worth of units, paid by `p`'s copy;
    it hands `c` row `p` of its own table holding row `p` of the gathered table;
  * the send cell of `c` for step `d ≠ 0` has one duty, paid by `c`'s own copy leaving; it hands back the share
    of `c`'s own row that the copy read.
  A device waits on its entry cell (level 1) while it still owes its seven copies to receive cells (level 2), and
  on its receive and send cells when it owes nothing: every wait is below everything its waiter owes.
-/
import proofs.«900765_g7700000000000766_dist_diff_adaln_cshard_i_b2_s2048_c512_v7x_i8_bf16_1_alg».proof.Proof.KernelIdeal.Peers
import proofs.«900765_g7700000000000766_dist_diff_adaln_cshard_i_b2_s2048_c512_v7x_i8_bf16_1_alg».proof.Proof.KernelIdeal.Terms
import proofs.«900765_g7700000000000766_dist_diff_adaln_cshard_i_b2_s2048_c512_v7x_i8_bf16_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen Cert.KernelIdeal.Peers

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the protocol's (duties named by devices) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Semaphores and cells -/

/-- The entry semaphore: the barrier semaphore of the collective. -/
abbrev barS : Sem sig := (SemArray.scalar (sig.barrier 0 rfl) : Sems sig S_).sem
/-- The send semaphore of step `d` and the receive semaphore for device `p`. -/
abbrev sendSem (d : Fin 8) : DmaSem sig := ⟨5 + d.val, by have := d.isLt; show 5 + d.val < 21; omega⟩
abbrev recvSem (p : Dev nD) : DmaSem sig := ⟨13 + p.val, by have h8 : p.val < 8 := p.isLt; show 13 + p.val < 21; omega⟩

abbrev barCell (c : Dev nD) : GSem nD τ sig := ((c : Thread nD τ), .reg barS)
abbrev sendCell (c : Dev nD) (d : Fin 8) : GSem nD τ sig := ((c : Thread nD τ), .dma (sendSem d))
abbrev recvCell (c : Dev nD) (p : Dev nD) : GSem nD τ sig := ((c : Thread nD τ), .dma (recvSem p))

/-! ## Rows of the table -/

/-- Row `p` of the table, as the copies and their waits view it. -/
abbrev rowM (p : Dev nD) : Memref sig .tc .vmem S4x2048 .f32 :=
  ((Memref.whole cc0_scratch0 : Memref sig .tc .vmem S8x4x2048 .f32).slice
      (Rect.unit (s := S8x4x2048) (k0_off3 p) S1x4x2048.size (k0_off3_inb p)) (fun _ => rfl)).squeeze S4x2048 squeezes_S1x4x2048_S4x2048

/-- The units one row's copy credits. -/
abbrev N : ℕ := (rowM (0 : Dev nD)).view.dmaCredit

/-- Device `c` holds row `p` of its table at share `q` and contents `f`. -/
def rowPts (c p : Dev nD) (q : PosShare TreeShare) (f : Buf (Elt F) ((rowM p).view.loc (c : Thread nD τ))) : sProp 𝕄 :=
  (rowM p).view.loc (c : Thread nD τ) ↦[(rowM p).view.set]{q} f

/-- The share of its own row a device lends to its copy of step `d` (step 0: the share it keeps). -/
def shr : Fin 8 → PosShare TreeShare
  | 0 => fullShare.left.left.left
  | 1 => fullShare.left.left.right
  | 2 => fullShare.left.right.left
  | 3 => fullShare.left.right.right
  | 4 => fullShare.right.left.left
  | 5 => fullShare.right.left.right
  | 6 => fullShare.right.right.left
  | 7 => fullShare.right.right.right

/-! ## The schedule -/

section Sched

variable (ST : Vec F S8x4x2048 .f32)

/-- Which cell a pair of a thread and a semaphore is. -/
inductive Kind where
  | bar | send (d : Fin 8) | recv (p : Dev nD) | other
  deriving DecidableEq

def kindOf (g : GSem nD τ sig) : Kind :=
  if g.1.2 ≠ .tc then .other else
  match g.2 with
  | .reg s => if s = barS then .bar else .other
  | .dma s => if h : 13 ≤ s.val then .recv ⟨s.val - 13, by have := s.isLt; show s.val - 13 < 8; have : s.val < 21 := s.isLt; omega⟩
              else if h5 : 5 ≤ s.val then .send ⟨s.val - 5, by show s.val - 5 < 8; omega⟩ else .other

theorem kindOf_bar (c : Dev nD) : kindOf (barCell c) = .bar := by
  unfold kindOf; rw [if_neg (fun h => h rfl)]; exact if_pos rfl
theorem kindOf_send (c : Dev nD) (d : Fin 8) : kindOf (sendCell c d) = .send d := by
  revert c d; decide
theorem kindOf_recv (c p : Dev nD) : kindOf (recvCell c p) = .recv p := by
  revert c p; decide

/-- What a duty of a cell hands its owner. -/
def payOf (g : GSem nD τ sig) (p : Dev nD) : sProp 𝕄 :=
  match kindOf g with
  | .bar => iprop(∃ f, rowPts p g.1.1 fullShare f)
  | .recv q => rowPts g.1.1 q fullShare ST
  | .send d => rowPts g.1.1 g.1.1 (shr d) ST
  | .other => iprop(emp)

def dutiesOf (g : GSem nD τ sig) : Finset (Dev nD) :=
  match kindOf g with
  | .bar => Finset.univ.erase g.1.1
  | .recv q => if q = g.1.1 then ∅ else {q}
  | .send d => if d = 0 then ∅ else {g.1.1}
  | .other => ∅

def gather : Rounds.Schedule (GSem nD τ sig) (Dev nD) 𝕄 where
  duties g r := if r = 0 then dutiesOf g else ∅
  unitless _ := False
  amount g _ _ := if kindOf g = .bar then 1 else N
  payload g _ p := payOf ST g p
  amount_pos g _ _ _ := by
    by_cases h : kindOf g = .bar
    · rw [if_pos h]; exact Nat.one_pos
    · rw [if_neg h]; exact View.dmaCredit_pos _ (by decide)

instance rowPts_storable (c p : Dev nD) (q : PosShare TreeShare) (f : Buf (Elt F) ((rowM p).view.loc (c : Thread nD τ))) :
    BI.Storable (upEmb : UEmb _ 𝕄) (rowPts (F := F) c p q f) := by unfold rowPts; infer_instance

instance gather_payload_storable (ST : Vec F S8x4x2048 .f32) (g : GSem nD τ sig) (r : ℕ) (p : Dev nD) :
    BI.Storable (upEmb : UEmb _ 𝕄) ((gather ST).payload g r p) := by
  show BI.Storable upEmb (payOf ST g p)
  unfold payOf
  split <;> infer_instance

end Sched

/-! ## The schedule's tables -/

section Tables

variable (ST : Vec F S8x4x2048 .f32) (c : Dev nD)

omit [FloatOps F] in
theorem duties_bar : (gather (F := F) ST).duties (barCell c) 0 = Finset.univ.erase c := by
  show (if (0 : ℕ) = 0 then dutiesOf (barCell c) else ∅) = _
  rw [if_pos rfl]; unfold dutiesOf; rw [kindOf_bar]
omit [FloatOps F] in
theorem duties_send (d : Fin 8) (hd : d ≠ 0) : (gather (F := F) ST).duties (sendCell c d) 0 = {c} := by
  show (if (0 : ℕ) = 0 then dutiesOf (sendCell c d) else ∅) = _
  rw [if_pos rfl]; unfold dutiesOf; rw [kindOf_send]; exact if_neg hd
omit [FloatOps F] in
theorem duties_send_zero (r : ℕ) : (gather (F := F) ST).duties (sendCell c 0) r = ∅ := by
  show (if r = 0 then dutiesOf (sendCell c 0) else ∅) = _
  split
  · unfold dutiesOf; rw [kindOf_send]; exact if_pos rfl
  · rfl
omit [FloatOps F] in
theorem duties_recv (p : Dev nD) (hp : p ≠ c) : (gather (F := F) ST).duties (recvCell c p) 0 = {p} := by
  show (if (0 : ℕ) = 0 then dutiesOf (recvCell c p) else ∅) = _
  rw [if_pos rfl]; unfold dutiesOf; rw [kindOf_recv]; exact if_neg hp
omit [FloatOps F] in
theorem duties_recv_self (r : ℕ) : (gather (F := F) ST).duties (recvCell c c) r = ∅ := by
  show (if r = 0 then dutiesOf (recvCell c c) else ∅) = _
  split
  · unfold dutiesOf; rw [kindOf_recv]; exact if_pos rfl
  · rfl
omit [FloatOps F] in
theorem duties_later (g : GSem nD τ sig) : ∀ r, 1 ≤ r → (gather (F := F) ST).duties g r = ∅ :=
  fun r hr => by show (if r = 0 then dutiesOf g else ∅) = _; exact if_neg (by omega)

omit [FloatOps F] in
theorem amount_bar (p : Dev nD) : (gather (F := F) ST).amount (barCell c) 0 p = 1 := by
  show (if kindOf (barCell c) = Kind.bar then 1 else N) = 1; rw [kindOf_bar]; exact if_pos rfl
omit [FloatOps F] in
theorem amount_send (d : Fin 8) (p : Dev nD) : (gather (F := F) ST).amount (sendCell c d) 0 p = N := by
  show (if kindOf (sendCell c d) = Kind.bar then 1 else N) = N; rw [kindOf_send]; exact if_neg (fun h => by cases h)
omit [FloatOps F] in
theorem amount_recv (q p : Dev nD) : (gather (F := F) ST).amount (recvCell c q) 0 p = N := by
  show (if kindOf (recvCell c q) = Kind.bar then 1 else N) = N; rw [kindOf_recv]; exact if_neg (fun h => by cases h)

omit [FloatOps F] in
theorem expect_bar : (gather (F := F) ST).expect (barCell c) 0 = 7 := by
  unfold Schedule.expect Schedule.amountOf
  rw [duties_bar, Finset.sum_congr rfl fun d _ => amount_bar ST c d, Finset.sum_const, smul_eq_mul, Nat.mul_one,
    Finset.card_erase_of_mem (Finset.mem_univ c), Finset.card_univ, Fintype.card_fin]
  rfl
omit [FloatOps F] in
theorem expect_send (d : Fin 8) (hd : d ≠ 0) : (gather (F := F) ST).expect (sendCell c d) 0 = N := by
  unfold Schedule.expect Schedule.amountOf; rw [duties_send ST c d hd, Finset.sum_singleton, amount_send]
omit [FloatOps F] in
theorem expect_recv (p : Dev nD) (hp : p ≠ c) : (gather (F := F) ST).expect (recvCell c p) 0 = N := by
  unfold Schedule.expect Schedule.amountOf; rw [duties_recv ST c p hp, Finset.sum_singleton, amount_recv]

theorem payload_bar (p : Dev nD) : (gather ST).payload (barCell c) 0 p = iprop(∃ f, rowPts (F := F) p c fullShare f) := by
  show payOf ST (barCell c) p = _; unfold payOf; rw [kindOf_bar]
theorem payload_send (d : Fin 8) (p : Dev nD) : (gather ST).payload (sendCell c d) 0 p = rowPts c c (shr d) ST := by
  show payOf ST (sendCell c d) p = _; unfold payOf; rw [kindOf_send]
theorem payload_recv (q p : Dev nD) : (gather ST).payload (recvCell c q) 0 p = rowPts c q fullShare ST := by
  show payOf ST (recvCell c q) p = _; unfold payOf; rw [kindOf_recv]

/-- The rest of the entry cell's round, no duty taken: from every other device, the row of its table this device writes. -/
theorem rest_bar : bigSep ((gather ST).duties (barCell c) 0 \ ∅) (fun p => (gather ST).payload (barCell c) 0 p)
    = bigSep (Finset.univ.erase c) (fun p => iprop(∃ f, rowPts (F := F) p c fullShare f)) := by
  rw [Finset.sdiff_empty, duties_bar]; exact bigSep_congr fun p _ => payload_bar ST c p
theorem rest_send (d : Fin 8) (hd : d ≠ 0) : bigSep ((gather ST).duties (sendCell c d) 0 \ ∅) (fun p => (gather ST).payload (sendCell c d) 0 p)
    = rowPts c c (shr d) ST := by
  rw [Finset.sdiff_empty, duties_send ST c d hd, bigSep_singleton, payload_send]
theorem rest_recv (p : Dev nD) (hp : p ≠ c) : bigSep ((gather ST).duties (recvCell c p) 0 \ ∅) (fun q => (gather ST).payload (recvCell c p) 0 q)
    = rowPts c p fullShare ST := by
  rw [Finset.sdiff_empty, duties_recv ST c p hp, bigSep_singleton, payload_recv]

end Tables

/-! ## What each device owes at launch; the levels -/

/-- Step `d`'s entry signal: one unit to the entry cell of the device `d` places on; -/
abbrev sigT (c : Dev nD) (d : Fin 8) : CellTallies nD τ sig Unit := tallyAt (barCell (peer c d)) () 1
/-- step `d`'s copy: a row's units to that device's receive cell for `c`. -/
abbrev cpyT (c : Dev nD) (d : Fin 8) : CellTallies nD τ sig Unit := tallyAt (recvCell (peer c d) c) () N

/-- What a device owes once its entry signals are sent: its seven copies, the first to go summed last. -/
def Ocpy (c : Dev nD) : CellTallies nD τ sig Unit :=
  cpyT c 7 + cpyT c 6 + cpyT c 5 + cpyT c 4 + cpyT c 3 + cpyT c 2 + cpyT c 1
/-- What a device owes at launch: its seven copies and its seven entry signals, the first to go summed last. -/
def O₀ (c : Dev nD) : CellTallies nD τ sig Unit :=
  Ocpy c + sigT c 7 + sigT c 6 + sigT c 5 + sigT c 4 + sigT c 3 + sigT c 2 + sigT c 1

def L (g : GSem nD τ sig) : Finset Unit := if g.1.2 = .tc then {()} else ∅
/-- Entry cells at 1, receive cells at 2, everything else (staging, send) at 0. -/
def lv (g : GSem nD τ sig) (_ : Unit) : ℕ :=
  match kindOf g with
  | .bar => 1
  | .recv _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [kindOf_bar]
theorem lv_recv (c p : Dev nD) (u : Unit) : lv (recvCell c p) u = 2 := by unfold lv; rw [kindOf_recv]
theorem lv_send (c : Dev nD) (d : Fin 8) (u : Unit) : lv (sendCell c d) u = 0 := by unfold lv; rw [kindOf_send]

end Cert.KernelIdeal.Proto

end
-- ==== Proof.KernelIdeal.Data.lean ====
/-
  What each device starts its kernel from and ends it with.

  From the initial memory `m`: device `c`'s four blocks, the gathered table (row `p` the statistics of device
  `p`'s block of `x`), and device `c`'s result. A device starts holding the records of every cell's invariant,
  its position at round 0 of its own seventeen cells, the tokens of the twenty-one duties it pays (for every step
  `d ≠ 0`: the entry signal and the copy to the device `d` places on, and its own copy's departure), the credit for
  the units it will wait for, and its table at arbitrary contents. It ends with its table, its sixteen own
  semaphores at zero, and its result in the result's staging buffer.
-/
import proofs.«900765_g7700000000000766_dist_diff_adaln_cshard_i_b2_s2048_c512_v7x_i8_bf16_1_alg».proof.Proof.KernelIdeal.Proto
import proofs.«900765_g7700000000000766_dist_diff_adaln_cshard_i_b2_s2048_c512_v7x_i8_bf16_1_alg».proof.Proof.Gen.KernelIdeal.Points

noncomputable section

namespace Cert.KernelIdeal.Data

open Cert.KernelIdeal Cert.KernelIdeal.Gen Cert.KernelIdeal.Peers Cert.KernelIdeal.Terms Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- Device `c`'s blocks of the four arrays. -/
def xOf (c : Dev nD) : Vec F S2x2048x512 .f32 := m ((c : Thread nD τ).loc main_arg0)
def tOf (c : Dev nD) : Vec F S2x128 .f32 := m ((c : Thread nD τ).loc main_arg1)
def wsOf (c : Dev nD) : Vec F S128x512 .f32 := m ((c : Thread nD τ).loc main_arg2)
def wshOf (c : Dev nD) : Vec F S128x512 .f32 := m ((c : Thread nD τ).loc main_arg3)

/-- The gathered table: row `p` is the statistics of device `p`'s block. -/
def tableOf : Vec F S8x4x2048 .f32 := allStats (xOf m)

/-- Device `c`'s result. -/
def outAt (c : Dev nD) : FVec F S2x2048x512 .bf16 := outOf (xOf m c) (tOf m c) (wsOf m c) (wshOf m c) (tableOf m)

/-- The schedule at this memory's table. -/
abbrev Rd : Rounds.Schedule (GSem nD τ sig) (Dev nD) 𝕄 := gather (tableOf m)

/-! ## A device's seventeen cells -/

/-- The kernel's own sixteen semaphores, in their order: the eight send semaphores, then the eight receive semaphores. -/
abbrev osem : Fin 16 → SemLoc sig := fun k => .dma ⟨5 + k.val, by have := k.isLt; show 5 + k.val < 21; omega⟩
/-- All seventeen: the entry semaphore first. -/
abbrev csem : Fin 17 → SemLoc sig := fun k => if h : k.val = 0 then .reg barS else osem ⟨k.val - 1, by have := k.isLt; omega⟩
abbrev kcell (ck : Dev nD × Fin 17) : GSem nD τ sig := ((ck.1 : Thread nD τ), csem ck.2)

/-- The steps `1 … 7`. -/
abbrev steps : Finset (Fin 8) := Finset.univ.erase 0

/-- The table's buffer on device `c` at contents `f`. -/
def scrPts (c : Dev nD) (f : Buf (Elt F) ((c : Thread nD τ).loc cc0_scratch0)) : sProp 𝕄 :=
  (((c : Thread nD τ).loc cc0_scratch0) ↦{fullShare} f : sProp 𝕄)

/-! ## The ghost state -/

/-- The records every device holds: every cell's invariant under the name the launch gave it, and that round 0 of every cell is reached. -/
def records (K : Dev nD × Fin 17 → ℕ) : sProp 𝕄 :=
  iprop((bigSep Finset.univ fun ck : Dev nD × Fin 17 => cellInv ER (Rd m) (K ck) (kcell ck))
    ∗ bigSep Finset.univ fun ck : Dev nD × Fin 17 => reached ER (kcell ck) 0)

instance records_persistent (K : Dev nD × Fin 17 → ℕ) : BI.Persistent (records m K) := by unfold records; infer_instance

/-- The tokens of the duties device `c` pays at step `d`: the entry signal and the copy to the device `d` places on, and its own copy's departure. -/
def stepToks (c : Dev nD) (d : Fin 8) : sProp 𝕄 :=
  iprop(dutyTok ER (barCell (peer c d)) 0 c ∗ dutyTok ER (recvCell (peer c d) c) 0 c ∗ dutyTok ER (sendCell c d) 0 c)

/-- What stays with device `c`: its positions, and the tokens of the duties it pays. -/
def linear (c : Dev nD) : sProp 𝕄 :=
  iprop((bigSep Finset.univ fun k : Fin 17 => atPos ER (kcell (c, k)) 0 ∅ 0) ∗ bigSep steps (stepToks c))

def ghost (K : Dev nD × Fin 17 → ℕ) (c : Dev nD) : sProp 𝕄 := iprop(records m K ∗ linear c)

/-- The credit for what device `c` waits for: seven units on its entry cell, a row's units on each receive cell. -/
def creds (c : Dev nD) : sProp 𝕄 :=
  iprop(cred (tallyAt (barCell c) () 7) ∗ bigSep steps fun d => cred (tallyAt (recvCell c (peer c d)) () N))

/-- What device `c`'s kernel starts from, besides its buffers. -/
def start (c : Dev nD) : sProp 𝕄 := iprop((∃ K, ghost m K c) ∗ creds c ∗ levAts L lv)

def Φ₀ (c : Dev nD) : sProp 𝕄 := iprop(start m c ∗ ∃ f, scrPts c f)
/-- After the body: the table, and the sixteen own semaphores at zero. -/
def Φ₁ (c : Dev nD) : sProp 𝕄 := iprop((∃ f, scrPts (F := F) c f) ∗ bigSep Finset.univ fun k : Fin 16 => semVal ((c : Thread nD τ), osem k) 0)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xOf m c
    | ⟨1, _⟩ => tOf m c
    | ⟨2, _⟩ => wsOf m c
    | ⟨3, _⟩ => wshOf m c
    | ⟨4, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

/-- A staging buffer `b` of device `c` holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body's pre- and postcondition -/

def bodyPre (K : Dev nD × Fin 17 → ℕ) (c : Dev nD) : sProp 𝕄 :=
  iprop((ghost m K c ∗ creds c ∗ levAts L lv ∗ ∃ f, scrPts c f)
    ∗ (dats m ρ 0 c).owesAt () t0_0.castSucc
    ∗ stg c cc0_stg0_0 (xOf m c) ∗ stg c cc0_stg1_0 (tOf m c) ∗ stg c cc0_stg2_0 (wsOf m c) ∗ stg c cc0_stg3_0 (wshOf m c)
    ∗ (∃ g, stg c cc0_stg4_0 g))

def bodyPost (c : Dev nD) : sProp 𝕄 :=
  iprop(Φ₁ c ∗ (dats m ρ 0 c).owesAt () t0_0.succ
    ∗ stg c cc0_stg0_0 (xOf m c) ∗ stg c cc0_stg1_0 (tOf m c) ∗ stg c cc0_stg2_0 (wsOf m c) ∗ stg c cc0_stg3_0 (wshOf m c)
    ∗ stg c cc0_stg4_0 (outAt m c))

end Cert.KernelIdeal.Data

end
-- ==== Proof.KernelIdeal.Credit.lean ====
/-
  The levels and the launch credit.

  A device waits on its entry cell (level 1) owing only copies to receive cells (level 2), on the staging
  semaphores (level 0) owing entry signals and copies, and on its send and receive cells owing nothing. The
  credit the launch deals a device is the sum of what the others owe its cells: seven units on its entry cell,
  one row's units on each receive cell for another device.
-/
import proofs.«900765_g7700000000000766_dist_diff_adaln_cshard_i_b2_s2048_c512_v7x_i8_bf16_1_alg».proof.Proof.KernelIdeal.Data

noncomputable section

namespace Cert.KernelIdeal.Credit

open Cert.KernelIdeal Cert.KernelIdeal.Gen Cert.KernelIdeal.Peers Cert.KernelIdeal.Terms Cert.KernelIdeal.Proto Cert.KernelIdeal.Data

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Which cell is which -/

theorem bar_eq_iff {a b : Dev nD} : Iff (barCell a = barCell b) (a = b) :=
  ⟨fun h => Fin.ext (congrArg (fun g : GSem nD τ sig => g.1.1.val) h), fun h => h ▸ rfl⟩

theorem recvSem_inj {p q : Dev nD} (h : recvSem p = recvSem q) : p = q := by
  have h' : 13 + p.val = 13 + q.val := congrArg (fun s : DmaSem sig => s.val) h
  exact Fin.ext (by omega)

theorem recv_eq_iff {a b p q : Dev nD} : Iff (recvCell a p = recvCell b q) (a = b ∧ p = q) :=
  ⟨fun h => ⟨Fin.ext (congrArg (fun g : GSem nD τ sig => g.1.1.val) h),
      recvSem_inj (SemLoc.dma.inj (congrArg Prod.snd h))⟩,
    fun h => by rw [h.1, h.2]⟩

theorem recv_ne_bar {a b p : Dev nD} : recvCell a p ≠ barCell b := fun h => by
  have := congrArg Prod.snd h; cases this

theorem bar_ne_recv {a b p : Dev nD} : barCell b ≠ recvCell a p := fun h => recv_ne_bar h.symm

/-! ## Where a device owes -/

/-- A tally at one cell is positive at that cell only. -/
theorem tallyAt_pos {g g' : GSem nD τ sig} {u u' : Unit} {k : ℕ}
    (h : 0 < (tallyAt g u k : CellTallies nD τ sig Unit) g' u') : g' = g := by
  rw [tallyAt_apply] at h
  by_contra hn
  rw [if_neg (fun h' => hn h'.1)] at h
  exact Nat.lt_irrefl 0 h

/-- The seven copies are owed to receive cells. -/
theorem Ocpy_pos {c : Dev nD} {g : GSem nD τ sig} {u : Unit} (h : 0 < Ocpy c g u) :
    ∃ d : Fin 8, g = recvCell (peer c d) c := by
  unfold Ocpy at h
  rcases Pipeline.add_pos_cases h with h | h
  · rcases Pipeline.add_pos_cases h with h | h
    · rcases Pipeline.add_pos_cases h with h | h
      · rcases Pipeline.add_pos_cases h with h | h
        · rcases Pipeline.add_pos_cases h with h | h
          · rcases Pipeline.add_pos_cases h with h | h
            · exact ⟨7, tallyAt_pos h⟩
            · exact ⟨6, tallyAt_pos h⟩
          · exact ⟨5, tallyAt_pos h⟩
        · exact ⟨4, tallyAt_pos h⟩
      · exact ⟨3, tallyAt_pos h⟩
    · exact ⟨2, tallyAt_pos h⟩
  · exact ⟨1, tallyAt_pos h⟩

/-- At launch a device owes receive cells and entry cells only. -/
theorem O₀_pos {c : Dev nD} {g : GSem nD τ sig} {u : Unit} (h : 0 < O₀ c g u) :
    (∃ d : Fin 8, g = recvCell (peer c d) c) ∨ ∃ d : Fin 8, g = barCell (peer c d) := by
  unfold O₀ at h
  rcases Pipeline.add_pos_cases h with h | h
  · rcases Pipeline.add_pos_cases h with h | h
    · rcases Pipeline.add_pos_cases h with h | h
      · rcases Pipeline.add_pos_cases h with h | h
        · rcases Pipeline.add_pos_cases h with h | h
          · rcases Pipeline.add_pos_cases h with h | h
            · rcases Pipeline.add_pos_cases h with h | h
              · exact Or.inl (Ocpy_pos h)
              · exact Or.inr ⟨7, tallyAt_pos h⟩
            · exact Or.inr ⟨6, tallyAt_pos h⟩
          · exact Or.inr ⟨5, tallyAt_pos h⟩
        · exact Or.inr ⟨4, tallyAt_pos h⟩
      · exact Or.inr ⟨3, tallyAt_pos h⟩
    · exact Or.inr ⟨2, tallyAt_pos h⟩
  · exact Or.inr ⟨1, tallyAt_pos h⟩

/-! ## The levels -/

/-- At its entry wait a device owes its seven copies only: receive cells, above its entry cell. -/
theorem mayWait_bar (c : Dev nD) :
    (levAts L lv : sProp 𝕄) ⊢ MayWait (c : Thread nD τ) (.reg barS) () (Ocpy c) :=
  MayOwe.of_cut (L := L) (lev := lv) 1
    (fun p hp => by rw [Finset.mem_singleton.mp hp, L_tc]; exact Finset.mem_singleton_self _)
    (fun g u hg => by
      obtain ⟨d, rfl⟩ := Ocpy_pos hg
      rw [L_tc]; exact Finset.mem_singleton_self _)
    (fun p hp => by rw [Finset.mem_singleton.mp hp]; exact Nat.le_of_eq (lv_bar c ()))
    (fun g u hg => by
      obtain ⟨d, rfl⟩ := Ocpy_pos hg
      rw [lv_recv]; decide)

/-- A staging semaphore (one of the first five DMA semaphores) is none of the protocol's cells. -/
theorem kindOf_stage (c : Dev nD) (q : DmaSem sig) (hq : q.val < 5) : kindOf ((c : Thread nD τ), .dma q) = .other := by
  unfold kindOf
  rw [if_neg (fun h => h rfl)]
  show (if h : 13 ≤ q.val then _ else if h5 : 5 ≤ q.val then _ else Kind.other) = _
  rw [dif_neg (by omega), dif_neg (by omega)]

/-- A wait on a staging semaphore (level 0) is below everything a device owes at launch (levels 1 and 2), and
    below nothing once it owes nothing. -/
theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by
        rcases O₀_pos hg with ⟨d, rfl⟩ | ⟨d, rfl⟩ <;> (rw [L_tc]; exact Finset.mem_singleton_self _))
      (fun p hp => by
        rw [Finset.mem_singleton.mp hp]
        show lv ((c : Thread nD τ), .dma q) () ≤ 0
        unfold lv; rw [kindOf_stage c q hq])
      (fun g u hg => by
        rcases O₀_pos hg with ⟨d, rfl⟩ | ⟨d, rfl⟩
        · rw [lv_recv]; decide
        · rw [lv_bar]; decide)
  · rw [MayWait_zero]; iintro -; iempintro

/-- The pipeline's waits on the staging semaphores are below everything a device owes, at the start and at the end. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The launch credit -/

/-- What device `d` owes device `c`'s entry cell: one unit unless it is `c` itself (its signal of the step from `d` to `c`). -/
theorem owed_bar (d c : Dev nD) : O₀ d (barCell c) () = if d ≠ c then 1 else 0 := by
  have key : ∀ d c : Dev nD,
      (if c = peer d 7 then 1 else 0) + (if c = peer d 6 then 1 else 0) + (if c = peer d 5 then 1 else 0)
        + (if c = peer d 4 then 1 else 0) + (if c = peer d 3 then 1 else 0) + (if c = peer d 2 then 1 else 0)
        + (if c = peer d 1 then 1 else 0) = if d ≠ c then 1 else 0 := by decide
  unfold O₀ Ocpy
  simp only [Pi.add_apply, Finsupp.add_apply, tallyAt_ne_cell bar_ne_recv, Finsupp.zero_apply, Nat.add_zero, Nat.zero_add,
    tallyAt_apply, bar_eq_iff, and_true]
  exact key d c

/-- What device `d` owes device `c`'s receive cell for `p`: a row's units if it is `p` and not `c` (its copy of the step from `p` to `c`). -/
theorem owed_recv (d c p : Dev nD) : O₀ d (recvCell c p) () = if d = p ∧ p ≠ c then N else 0 := by
  have key : ∀ d c p : Dev nD,
      (if c = peer d 7 ∧ p = d then 1 else 0) + (if c = peer d 6 ∧ p = d then 1 else 0) + (if c = peer d 5 ∧ p = d then 1 else 0)
        + (if c = peer d 4 ∧ p = d then 1 else 0) + (if c = peer d 3 ∧ p = d then 1 else 0) + (if c = peer d 2 ∧ p = d then 1 else 0)
        + (if c = peer d 1 ∧ p = d then 1 else 0) = if d = p ∧ p ≠ c then 1 else 0 := by decide
  have hmul : ∀ (P : Prop) [Decidable P] (n : ℕ), (if P then n else 0) = (if P then 1 else 0) * n := by
    intro P _ n; split <;> simp
  unfold O₀ Ocpy
  simp only [Pi.add_apply, Finsupp.add_apply, tallyAt_ne_cell recv_ne_bar, Finsupp.zero_apply, Nat.add_zero, Nat.zero_add,
    tallyAt_apply, recv_eq_iff, and_true]
  generalize N = n
  rw [hmul (c = peer d 7 ∧ p = d), hmul (c = peer d 6 ∧ p = d), hmul (c = peer d 5 ∧ p = d), hmul (c = peer d 4 ∧ p = d),
    hmul (c = peer d 3 ∧ p = d), hmul (c = peer d 2 ∧ p = d), hmul (c = peer d 1 ∧ p = d), hmul (d = p ∧ p ≠ c),
    ← Nat.add_mul, ← Nat.add_mul, ← Nat.add_mul, ← Nat.add_mul, ← Nat.add_mul, ← Nat.add_mul, key d c p]

/-- The launch deals a device's entry cell seven units: one from every other device. -/
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

/-- The launch deals a device's receive cell for another device `p` a row's units: `p`'s copy. -/
theorem launch_recv (c p : Dev nD) (hp : p ≠ c) :
    tallyOn (recvCell c p) (launchCredit (Pipeline.owing O₀) 0 (recvCell c p)) = (tallyAt (recvCell c p) () N : CellTallies nD τ sig Unit) := by
  unfold tallyAt; refine congrArg _ (Finsupp.ext fun u => ?_); cases u
  rw [Pipeline.launchCredit_owing, Finsupp.single_eq_same, Finset.sum_congr rfl fun d _ => owed_recv d c p,
    Finset.sum_congr rfl fun d _ => (if_congr (and_iff_left hp) rfl rfl : (if d = p ∧ p ≠ c then N else 0) = if d = p then N else 0),
    Finset.sum_ite_eq' Finset.univ p fun _ => N, if_pos (Finset.mem_univ _)]

/-- The receive semaphore of the device a step on, as an embedding of the steps into the semaphores. -/
def recvAt (c : Dev nD) : Fin 8 ↪ SemLoc sig :=
  ⟨fun d => .dma (recvSem (peer c d)), fun d d' h => peer_inj c d d' (recvSem_inj (SemLoc.dma.inj h))⟩

/-- The credit the launch deals device `c` is the credit its waits need. -/
theorem creds_intro (c : Dev nD) : (Pipeline.launchCred O₀ c : sProp 𝕄) ⊢ creds (F := F) c := by
  unfold Pipeline.launchCred creds
  rw [bigSep_univ_at _ (SemLoc.reg barS), launch_bar]
  refine sep_mono_right ?_
  have hsub : steps.map (recvAt c) ⊆ (Finset.univ : Finset (SemLoc sig)).erase (SemLoc.reg barS) := fun sm hsm => by
    obtain ⟨d, -, rfl⟩ := Finset.mem_map.mp hsm
    exact Finset.mem_erase.mpr ⟨fun h => (by cases h), Finset.mem_univ _⟩
  refine (bigSep_subset hsub).trans ?_
  rw [bigSep_map]
  refine Entails.of_eq (bigSep_congr fun d hd => ?_)
  exact congrArg cred (launch_recv c (peer c d) (peer_ne c d (Finset.ne_of_mem_erase hd)))

/-- info: 'Cert.KernelIdeal.Credit.mayWait_bar' depends on axioms: [propext, Classical.choice, Quot.sound] -/
#guard_msgs in #print axioms mayWait_bar

/-- info: 'Cert.KernelIdeal.Credit.waits' depends on axioms: [propext, Classical.choice, Quot.sound] -/
#guard_msgs in #print axioms waits

/-- info: 'Cert.KernelIdeal.Credit.creds_intro' depends on axioms: [propext, Classical.choice, Quot.sound] -/
#guard_msgs in #print axioms creds_intro

end Cert.KernelIdeal.Credit

end
-- ==== Proof.KernelIdeal.Spell.lean ====
/-
  The program's spellings of its semaphores and rows, and the canonical ones.

  The program names the send semaphore of step `d` as element `d` of its array of eight, the receive semaphore it is
  credited on at the destination as element `c` (its own place) of the other array, the receive semaphore it waits on
  at step `d` as the element at the place of the device `d` places on, and the rows of the table likewise. Each
  is the canonical semaphore or row of that device.
-/
import proofs.«900765_g7700000000000766_dist_diff_adaln_cshard_i_b2_s2048_c512_v7x_i8_bf16_1_alg».proof.Proof.KernelIdeal.Proto

set_option Elab.async false

namespace Cert.KernelIdeal.Spell

open Idealize.ShloMosaic Cert.KernelIdeal Cert.KernelIdeal.Gen Cert.KernelIdeal.Peers Cert.KernelIdeal.Proto

/-- The send semaphore of each step. -/
theorem send_sem_1 : ((cc0_scratch1.slice (Rect.unit (s := S8) ![1] S1.size inb_S8_S1_1)).squeeze S_ squeezes_S1_S_).sem = sendSem 1 := by decide
theorem send_sem_2 : ((cc0_scratch1.slice (Rect.unit (s := S8) ![2] S1.size inb_S8_S1_2)).squeeze S_ squeezes_S1_S_).sem = sendSem 2 := by decide
theorem send_sem_3 : ((cc0_scratch1.slice (Rect.unit (s := S8) ![3] S1.size inb_S8_S1_3)).squeeze S_ squeezes_S1_S_).sem = sendSem 3 := by decide
theorem send_sem_4 : ((cc0_scratch1.slice (Rect.unit (s := S8) ![4] S1.size inb_S8_S1_4)).squeeze S_ squeezes_S1_S_).sem = sendSem 4 := by decide
theorem send_sem_5 : ((cc0_scratch1.slice (Rect.unit (s := S8) ![5] S1.size inb_S8_S1_5)).squeeze S_ squeezes_S1_S_).sem = sendSem 5 := by decide
theorem send_sem_6 : ((cc0_scratch1.slice (Rect.unit (s := S8) ![6] S1.size inb_S8_S1_6)).squeeze S_ squeezes_S1_S_).sem = sendSem 6 := by decide
theorem send_sem_7 : ((cc0_scratch1.slice (Rect.unit (s := S8) ![7] S1.size inb_S8_S1_7)).squeeze S_ squeezes_S1_S_).sem = sendSem 7 := by decide

/-- The receive semaphore a device's copies are credited on at their destinations: the one at its own place. -/
theorem recv_sem_own : ∀ c : Dev nD,
    ((cc0_scratch2.slice (Rect.unit (s := S8) (k0_off2 c) S1.size (k0_off2_inb c))).squeeze S_ squeezes_S1_S_).sem = recvSem c := by
  decide +kernel

/-- The receive semaphore a device waits on at step `1 + r`: the one at the place of the device that many places on. -/
theorem recv_sem_peer : ∀ (c : Dev nD) (r : Fin 7),
    ((cc0_scratch2.slice (Rect.unit (s := S8) (k0_off4 c (BitVec.ofNat 32 (1 + r.val))) S1.size (k0_off4_inb c r))).squeeze S_ squeezes_S1_S_).sem
      = recvSem (peer c ⟨1 + r.val, by omega⟩) := by
  decide +kernel

/-- Two unit-stride rectangles at equal offsets are equal. -/
theorem rect_unit_congr {s : Shape} {off off' : Fin s.rank → Nat} {sz : Fin s.rank → Nat}
    (h : off = off') (hi : ∀ a, off a + sz a ≤ s.size a) (hi' : ∀ a, off' a + sz a ≤ s.size a) :
    Rect.unit (s := s) off sz hi = Rect.unit (s := s) off' sz hi' := by
  subst h; rfl

/-- The row offsets of step `1 + r` are those of the device that many places on. -/
theorem off5_eq_off3 (c : Dev nD) (r : Fin 7) :
    k0_off5 c (BitVec.ofNat 32 (1 + r.val)) = k0_off3 (peer c ⟨1 + r.val, by omega⟩) := by
  rw [off5_eq, k0_off3_eq]

/-- The row at an offset depends on the offset only. -/
theorem row_of_off {off off' : Fin 3 → Nat} (h : off = off')
    (hi : ∀ a, off a + S1x4x2048.size a ≤ S8x4x2048.size a) (hi' : ∀ a, off' a + S1x4x2048.size a ≤ S8x4x2048.size a) :
    ((Memref.whole cc0_scratch0 : Memref sig .tc .vmem S8x4x2048 .f32).slice
        (Rect.unit (s := S8x4x2048) off S1x4x2048.size hi) (fun _ => rfl)).squeeze S4x2048 squeezes_S1x4x2048_S4x2048
      = ((Memref.whole cc0_scratch0 : Memref sig .tc .vmem S8x4x2048 .f32).slice
        (Rect.unit (s := S8x4x2048) off' S1x4x2048.size hi') (fun _ => rfl)).squeeze S4x2048 squeezes_S1x4x2048_S4x2048 := by
  subst h; rfl

/-- The row a device waits for at step `1 + r`: the row of the device that many places on. -/
theorem row_peer (c : Dev nD) (r : Fin 7) :
    ((Memref.whole cc0_scratch0 : Memref sig .tc .vmem S8x4x2048 .f32).slice
        (Rect.unit (s := S8x4x2048) (k0_off5 c (BitVec.ofNat 32 (1 + r.val))) S1x4x2048.size (k0_off5_inb c r)) (fun _ => rfl)).squeeze S4x2048 squeezes_S1x4x2048_S4x2048
      = rowM (peer c ⟨1 + r.val, by omega⟩) :=
  row_of_off (off5_eq_off3 c r) (k0_off5_inb c r) (k0_off3_inb (peer c ⟨1 + r.val, by omega⟩))

end Cert.KernelIdeal.Spell
-- ==== Proof.KernelIdeal.Seps.lean ====
/-
  Conjunctions over the eight devices and the seven steps, listed and re-indexed.

  A conjunction over the eight steps is the chain of its eight conjuncts; over the steps 1 … 7, of its seven. The
  devices are the devices `d` places after any one of them, `d = 0 … 7`; all but that one, `d = 1 … 7`.
-/
import proofs.«900765_g7700000000000766_dist_diff_adaln_cshard_i_b2_s2048_c512_v7x_i8_bf16_1_alg».proof.Proof.KernelIdeal.Data

noncomputable section

namespace Cert.KernelIdeal.RowAlgebra

open Cert.KernelIdeal Cert.KernelIdeal.Gen Cert.KernelIdeal.Peers Cert.KernelIdeal.Terms Cert.KernelIdeal.Proto Cert.KernelIdeal.Data

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

omit [FloatOps F] in
theorem bigSep_steps (Φ : Fin 8 → sProp 𝕄) :
    bigSep steps Φ = iprop(Φ 1 ∗ Φ 2 ∗ Φ 3 ∗ Φ 4 ∗ Φ 5 ∗ Φ 6 ∗ Φ 7) :=
  bigSep_eq_bigSepL_of_eq [1, 2, 3, 4, 5, 6, 7] (by decide) (by decide) Φ

/-- Going `d` places on from `c`, as an embedding of the steps into the devices. -/
def peerEmb (c : Dev nD) : Fin 8 ↪ Dev nD := ⟨peer c, fun d d' h => peer_inj c d d' h⟩

theorem map_peer_univ : ∀ c : Dev nD, (Finset.univ : Finset (Fin 8)).map (peerEmb c) = Finset.univ := by decide
theorem map_peer_steps : ∀ c : Dev nD, steps.map (peerEmb c) = Finset.univ.erase c := by decide

omit [FloatOps F] in
theorem bigSep_dev_peer (c : Dev nD) (Φ : Dev nD → sProp 𝕄) :
    bigSep Finset.univ Φ = bigSep Finset.univ (fun d : Fin 8 => Φ (peer c d)) := by
  have h : bigSep (Finset.map (peerEmb c) Finset.univ) Φ = _ := bigSep_map (peerEmb c)
  rw [map_peer_univ c] at h
  exact h

omit [FloatOps F] in
theorem bigSep_erase_peer (c : Dev nD) (Φ : Dev nD → sProp 𝕄) :
    bigSep (Finset.univ.erase c) Φ = bigSep steps (fun d => Φ (peer c d)) := by
  have h : bigSep (Finset.map (peerEmb c) steps) Φ = _ := bigSep_map (peerEmb c)
  rw [map_peer_steps c] at h
  exact h

end Cert.KernelIdeal.RowAlgebra

end
-- ==== Proof.KernelIdeal.RowAlgebra.lean ====
/-
  The table's rows and their shares, as separation-logic facts.

  A device's table has eight rows, one for every device; row `p` is the set of elements whose first coordinate is
  `p`. These sets are pairwise disjoint and together are every element of the table, so holding the table at a share
  is holding its eight rows at that share; listed from a device `c`, its own row first and then the rows of the
  devices one to seven places on. A row held at the full share is the row held at the eight shares of the tree of
  halves three deep: the one its device keeps and the seven it lends. An assertion about a row depends only on the
  contents on that row's elements, and on those elements a table whose row `p` is overwritten with row `p` of a
  table `T` is `T`.
-/
import proofs.«900765_g7700000000000766_dist_diff_adaln_cshard_i_b2_s2048_c512_v7x_i8_bf16_1_alg».proof.Proof.KernelIdeal.Data
import Idealize.ShloMosaic.Lib.Pipeline.Value

noncomputable section

namespace Cert.KernelIdeal.RowAlgebra

open Cert.KernelIdeal Cert.KernelIdeal.Gen Cert.KernelIdeal.Peers Cert.KernelIdeal.Terms Cert.KernelIdeal.Proto Cert.KernelIdeal.Data

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Congruence, and writing back a row's own read -/

/-- Contents that agree on row `p`'s elements give the same assertion. -/
theorem rowPts_congr (c p : Dev nD) (q : PosShare TreeShare) (f g : Buf (Elt F) ((rowM p).view.loc (c : Thread nD τ)))
    (h : ∀ i ∈ (rowM p).view.set, f i = g i) : rowPts (F := F) c p q f = rowPts c p q g := by
  unfold rowPts; exact pointsTo_congr h

/-- On row `p`'s own elements, a table whose row `p` is overwritten with row `p` of `T` is `T`. -/
theorem row_write_read (p : Dev nD) (x T : Vec F S8x4x2048 .f32) :
    ∀ i ∈ (rowM p).view.set, (rowM p).view.write (Elt F) x ((rowM p).view.read (Elt F) T) Finset.univ i = T i := by
  intro i hi
  obtain ⟨y, rfl⟩ := View.exists_emb_of_mem_set (rowM p).view hi
  rw [View.write_emb_of_mem _ _ (Finset.mem_univ y), View.read_apply, cast_cast, cast_eq]

/-! ## The rows as sets of elements of the table -/

/-- Row `p`'s elements are the rectangle one thick at first coordinate `p`. -/
theorem row_set (p : Dev nD) :
    (rowM p).view.set = (Rect.unit (s := S8x4x2048) (k0_off3 p) S1x4x2048.size (k0_off3_inb p)).set :=
  (View.set_reshape _ _).trans (View.set_slice_whole cc0_scratch0 _)

/-- An element of the table lies in row `p` exactly when its first coordinate is `p`. -/
theorem mem_row (p : Dev nD) (i : S8x4x2048.Idx) : i ∈ (rowM p).view.set ↔ (i 0).val = p.val := by
  rw [row_set, Rect.mem_set_unit, k0_off3_eq]
  constructor
  · intro h
    have h0 : p.val ≤ (i 0).val ∧ (i 0).val < p.val + 1 := h 0
    omega
  · intro h a
    match a with
    | ⟨0, _⟩ => exact (show p.val ≤ (i 0).val ∧ (i 0).val < p.val + 1 from ⟨by omega, by omega⟩)
    | ⟨1, _⟩ => exact (show 0 ≤ (i 1).val ∧ (i 1).val < 0 + 4 from
        ⟨Nat.zero_le _, by have h1 : (i 1).val < 4 := (i 1).isLt; omega⟩)
    | ⟨2, _⟩ => exact (show 0 ≤ (i 2).val ∧ (i 2).val < 0 + 2048 from
        ⟨Nat.zero_le _, by have h2 : (i 2).val < 2048 := (i 2).isLt; omega⟩)

/-- Different rows share no element. -/
theorem row_disjoint (p p' : Dev nD) (h : p ≠ p') : Disjoint (rowM p).view.set (rowM p').view.set :=
  Finset.disjoint_left.mpr fun i hi hi' =>
    h (Fin.ext (((mem_row p i).mp hi).symm.trans ((mem_row p' i).mp hi')))

/-- The eight rows are the whole table. -/
theorem row_cover : (Finset.univ : Finset S8x4x2048.Idx)
    = (Finset.univ : Finset (Dev nD)).biUnion fun p => (rowM p).view.set := by
  ext i
  simp only [Finset.mem_univ, Finset.mem_biUnion, true_and, true_iff]
  exact ⟨⟨(i 0).val, (i 0).isLt⟩, (mem_row _ i).mpr rfl⟩

/-! ## The table is its eight rows -/

/-- The steps from a device, as a bijection of the eight steps with the eight devices. -/
def peerEquiv (c : Dev nD) : Fin 8 ≃ Dev nD := ⟨peer c, step c, step_peer c, peer_step c⟩

set_option maxRecDepth 16384 in
/-- The table at any share is its eight rows at that share, one for every device. -/
theorem table_rows (c : Dev nD) (q : PosShare TreeShare) (f : Buf (Elt F) ((c : Thread nD τ).loc cc0_scratch0)) :
    (((c : Thread nD τ).loc cc0_scratch0) ↦{q} f : sProp 𝕄)
      = bigSep (Finset.univ : Finset (Dev nD)) fun p => rowPts c p q f := by
  have hb := pointsTo_biUnion (nD := nD) (τ := τ) (sig := sig) (Ix := Unit) (Val := Elt F) (Name := ℕ) (U := UU) (Lvl := ℕ)
    (ℓ := (c : Thread nD τ).loc cc0_scratch0) (q := q) (f := f)
    (Finset.univ : Finset (Dev nD))
    (fun p : Dev nD => ((rowM p).view.set : Finset (Idx ((c : Thread nD τ).loc cc0_scratch0))))
    (fun t _ t' _ h => row_disjoint t t' h)
  rw [← row_cover] at hb
  exact hb

set_option maxRecDepth 16384 in
/-- The table at any share is the chain of its eight rows, the device's own first, then those of the devices one to
    seven places on. -/
theorem table_split8 (c : Dev nD) (q : PosShare TreeShare) (f : Buf (Elt F) ((c : Thread nD τ).loc cc0_scratch0)) :
    (((c : Thread nD τ).loc cc0_scratch0) ↦{q} f : sProp 𝕄) ⊣⊢
      iprop(rowPts c c q f ∗ rowPts c (peer c 1) q f ∗ rowPts c (peer c 2) q f ∗ rowPts c (peer c 3) q f
        ∗ rowPts c (peer c 4) q f ∗ rowPts c (peer c 5) q f ∗ rowPts c (peer c 6) q f ∗ rowPts c (peer c 7) q f) := by
  have h2 : (bigSep (Finset.univ : Finset (Dev nD)) fun p => rowPts (F := F) c p q f)
      = bigSep (Finset.univ : Finset (Fin 8)) fun d => rowPts c (peer c d) q f :=
    bigSep_univ_equiv (peerEquiv c) _
  have h3 := bigSep_univ_eq_bigSepL (M := 𝕄) [(0 : Fin 8), 1, 2, 3, 4, 5, 6, 7] (by decide) (by decide)
    (fun d => rowPts (F := F) c (peer c d) q f)
  have h0 : rowPts (F := F) c (peer c 0) q f = rowPts c c q f :=
    congrArg (fun x => rowPts (F := F) c x q f) (peer_zero c)
  refine BiEntails.of_eq ((table_rows c q f).trans (h2.trans (h3.trans ?_)))
  show iprop(rowPts c (peer c 0) q f ∗ _) = _
  rw [h0]
  rfl

/-! ## A row at the full share is its eight shares -/

/-- A row at a share is the row at the share's two halves. -/
theorem rowPts_half (c p : Dev nD) (q : PosShare TreeShare) (f : Buf (Elt F) ((rowM p).view.loc (c : Thread nD τ))) :
    rowPts (F := F) c p q f = iprop(rowPts c p q.left f ∗ rowPts c p q.right f) := by
  unfold rowPts
  have h := pointsTo_share (nD := nD) (τ := τ) (sig := sig) (Ix := Unit) (Val := Elt F) (Name := ℕ) (U := UU) (Lvl := ℕ)
    (ℓ := (rowM p).view.loc (c : Thread nD τ)) (I := (rowM p).view.set) (f := f) (PosShare.mem_left_op_right q)
  exact equiv_iff.mp ⟨h.1, h.2⟩

/-- Separating conjunction re-nested to the right, as an equation. -/
theorem sep_assoc_eq (P Q R : sProp 𝕄) : (iprop((P ∗ Q) ∗ R) : sProp 𝕄) = iprop(P ∗ Q ∗ R) :=
  equiv_iff.mp ⟨(Laws.sep_assoc (P := P) (Q := Q) (R := R)).1, (Laws.sep_assoc (P := P) (Q := Q) (R := R)).2⟩

/-- The full share of a row is the eight shares: the one its device keeps and the seven it lends its copies. -/
theorem row_shares8 (c p : Dev nD) (f : Buf (Elt F) ((rowM p).view.loc (c : Thread nD τ))) :
    rowPts (F := F) c p fullShare f ⊣⊢
      iprop(rowPts c p (shr 0) f ∗ rowPts c p (shr 1) f ∗ rowPts c p (shr 2) f ∗ rowPts c p (shr 3) f
        ∗ rowPts c p (shr 4) f ∗ rowPts c p (shr 5) f ∗ rowPts c p (shr 6) f ∗ rowPts c p (shr 7) f) := by
  refine BiEntails.of_eq ?_
  show rowPts (F := F) c p fullShare f
    = iprop(rowPts c p fullShare.left.left.left f ∗ rowPts c p fullShare.left.left.right f
      ∗ rowPts c p fullShare.left.right.left f ∗ rowPts c p fullShare.left.right.right f
      ∗ rowPts c p fullShare.right.left.left f ∗ rowPts c p fullShare.right.left.right f
      ∗ rowPts c p fullShare.right.right.left f ∗ rowPts c p fullShare.right.right.right f)
  rw [rowPts_half c p fullShare f, rowPts_half c p fullShare.left f, rowPts_half c p fullShare.right f,
    rowPts_half c p fullShare.left.left f, rowPts_half c p fullShare.left.right f,
    rowPts_half c p fullShare.right.left f, rowPts_half c p fullShare.right.right f]
  simp only [sep_assoc_eq]

/-- From a row at the full share: the share its device keeps, and the way back to the full share. -/
theorem row_weaken0 (c p : Dev nD) (f : Buf (Elt F) ((rowM p).view.loc (c : Thread nD τ))) :
    rowPts (F := F) c p fullShare f ⊢ iprop(rowPts c p (shr 0) f ∗ (rowPts c p (shr 0) f -∗ rowPts c p fullShare f)) := by
  have h := row_shares8 (F := F) c p f
  exact h.1.trans (Laws.sep_mono .rfl (Laws.wand_intro (Laws.sep_symm.trans h.2)))

/-- info: 'Cert.KernelIdeal.RowAlgebra.table_split8' depends on axioms: [propext, Classical.choice, Quot.sound] -/
#guard_msgs in #print axioms table_split8
/-- info: 'Cert.KernelIdeal.RowAlgebra.row_shares8' depends on axioms: [propext, Classical.choice, Quot.sound] -/
#guard_msgs in #print axioms row_shares8
/-- info: 'Cert.KernelIdeal.RowAlgebra.rowPts_congr' depends on axioms: [propext, Classical.choice, Quot.sound] -/
#guard_msgs in #print axioms rowPts_congr
/-- info: 'Cert.KernelIdeal.RowAlgebra.row_write_read' depends on axioms: [propext, Classical.choice, Quot.sound] -/
#guard_msgs in #print axioms row_write_read
/-- info: 'Cert.KernelIdeal.RowAlgebra.row_weaken0' depends on axioms: [propext, Classical.choice, Quot.sound] -/
#guard_msgs in #print axioms row_weaken0

end Cert.KernelIdeal.RowAlgebra

end
-- ==== Proof.KernelIdeal.Close.lean ====
/-
  Closing a device's sixteen own cells, and its seventeen positions by kind.

  A device's sixteen own semaphores are its eight send cells (one per step) and its eight receive cells (one per
  device). The send cell of step 0 and the receive cell for the device itself never have a duty; each of the
  other fourteen has its one duty in round 0 and none later. So the device, standing at round 0 of the first two
  and at round 1 of the others with nothing taken, closes all sixteen, and every counter reads zero.

  The seventeen positions a device is dealt are, by kind: the entry cell, the eight send cells, the eight
  receive cells.
-/
import proofs.«900765_g7700000000000766_dist_diff_adaln_cshard_i_b2_s2048_c512_v7x_i8_bf16_1_alg».proof.Proof.KernelIdeal.Data

noncomputable section

namespace Cert.KernelIdeal.Close

open Cert.KernelIdeal Cert.KernelIdeal.Gen Cert.KernelIdeal.Peers Cert.KernelIdeal.Terms Cert.KernelIdeal.Proto Cert.KernelIdeal.Data

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Sixteen and seventeen, by halves -/

/-- Sixteen summands are the first eight and the last eight. -/
theorem split16 (Φ : Fin 16 → sProp 𝕄) :
    bigSep Finset.univ Φ
      = iprop((bigSep Finset.univ fun d : Fin 8 => Φ (Fin.castAdd 8 d)) ∗ bigSep Finset.univ fun p : Fin 8 => Φ (Fin.natAdd 8 p)) := by
  rw [bigSep_univ_equiv (finSumFinEquiv (m := 8) (n := 8)) Φ, bigSep_univ_sum]
  rfl

/-- Seventeen summands are the first and the other sixteen. -/
theorem split17 (Φ : Fin 17 → sProp 𝕄) :
    bigSep Finset.univ Φ = iprop(Φ 0 ∗ bigSep Finset.univ fun k : Fin 16 => Φ (Fin.natAdd 1 k)) := by
  rw [bigSep_univ_equiv (finSumFinEquiv (m := 1) (n := 16)) Φ, bigSep_univ_sum, bigSep_univ_of_subsingleton (0 : Fin 1)]
  rfl

/-! ## Which semaphore is which cell -/

/-- The first eight own semaphores are the send semaphores, -/
theorem osem_send (d : Fin 8) : osem (Fin.castAdd 8 d) = SemLoc.dma (sendSem d) := rfl
/-- the last eight the receive semaphores, -/
theorem osem_recv (p : Dev nD) : osem (Fin.natAdd 8 p) = SemLoc.dma (recvSem p) :=
  congrArg SemLoc.dma (Fin.ext (by show 5 + (8 + p.val) = 13 + p.val; omega))
/-- and of the seventeen the entry semaphore is the first, the own semaphores follow. -/
theorem csem_zero : csem 0 = SemLoc.reg barS := rfl
theorem csem_succ (k : Fin 16) : csem (Fin.natAdd 1 k) = osem k := by
  show (if h : (1 + k.val) = 0 then SemLoc.reg barS else osem ⟨1 + k.val - 1, _⟩) = osem k
  rw [dif_neg (by omega)]
  exact congrArg SemLoc.dma (Fin.ext (by show 5 + (1 + k.val - 1) = 5 + k.val; omega))

/-! ## One cell -/

/-- The records hold the invariant of every own cell, and a device closes an own cell from whose round on no round has a duty. -/
theorem close_at (K : Dev nD × Fin 17 → ℕ) (c : Dev nD) (k : Fin 16) (sm : SemLoc sig) (hsm : osem k = sm) {R : ℕ}
    (hR : ∀ r, R ≤ r → (Rd m).duties ((c : Thread nD τ), sm) r = ∅) :
    iprop(records m K ∗ atPos ER ((c : Thread nD τ), sm) R ∅ 0) ⊢ iprop(|={Set.univ}=> semVal ((c : Thread nD τ), sm) 0) := by
  subst hsm
  have e : kcell (c, Fin.natAdd 1 k) = ((c : Thread nD τ), osem k) := by
    show ((c : Thread nD τ), csem (Fin.natAdd 1 k)) = _
    rw [csem_succ]
  have hinv : records m K ⊢ cellInv ER (Rd m) (K (c, Fin.natAdd 1 k)) ((c : Thread nD τ), osem k) := by
    rw [← e]
    have h1 : (bigSep Finset.univ fun ck : Dev nD × Fin 17 => (cellInv ER (Rd m) (K ck) (kcell ck) : sProp 𝕄))
        ⊢ cellInv ER (Rd m) (K (c, Fin.natAdd 1 k)) (kcell (c, Fin.natAdd 1 k)) := bigSep_elim (Finset.mem_univ (c, Fin.natAdd 1 k))
    unfold records
    iintro ⟨Hinv, -⟩
    iapply h1
    iexact Hinv
  exact (sep_mono_left hinv).trans (Rounds.cell_close ER (Rd m) (Set.mem_univ _) (fun h => h) hR)

/-! ## The rounds a device stands at -/

/-- The round a device stands at, when it closes them, on its send cell of step `d` and on its receive cell for the device `d` places on:
    round 0 on the two cells without a duty, round 1 on the others. -/
def rnd (d : Fin 8) : ℕ := if d = 0 then 0 else 1

theorem send_later (c : Dev nD) (d : Fin 8) : ∀ r, rnd d ≤ r → (Rd m).duties (sendCell c d) r = ∅ := by
  intro r hr
  by_cases hd : d = 0
  · subst hd; exact duties_send_zero (tableOf m) c r
  · exact duties_later (tableOf m) _ r (by rw [rnd, if_neg hd] at hr; exact hr)

theorem recv_later (c p : Dev nD) : ∀ r, rnd (step c p) ≤ r → (Rd m).duties (recvCell c p) r = ∅ := by
  intro r hr
  by_cases hp : p = c
  · subst hp; exact duties_recv_self (tableOf m) p r
  · exact duties_later (tableOf m) _ r (by rw [rnd, if_neg (step_ne_zero c p hp)] at hr; exact hr)

/-- The eight positions on the send cells, as one. -/
theorem send_all (c : Dev nD) :
    iprop(atPos ER (sendCell c 0) 0 ∅ 0 ∗ bigSep steps fun d => atPos ER (sendCell c d) 1 ∅ 0)
      = (bigSep Finset.univ fun d : Fin 8 => atPos ER (sendCell c d) (rnd d) ∅ 0 : sProp 𝕄) := by
  rw [bigSep_univ_at _ (0 : Fin 8)]
  refine congrArg₂ BI.sep rfl (bigSep_congr fun d hd => ?_)
  rw [rnd, if_neg (Finset.ne_of_mem_erase hd)]

/-- The devices, by the step that reaches them from `c`. -/
def byStep (c : Dev nD) : Fin 8 ≃ Dev nD := ⟨peer c, step c, step_peer c, peer_step c⟩

/-- The eight positions on the receive cells, as one: the steps' devices are all the devices. -/
theorem recv_all (c : Dev nD) :
    iprop(atPos ER (recvCell c c) 0 ∅ 0 ∗ bigSep steps fun d => atPos ER (recvCell c (peer c d)) 1 ∅ 0)
      = (bigSep Finset.univ fun p : Dev nD => atPos ER (recvCell c p) (rnd (step c p)) ∅ 0 : sProp 𝕄) := by
  rw [bigSep_univ_equiv (byStep c) _, bigSep_univ_at _ (0 : Fin 8)]
  refine congrArg₂ BI.sep ?_ (bigSep_congr fun d hd => ?_)
  · show atPos ER (recvCell c c) 0 ∅ 0 = atPos ER (recvCell c (peer c 0)) (rnd (step c (peer c 0))) ∅ 0
    rw [step_peer, peer_zero]; rfl
  · show atPos ER (recvCell c (peer c d)) 1 ∅ 0 = atPos ER (recvCell c (peer c d)) (rnd (step c (peer c d))) ∅ 0
    rw [step_peer, rnd, if_neg (Finset.ne_of_mem_erase hd)]

/-- The sixteen counters: the eight send cells', the eight receive cells'. -/
theorem sems_split (c : Dev nD) :
    (bigSep Finset.univ fun k : Fin 16 => (semVal ((c : Thread nD τ), osem k) 0 : sProp 𝕄))
      = iprop((bigSep Finset.univ fun d : Fin 8 => semVal (sendCell c d) 0) ∗ bigSep Finset.univ fun p : Dev nD => semVal (recvCell c p) 0) := by
  rw [split16]
  refine congrArg₂ BI.sep rfl (bigSep_congr fun p _ => ?_)
  show semVal ((c : Thread nD τ), osem (Fin.natAdd 8 p)) 0 = _
  rw [osem_recv]

/-! ## All sixteen -/

/-- A device that stands at round 0 of its send cell of step 0 and of its receive cell for itself, and at round 1 of its other fourteen
    own cells, nothing taken, closes all sixteen: every counter reads zero. -/
theorem close16 (K : Dev nD × Fin 17 → ℕ) (c : Dev nD) :
    iprop(records m K ∗ atPos ER (sendCell c 0) 0 ∅ 0 ∗ atPos ER (recvCell c c) 0 ∅ 0
        ∗ (bigSep steps fun d => atPos ER (sendCell c d) 1 ∅ 0) ∗ (bigSep steps fun d => atPos ER (recvCell c (peer c d)) 1 ∅ 0))
      ⊢ iprop(|={Set.univ}=> bigSep Finset.univ fun k : Fin 16 => semVal ((c : Thread nD τ), osem k) 0) := by
  have hS : iprop(records m K ∗ bigSep Finset.univ fun d : Fin 8 => atPos ER (sendCell c d) (rnd d) ∅ 0)
      ⊢ iprop(|={Set.univ}=> bigSep Finset.univ fun d : Fin 8 => semVal (sendCell c d) 0) :=
    (bigSep_with_persistent fun d _ => close_at m K c (Fin.castAdd 8 d) _ (osem_send d) (send_later m c d)).trans (bigSep_fupd _ _)
  have hR : iprop(records m K ∗ bigSep Finset.univ fun p : Dev nD => atPos ER (recvCell c p) (rnd (step c p)) ∅ 0)
      ⊢ iprop(|={Set.univ}=> bigSep Finset.univ fun p : Dev nD => semVal (recvCell c p) 0) :=
    (bigSep_with_persistent fun p _ => close_at m K c (Fin.natAdd 8 p) _ (osem_recv p) (recv_later m c p)).trans (bigSep_fupd _ _)
  rw [sems_split]
  iintro ⟨#Hrec, Hs0, Hr0, Hs, Hr⟩
  imod hS $$ [Hs0 Hs] with HS
  · isplitr; · iexact Hrec
    rw [← send_all]
    isplitl [Hs0] <;> iassumption
  imod hR $$ [Hr0 Hr] with HR
  · isplitr; · iexact Hrec
    rw [← recv_all]
    isplitl [Hr0] <;> iassumption
  imodintro
  isplitl [HS] <;> iassumption

/-! ## The seventeen positions, by kind -/

/-- The positions a device is dealt: on its entry cell, on its eight send cells, on its eight receive cells. -/
theorem pos_split (c : Dev nD) :
    (bigSep Finset.univ fun k : Fin 17 => (atPos ER (kcell (c, k)) 0 ∅ 0 : sProp 𝕄))
      ⊣⊢ iprop(atPos ER (barCell c) 0 ∅ 0 ∗ (bigSep Finset.univ fun d : Fin 8 => atPos ER (sendCell c d) 0 ∅ 0)
          ∗ (bigSep Finset.univ fun p : Dev nD => atPos ER (recvCell c p) 0 ∅ 0)) := by
  refine BiEntails.of_eq ?_
  rw [split17, split16]
  refine congrArg₂ BI.sep rfl (congrArg₂ BI.sep (bigSep_congr fun d _ => ?_) (bigSep_congr fun p _ => ?_))
  · show atPos ER ((c : Thread nD τ), csem (Fin.natAdd 1 (Fin.castAdd 8 d))) 0 ∅ 0 = _
    rw [csem_succ, osem_send]
  · show atPos ER ((c : Thread nD τ), csem (Fin.natAdd 1 (Fin.natAdd 8 p))) 0 ∅ 0 = _
    rw [csem_succ, osem_recv]

/-- info: 'Cert.KernelIdeal.Close.close16' depends on axioms: [propext, Classical.choice, Quot.sound] -/
#guard_msgs in #print axioms close16

/-- info: 'Cert.KernelIdeal.Close.pos_split' depends on axioms: [propext, Classical.choice, Quot.sound] -/
#guard_msgs in #print axioms pos_split

end Cert.KernelIdeal.Close

end
-- ==== Proof.KernelIdeal.WholeReads.lean ====
/-
  Reading or overwriting a whole buffer through the rectangle that covers it: the contents, or the payload.
-/
import proofs.«900765_g7700000000000766_dist_diff_adaln_cshard_i_b2_s2048_c512_v7x_i8_bf16_1_alg».proof.Proof.KernelIdeal.Data

noncomputable section

namespace Cert.KernelIdeal.RowValue

open Cert.KernelIdeal Cert.KernelIdeal.Gen Cert.KernelIdeal.Peers Cert.KernelIdeal.Terms Cert.KernelIdeal.Proto Cert.KernelIdeal.Data

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem hz3 : (![0, 0, 0] : Fin 3 → Nat) = fun _ => 0 := funext fun a => by fin_cases a <;> rfl
omit [FloatOps F] in
theorem hz2 : (![0, 0] : Fin 2 → Nat) = fun _ => 0 := funext fun a => by fin_cases a <;> rfl

omit [FloatOps F] in
theorem read_x (f : Vec F S2x2048x512 .f32) :
    View.readAt (Elt F) (Memref.whole cc0_stg0_0 : Memref sig .tc .vmem S2x2048x512 .f32).view
      (Rect.unit (s := S2x2048x512) ![0, 0, 0] S2x2048x512.size inb_S2x2048x512_S2x2048x512_0_0_0).toLoadRect f = f :=
  Memref.readAt_unit_zero (Elt F) cc0_stg0_0 hz3 _ f
omit [FloatOps F] in
theorem read_t (f : Vec F S2x128 .f32) :
    View.readAt (Elt F) (Memref.whole cc0_stg1_0 : Memref sig .tc .vmem S2x128 .f32).view
      (Rect.unit (s := S2x128) ![0, 0] S2x128.size inb_S2x128_S2x128_0_0).toLoadRect f = f :=
  Memref.readAt_unit_zero (Elt F) cc0_stg1_0 hz2 _ f
omit [FloatOps F] in
theorem read_ws (f : Vec F S128x512 .f32) :
    View.readAt (Elt F) (Memref.whole cc0_stg2_0 : Memref sig .tc .vmem S128x512 .f32).view
      (Rect.unit (s := S128x512) ![0, 0] S128x512.size inb_S128x512_S128x512_0_0).toLoadRect f = f :=
  Memref.readAt_unit_zero (Elt F) cc0_stg2_0 hz2 _ f
omit [FloatOps F] in
theorem read_wsh (f : Vec F S128x512 .f32) :
    View.readAt (Elt F) (Memref.whole cc0_stg3_0 : Memref sig .tc .vmem S128x512 .f32).view
      (Rect.unit (s := S128x512) ![0, 0] S128x512.size inb_S128x512_S128x512_0_0).toLoadRect f = f :=
  Memref.readAt_unit_zero (Elt F) cc0_stg3_0 hz2 _ f
omit [FloatOps F] in
theorem read_tab (f : Vec F S8x4x2048 .f32) :
    View.readAt (Elt F) (Memref.whole cc0_scratch0 : Memref sig .tc .vmem S8x4x2048 .f32).view
      (Rect.unit (s := S8x4x2048) ![0, 0, 0] S8x4x2048.size inb_S8x4x2048_S8x4x2048_0_0_0).toLoadRect f = f :=
  Memref.readAt_unit_zero (Elt F) cc0_scratch0 hz3 _ f
omit [FloatOps F] in
theorem read_out (f : Vec F S2x2048x512 .bf16) :
    View.readAt (Elt F) (Memref.whole cc0_stg4_0 : Memref sig .tc .vmem S2x2048x512 .bf16).view
      (Rect.unit (s := S2x2048x512) ![0, 0, 0] S2x2048x512.size inb_S2x2048x512_S2x2048x512_0_0_0).toLoadRect f = f :=
  Memref.readAt_unit_zero (Elt F) cc0_stg4_0 hz3 _ f

omit [FloatOps F] in
/-- The result's staging buffer overwritten whole holds the payload. -/
theorem write_out (f g : Vec F S2x2048x512 .bf16) :
    View.write (Elt F) ((Memref.whole cc0_stg4_0 : Memref sig .tc .vmem S2x2048x512 .bf16).access
      (Rect.unit (s := S2x2048x512) ![0, 0, 0] S2x2048x512.size inb_S2x2048x512_S2x2048x512_0_0_0)) f g Finset.univ = g :=
  Memref.write_access_unit_zero_univ (Elt F) cc0_stg4_0 hz3 _ f g

end Cert.KernelIdeal.RowValue

end
-- ==== Proof.KernelIdeal.RowValue.lean ====
/-
  What a device's own row holds once it has stored its statistics.

  A device stores its row of statistics, a 1 × 4 × 2048 vector, into its table through the unit-stride rectangle
  one thick whose first offset is the device's own number and whose other offsets are zero. The element of the
  table at (c, r, s) is the image of the rectangle's coordinate (0, r, s), so after the store it holds the stored
  vector at (0, r, s); and the gathered table at (c, r, s) is by definition device c's row at (0, r, s).
-/
import proofs.«900765_g7700000000000766_dist_diff_adaln_cshard_i_b2_s2048_c512_v7x_i8_bf16_1_alg».proof.Proof.KernelIdeal.Data
import proofs.«900765_g7700000000000766_dist_diff_adaln_cshard_i_b2_s2048_c512_v7x_i8_bf16_1_alg».proof.Proof.KernelIdeal.RowAlgebra
import Idealize.ShloMosaic.Lib.Pipeline.Value

noncomputable section

namespace Cert.KernelIdeal.RowValue

open Cert.KernelIdeal Cert.KernelIdeal.Gen Cert.KernelIdeal.Peers Cert.KernelIdeal.Terms Cert.KernelIdeal.Proto Cert.KernelIdeal.Data
open Cert.KernelIdeal.RowAlgebra

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The view a device's store of its row goes through: the whole table at the rectangle one thick at the device's
    own first coordinate. -/
abbrev storeView (c : Dev nD) : View sig .tc .vmem S1x4x2048 .f32 :=
  (Memref.whole cc0_scratch0 : Memref sig .tc .vmem S8x4x2048 .f32).access
    (Rect.unit (s := S8x4x2048) (k0_off1 c) S1x4x2048.size (k0_off1_inb c))

/-- An element of the table whose first coordinate is `c` is the image, under the store's view, of the row
    coordinate (0, r, s) made of its other two coordinates. -/
theorem storeView_emb (c : Dev nD) (i : S8x4x2048.Idx) (h0 : (i 0).val = c.val) :
    (storeView c).emb (ValueIdx.ix3 (0 : Fin 1) (i 1) (i 2)) = i := by
  funext a
  apply Fin.ext
  show (k0_off1 c) a + 1 * ((ValueIdx.ix3 (0 : Fin 1) (i 1) (i 2)) a).val = (i a).val
  rw [k0_off1_eq]
  match a with
  | ⟨0, _⟩ => show c.val + 1 * 0 = (i 0).val; omega
  | ⟨1, _⟩ => show 0 + 1 * (i 1).val = (i 1).val; omega
  | ⟨2, _⟩ => show 0 + 1 * (i 2).val = (i 2).val; omega

/-- After a device has stored its row of statistics, its table holds on its own row the gathered table. -/
theorem own_row_value (c : Dev nD) (f0 : Buf (Elt F) ((c : Thread nD τ).loc cc0_scratch0)) (X : Dev nD → Vec F S2x2048x512 .f32) :
    ∀ i ∈ (rowM c).view.set,
      View.write (Elt F) ((Memref.whole cc0_scratch0 : Memref sig .tc .vmem S8x4x2048 .f32).access
        (Rect.unit (s := S8x4x2048) (k0_off1 c) S1x4x2048.size (k0_off1_inb c))) f0 (k0_pay3 (k0_pay1 (X c))) Finset.univ i
      = allStats X i := by
  intro i hi
  have h0 : (i 0).val = c.val := (mem_row c i).mp hi
  have hc : i 0 = c := Fin.ext h0
  have hw := View.write_emb_of_mem (v := storeView c) (Val := Elt F) f0 (k0_pay3 (k0_pay1 (X c)))
    (M := Finset.univ) (x := ValueIdx.ix3 (0 : Fin 1) (i 1) (i 2)) (Finset.mem_univ _)
  rw [storeView_emb c i h0] at hw
  refine hw.trans ?_
  unfold allStats statRow
  rw [hc]
  rfl

/-- info: 'Cert.KernelIdeal.RowValue.own_row_value' depends on axioms: [propext, Classical.choice, Quot.sound] -/
#guard_msgs in #print axioms own_row_value

end Cert.KernelIdeal.RowValue

end
-- ==== Proof.KernelIdeal.Body.lean ====
/-
  One device's kernel body, stepped from what the device starts from to what it ends with.

  In program order: the seven entry signals (each hands the addressed device the row of this device's table that it
  will write); the device's own statistics row computed and stored; the wait for the seven entry signals of the
  others (each brings the row of that device's table this device writes); the seven copies of the own row, each
  reading a share of it; the two projections; the seven waits for the others' rows; the whole table loaded, summed,
  and the result computed and stored; the seven waits for the own copies' departures, which return the shares.

  Between these the resources are regrouped by hand: the table is cut into its eight rows (the rows handed over
  first, the own row last), the own row into its eight shares, the rows the copies landed are restated as the
  gathered table's rows and one share of each joined with the own row's kept share into the whole table for the
  load; at the end the shares and rows are joined again, the sixteen own cells closed, and the post put together.
-/
import proofs.«900765_g7700000000000766_dist_diff_adaln_cshard_i_b2_s2048_c512_v7x_i8_bf16_1_alg».proof.Proof.KernelIdeal.Data
import proofs.«900765_g7700000000000766_dist_diff_adaln_cshard_i_b2_s2048_c512_v7x_i8_bf16_1_alg».proof.Proof.KernelIdeal.Credit
import proofs.«900765_g7700000000000766_dist_diff_adaln_cshard_i_b2_s2048_c512_v7x_i8_bf16_1_alg».proof.Proof.KernelIdeal.Spell
import proofs.«900765_g7700000000000766_dist_diff_adaln_cshard_i_b2_s2048_c512_v7x_i8_bf16_1_alg».proof.Proof.KernelIdeal.Seps
import proofs.«900765_g7700000000000766_dist_diff_adaln_cshard_i_b2_s2048_c512_v7x_i8_bf16_1_alg».proof.Proof.KernelIdeal.RowAlgebra
import proofs.«900765_g7700000000000766_dist_diff_adaln_cshard_i_b2_s2048_c512_v7x_i8_bf16_1_alg».proof.Proof.KernelIdeal.Close
import proofs.«900765_g7700000000000766_dist_diff_adaln_cshard_i_b2_s2048_c512_v7x_i8_bf16_1_alg».proof.Proof.KernelIdeal.WholeReads
import proofs.«900765_g7700000000000766_dist_diff_adaln_cshard_i_b2_s2048_c512_v7x_i8_bf16_1_alg».proof.Proof.KernelIdeal.RowValue
import proofs.«900765_g7700000000000766_dist_diff_adaln_cshard_i_b2_s2048_c512_v7x_i8_bf16_1_alg».proof.Proof.Gen.KernelIdeal.Skeleton

noncomputable section

namespace Cert.KernelIdeal.Body

open Cert.KernelIdeal Cert.KernelIdeal.Gen Cert.KernelIdeal.Peers Cert.KernelIdeal.Terms Cert.KernelIdeal.Proto Cert.KernelIdeal.Data Cert.KernelIdeal.Credit Cert.KernelIdeal.RowAlgebra Cert.KernelIdeal.Close Cert.KernelIdeal.RowValue

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule's tables at this device's cells, the payloads spelt as the points-to they are -/

theorem payload_bar' (ST : Vec F S8x4x2048 .f32) (c p : Dev nD) : (gather ST).payload (barCell c) 0 p
    = iprop(∃ f, ((rowM c).view.loc (p : Thread nD τ) ↦[(rowM c).view.set]{fullShare} f : sProp 𝕄)) := payload_bar ST c p

theorem payload_send' (ST : Vec F S8x4x2048 .f32) (c : Dev nD) (d : Fin 8) (p : Dev nD) : (gather ST).payload (sendCell c d) 0 p
    = ((rowM c).view.loc (c : Thread nD τ) ↦[(rowM c).view.set]{shr d} ST : sProp 𝕄) := payload_send ST c d p

/-- What a copy lands, as the copy writes it: the row over whatever it held, rewritten by the source row's read. -/
theorem payload_recv_w (ST : Vec F S8x4x2048 .f32) (c q p : Dev nD) : (gather ST).payload (recvCell c q) 0 p
    = iprop(∃ x, ((rowM q).view.loc (c : Thread nD τ) ↦[(rowM q).view.set]{fullShare} ((rowM q).view.write (Elt F) x ((rowM q).view.read (Elt F) ST) Finset.univ) : sProp 𝕄)) := by
  rw [payload_recv]; unfold rowPts
  have e (x : Vec F S8x4x2048 .f32) : ((rowM q).view.loc (c : Thread nD τ) ↦[(rowM q).view.set]{fullShare} ((rowM q).view.write (Elt F) x ((rowM q).view.read (Elt F) ST) Finset.univ) : sProp 𝕄)
      = ((rowM q).view.loc (c : Thread nD τ) ↦[(rowM q).view.set]{fullShare} ST) := pointsTo_congr (row_write_read q x ST)
  simp only [e]
  have h1 : ((rowM q).view.loc (c : Thread nD τ) ↦[(rowM q).view.set]{fullShare} ST : sProp 𝕄)
      ⊢ iprop(∃ x : Vec F S8x4x2048 .f32, ((rowM q).view.loc (c : Thread nD τ) ↦[(rowM q).view.set]{fullShare} ST : sProp 𝕄)) := by
    iintro H; iexists ST; iexact H
  have h2 : iprop(∃ x : Vec F S8x4x2048 .f32, ((rowM q).view.loc (c : Thread nD τ) ↦[(rowM q).view.set]{fullShare} ST : sProp 𝕄))
      ⊢ ((rowM q).view.loc (c : Thread nD τ) ↦[(rowM q).view.set]{fullShare} ST : sProp 𝕄) := by
    iintro ⟨%x, H⟩; iexact H
  exact Entails.antisymm h1 h2

section Inst
variable (ST : Vec F S8x4x2048 .f32) (c : Dev nD)
omit [FloatOps F] in
theorem duties_send_1 : (gather (F := F) ST).duties (sendCell c 1) 0 = {c} := duties_send ST c 1 (by decide)
omit [FloatOps F] in
theorem duties_recv_p1 : (gather (F := F) ST).duties (recvCell (peer c 1) c) 0 = {c} := duties_recv ST (peer c 1) c (peer_ne c 1 (by decide)).symm
omit [FloatOps F] in
theorem duties_recv_o1 : (gather (F := F) ST).duties (recvCell c (peer c 1)) 0 = {peer c 1} := duties_recv ST c (peer c 1) (peer_ne c 1 (by decide))
omit [FloatOps F] in
theorem expect_send_1 : (gather (F := F) ST).expect (sendCell c 1) 0 = N := expect_send ST c 1 (by decide)
omit [FloatOps F] in
theorem expect_recv_o1 : (gather (F := F) ST).expect (recvCell c (peer c 1)) 0 = N := expect_recv ST c (peer c 1) (peer_ne c 1 (by decide))
omit [FloatOps F] in
theorem duties_send_2 : (gather (F := F) ST).duties (sendCell c 2) 0 = {c} := duties_send ST c 2 (by decide)
omit [FloatOps F] in
theorem duties_recv_p2 : (gather (F := F) ST).duties (recvCell (peer c 2) c) 0 = {c} := duties_recv ST (peer c 2) c (peer_ne c 2 (by decide)).symm
omit [FloatOps F] in
theorem duties_recv_o2 : (gather (F := F) ST).duties (recvCell c (peer c 2)) 0 = {peer c 2} := duties_recv ST c (peer c 2) (peer_ne c 2 (by decide))
omit [FloatOps F] in
theorem expect_send_2 : (gather (F := F) ST).expect (sendCell c 2) 0 = N := expect_send ST c 2 (by decide)
omit [FloatOps F] in
theorem expect_recv_o2 : (gather (F := F) ST).expect (recvCell c (peer c 2)) 0 = N := expect_recv ST c (peer c 2) (peer_ne c 2 (by decide))
omit [FloatOps F] in
theorem duties_send_3 : (gather (F := F) ST).duties (sendCell c 3) 0 = {c} := duties_send ST c 3 (by decide)
omit [FloatOps F] in
theorem duties_recv_p3 : (gather (F := F) ST).duties (recvCell (peer c 3) c) 0 = {c} := duties_recv ST (peer c 3) c (peer_ne c 3 (by decide)).symm
omit [FloatOps F] in
theorem duties_recv_o3 : (gather (F := F) ST).duties (recvCell c (peer c 3)) 0 = {peer c 3} := duties_recv ST c (peer c 3) (peer_ne c 3 (by decide))
omit [FloatOps F] in
theorem expect_send_3 : (gather (F := F) ST).expect (sendCell c 3) 0 = N := expect_send ST c 3 (by decide)
omit [FloatOps F] in
theorem expect_recv_o3 : (gather (F := F) ST).expect (recvCell c (peer c 3)) 0 = N := expect_recv ST c (peer c 3) (peer_ne c 3 (by decide))
omit [FloatOps F] in
theorem duties_send_4 : (gather (F := F) ST).duties (sendCell c 4) 0 = {c} := duties_send ST c 4 (by decide)
omit [FloatOps F] in
theorem duties_recv_p4 : (gather (F := F) ST).duties (recvCell (peer c 4) c) 0 = {c} := duties_recv ST (peer c 4) c (peer_ne c 4 (by decide)).symm
omit [FloatOps F] in
theorem duties_recv_o4 : (gather (F := F) ST).duties (recvCell c (peer c 4)) 0 = {peer c 4} := duties_recv ST c (peer c 4) (peer_ne c 4 (by decide))
omit [FloatOps F] in
theorem expect_send_4 : (gather (F := F) ST).expect (sendCell c 4) 0 = N := expect_send ST c 4 (by decide)
omit [FloatOps F] in
theorem expect_recv_o4 : (gather (F := F) ST).expect (recvCell c (peer c 4)) 0 = N := expect_recv ST c (peer c 4) (peer_ne c 4 (by decide))
omit [FloatOps F] in
theorem duties_send_5 : (gather (F := F) ST).duties (sendCell c 5) 0 = {c} := duties_send ST c 5 (by decide)
omit [FloatOps F] in
theorem duties_recv_p5 : (gather (F := F) ST).duties (recvCell (peer c 5) c) 0 = {c} := duties_recv ST (peer c 5) c (peer_ne c 5 (by decide)).symm
omit [FloatOps F] in
theorem duties_recv_o5 : (gather (F := F) ST).duties (recvCell c (peer c 5)) 0 = {peer c 5} := duties_recv ST c (peer c 5) (peer_ne c 5 (by decide))
omit [FloatOps F] in
theorem expect_send_5 : (gather (F := F) ST).expect (sendCell c 5) 0 = N := expect_send ST c 5 (by decide)
omit [FloatOps F] in
theorem expect_recv_o5 : (gather (F := F) ST).expect (recvCell c (peer c 5)) 0 = N := expect_recv ST c (peer c 5) (peer_ne c 5 (by decide))
omit [FloatOps F] in
theorem duties_send_6 : (gather (F := F) ST).duties (sendCell c 6) 0 = {c} := duties_send ST c 6 (by decide)
omit [FloatOps F] in
theorem duties_recv_p6 : (gather (F := F) ST).duties (recvCell (peer c 6) c) 0 = {c} := duties_recv ST (peer c 6) c (peer_ne c 6 (by decide)).symm
omit [FloatOps F] in
theorem duties_recv_o6 : (gather (F := F) ST).duties (recvCell c (peer c 6)) 0 = {peer c 6} := duties_recv ST c (peer c 6) (peer_ne c 6 (by decide))
omit [FloatOps F] in
theorem expect_send_6 : (gather (F := F) ST).expect (sendCell c 6) 0 = N := expect_send ST c 6 (by decide)
omit [FloatOps F] in
theorem expect_recv_o6 : (gather (F := F) ST).expect (recvCell c (peer c 6)) 0 = N := expect_recv ST c (peer c 6) (peer_ne c 6 (by decide))
omit [FloatOps F] in
theorem duties_send_7 : (gather (F := F) ST).duties (sendCell c 7) 0 = {c} := duties_send ST c 7 (by decide)
omit [FloatOps F] in
theorem duties_recv_p7 : (gather (F := F) ST).duties (recvCell (peer c 7) c) 0 = {c} := duties_recv ST (peer c 7) c (peer_ne c 7 (by decide)).symm
omit [FloatOps F] in
theorem duties_recv_o7 : (gather (F := F) ST).duties (recvCell c (peer c 7)) 0 = {peer c 7} := duties_recv ST c (peer c 7) (peer_ne c 7 (by decide))
omit [FloatOps F] in
theorem expect_send_7 : (gather (F := F) ST).expect (sendCell c 7) 0 = N := expect_send ST c 7 (by decide)
omit [FloatOps F] in
theorem expect_recv_o7 : (gather (F := F) ST).expect (recvCell c (peer c 7)) 0 = N := expect_recv ST c (peer c 7) (peer_ne c 7 (by decide))
end Inst

attribute [local sl_rounds] duties_bar amount_bar payload_bar' expect_bar rest_bar amount_send amount_recv payload_send' payload_recv_w
  duties_send_1 duties_recv_p1 duties_recv_o1 expect_send_1 expect_recv_o1 duties_send_2 duties_recv_p2 duties_recv_o2 expect_send_2 expect_recv_o2 duties_send_3 duties_recv_p3 duties_recv_o3 expect_send_3 expect_recv_o3 duties_send_4 duties_recv_p4 duties_recv_o4 expect_send_4 expect_recv_o4 duties_send_5 duties_recv_p5 duties_recv_o5 expect_send_5 expect_recv_o5 duties_send_6 duties_recv_p6 duties_recv_o6 expect_send_6 expect_recv_o6 duties_send_7 duties_recv_p7 duties_recv_o7 expect_send_7 expect_recv_o7
attribute [local sl_canon] dev1_eq dev2_eq dev3_eq dev4_eq dev5_eq dev6_eq dev7_eq dev8_eq dev9_eq dev10_eq dev11_eq dev12_eq dev13_eq dev14_eq
  Spell.send_sem_1 Spell.send_sem_2 Spell.send_sem_3 Spell.send_sem_4 Spell.send_sem_5 Spell.send_sem_6 Spell.send_sem_7 Spell.recv_sem_own

/-! ## A cell's record -/

theorem csem_send : ∀ d : Fin 8, csem ⟨1 + d.val, by omega⟩ = SemLoc.dma (sendSem d) := by decide
theorem csem_recv : ∀ p : Dev nD, csem ⟨9 + p.val, by have h8 : p.val < 8 := p.isLt; show 9 + p.val < 17; omega⟩ = SemLoc.dma (recvSem p) := by decide

theorem rec_cell (K : Dev nD × Fin 17 → ℕ) (ck : Dev nD × Fin 17) :
    records m K ⊢ iprop(cellInv ER (Rd m) (K ck) (kcell ck) ∗ reached ER (kcell ck) 0) := by
  unfold records
  have hI : (bigSep Finset.univ fun ck : Dev nD × Fin 17 => cellInv ER (Rd m) (K ck) (kcell ck)) ⊢ cellInv ER (Rd m) (K ck) (kcell ck) :=
    bigSep_elim (Finset.mem_univ ck)
  have hR : (bigSep Finset.univ fun ck : Dev nD × Fin 17 => (reached ER (kcell ck) 0 : sProp 𝕄)) ⊢ reached ER (kcell ck) 0 :=
    bigSep_elim (Finset.mem_univ ck)
  iintro ⟨#HI, #HR⟩
  isplitl []
  · iapply hI; iexact HI
  · iapply hR; iexact HR

theorem rec_bar (K : Dev nD × Fin 17 → ℕ) (c' : Dev nD) :
    records m K ⊢ iprop(cellInv ER (Rd m) (K (c', 0)) (barCell c') ∗ reached ER (barCell c') 0) := rec_cell m K (c', 0)
theorem rec_send (K : Dev nD × Fin 17 → ℕ) (c' : Dev nD) (d : Fin 8) :
    records m K ⊢ iprop(cellInv ER (Rd m) (K (c', ⟨1 + d.val, by omega⟩)) (sendCell c' d) ∗ reached ER (sendCell c' d) 0) := by
  have h := rec_cell m K (c', ⟨1 + d.val, by omega⟩)
  have e : kcell (c', (⟨1 + d.val, by omega⟩ : Fin 17)) = sendCell c' d := Prod.ext rfl (csem_send d)
  rw [e] at h; exact h
theorem rec_recv (K : Dev nD × Fin 17 → ℕ) (c' p : Dev nD) :
    records m K ⊢ iprop(cellInv ER (Rd m) (K (c', ⟨9 + p.val, by have h8 : p.val < 8 := p.isLt; show 9 + p.val < 17; omega⟩)) (recvCell c' p) ∗ reached ER (recvCell c' p) 0) := by
  have h := rec_cell m K (c', ⟨9 + p.val, by have h8 : p.val < 8 := p.isLt; show 9 + p.val < 17; omega⟩)
  have e : kcell (c', (⟨9 + p.val, by have h8 : p.val < 8 := p.isLt; show 9 + p.val < 17; omega⟩ : Fin 17)) = recvCell c' p := Prod.ext rfl (csem_recv p)
  rw [e] at h; exact h

set_option maxRecDepth 16384 in
/-- The table by rows, each row spelt as the copies and the waits view it. -/
theorem table_split8' (c : Dev nD) (q : PosShare TreeShare) (f : Buf (Elt F) ((c : Thread nD τ).loc cc0_scratch0)) :
    (((c : Thread nD τ).loc cc0_scratch0) ↦{q} f : sProp 𝕄) ⊣⊢ iprop(((rowM c).view.loc (c : Thread nD τ) ↦[(rowM c).view.set]{q} f)
      ∗ ((rowM (peer c 1)).view.loc (c : Thread nD τ) ↦[(rowM (peer c 1)).view.set]{q} f)
      ∗ ((rowM (peer c 2)).view.loc (c : Thread nD τ) ↦[(rowM (peer c 2)).view.set]{q} f)
      ∗ ((rowM (peer c 3)).view.loc (c : Thread nD τ) ↦[(rowM (peer c 3)).view.set]{q} f)
      ∗ ((rowM (peer c 4)).view.loc (c : Thread nD τ) ↦[(rowM (peer c 4)).view.set]{q} f)
      ∗ ((rowM (peer c 5)).view.loc (c : Thread nD τ) ↦[(rowM (peer c 5)).view.set]{q} f)
      ∗ ((rowM (peer c 6)).view.loc (c : Thread nD τ) ↦[(rowM (peer c 6)).view.set]{q} f)
      ∗ ((rowM (peer c 7)).view.loc (c : Thread nD τ) ↦[(rowM (peer c 7)).view.set]{q} f)) :=
  table_split8 c q f

theorem owed0 (c : Dev nD) : (dats m ρ 0 c).owed t0_0.castSucc
    = cpyT c 7 + cpyT c 6 + cpyT c 5 + cpyT c 4 + cpyT c 3 + cpyT c 2 + cpyT c 1 + sigT c 7 + sigT c 6 + sigT c 5 + sigT c 4 + sigT c 3 + sigT c 2 + sigT c 1 := rfl

set_option maxRecDepth 16384 in
/-- The same, the device's own row last: the rows in the order in which the entry signals hand them over. -/
theorem table_rows_last (c : Dev nD) (q : PosShare TreeShare) (f : Buf (Elt F) ((c : Thread nD τ).loc cc0_scratch0)) :
    (((c : Thread nD τ).loc cc0_scratch0) ↦{q} f : sProp 𝕄) ⊢ iprop((((rowM (peer c 1)).view.loc (c : Thread nD τ) ↦[(rowM (peer c 1)).view.set]{q} f)
      ∗ ((rowM (peer c 2)).view.loc (c : Thread nD τ) ↦[(rowM (peer c 2)).view.set]{q} f)
      ∗ ((rowM (peer c 3)).view.loc (c : Thread nD τ) ↦[(rowM (peer c 3)).view.set]{q} f)
      ∗ ((rowM (peer c 4)).view.loc (c : Thread nD τ) ↦[(rowM (peer c 4)).view.set]{q} f)
      ∗ ((rowM (peer c 5)).view.loc (c : Thread nD τ) ↦[(rowM (peer c 5)).view.set]{q} f)
      ∗ ((rowM (peer c 6)).view.loc (c : Thread nD τ) ↦[(rowM (peer c 6)).view.set]{q} f)
      ∗ ((rowM (peer c 7)).view.loc (c : Thread nD τ) ↦[(rowM (peer c 7)).view.set]{q} f))
      ∗ ((rowM c).view.loc (c : Thread nD τ) ↦[(rowM c).view.set]{q} f)) :=
  (table_split8' c q f).1.trans Laws.sep_comm.1

/-! ## A buffer held whole, seen through the whole memref's view -/
theorem stg0_view (c : Dev nD) (q : PosShare TreeShare) (f : Buf (Elt F) ((c : Thread nD τ).loc cc0_stg0_0)) :
    ((((c : Thread nD τ).loc cc0_stg0_0) ↦{q} f : sProp 𝕄)) ⊢ (View.loc (c : Thread nD τ) (Memref.whole cc0_stg0_0).view ↦{q} f) := Entails.rfl
theorem stg0_unview (c : Dev nD) (q : PosShare TreeShare) (f : Buf (Elt F) ((c : Thread nD τ).loc cc0_stg0_0)) :
    (View.loc (c : Thread nD τ) (Memref.whole cc0_stg0_0).view ↦{q} f : sProp 𝕄) ⊢ ((((c : Thread nD τ).loc cc0_stg0_0) ↦{q} f)) := Entails.rfl
theorem stg1_view (c : Dev nD) (q : PosShare TreeShare) (f : Buf (Elt F) ((c : Thread nD τ).loc cc0_stg1_0)) :
    ((((c : Thread nD τ).loc cc0_stg1_0) ↦{q} f : sProp 𝕄)) ⊢ (View.loc (c : Thread nD τ) (Memref.whole cc0_stg1_0).view ↦{q} f) := Entails.rfl
theorem stg1_unview (c : Dev nD) (q : PosShare TreeShare) (f : Buf (Elt F) ((c : Thread nD τ).loc cc0_stg1_0)) :
    (View.loc (c : Thread nD τ) (Memref.whole cc0_stg1_0).view ↦{q} f : sProp 𝕄) ⊢ ((((c : Thread nD τ).loc cc0_stg1_0) ↦{q} f)) := Entails.rfl
theorem stg2_view (c : Dev nD) (q : PosShare TreeShare) (f : Buf (Elt F) ((c : Thread nD τ).loc cc0_stg2_0)) :
    ((((c : Thread nD τ).loc cc0_stg2_0) ↦{q} f : sProp 𝕄)) ⊢ (View.loc (c : Thread nD τ) (Memref.whole cc0_stg2_0).view ↦{q} f) := Entails.rfl
theorem stg2_unview (c : Dev nD) (q : PosShare TreeShare) (f : Buf (Elt F) ((c : Thread nD τ).loc cc0_stg2_0)) :
    (View.loc (c : Thread nD τ) (Memref.whole cc0_stg2_0).view ↦{q} f : sProp 𝕄) ⊢ ((((c : Thread nD τ).loc cc0_stg2_0) ↦{q} f)) := Entails.rfl
theorem stg3_view (c : Dev nD) (q : PosShare TreeShare) (f : Buf (Elt F) ((c : Thread nD τ).loc cc0_stg3_0)) :
    ((((c : Thread nD τ).loc cc0_stg3_0) ↦{q} f : sProp 𝕄)) ⊢ (View.loc (c : Thread nD τ) (Memref.whole cc0_stg3_0).view ↦{q} f) := Entails.rfl
theorem stg3_unview (c : Dev nD) (q : PosShare TreeShare) (f : Buf (Elt F) ((c : Thread nD τ).loc cc0_stg3_0)) :
    (View.loc (c : Thread nD τ) (Memref.whole cc0_stg3_0).view ↦{q} f : sProp 𝕄) ⊢ ((((c : Thread nD τ).loc cc0_stg3_0) ↦{q} f)) := Entails.rfl
theorem stg4_view (c : Dev nD) (q : PosShare TreeShare) (f : Buf (Elt F) ((c : Thread nD τ).loc cc0_stg4_0)) :
    ((((c : Thread nD τ).loc cc0_stg4_0) ↦{q} f : sProp 𝕄)) ⊢ (View.loc (c : Thread nD τ) (Memref.whole cc0_stg4_0).view ↦{q} f) := Entails.rfl
theorem stg4_unview (c : Dev nD) (q : PosShare TreeShare) (f : Buf (Elt F) ((c : Thread nD τ).loc cc0_stg4_0)) :
    (View.loc (c : Thread nD τ) (Memref.whole cc0_stg4_0).view ↦{q} f : sProp 𝕄) ⊢ ((((c : Thread nD τ).loc cc0_stg4_0) ↦{q} f)) := Entails.rfl
theorem scr_view (c : Dev nD) (q : PosShare TreeShare) (f : Buf (Elt F) ((c : Thread nD τ).loc cc0_scratch0)) :
    ((((c : Thread nD τ).loc cc0_scratch0) ↦{q} f : sProp 𝕄)) ⊢ (View.loc (c : Thread nD τ) (Memref.whole cc0_scratch0).view ↦{q} f) := Entails.rfl
theorem scr_unview (c : Dev nD) (q : PosShare TreeShare) (f : Buf (Elt F) ((c : Thread nD τ).loc cc0_scratch0)) :
    (View.loc (c : Thread nD τ) (Memref.whole cc0_scratch0).view ↦{q} f : sProp 𝕄) ⊢ ((((c : Thread nD τ).loc cc0_scratch0) ↦{q} f)) := Entails.rfl

/-- What the entry wait brings: from every other device, the row of its table this device writes. -/
theorem bar_rows (c : Dev nD) :
    bigSep (Finset.univ.erase c) (fun p : Dev nD => iprop(∃ f, ((rowM c).view.loc ((p : Dev nD) : Thread nD τ) ↦[(rowM c).view.set]{fullShare} f : sProp 𝕄)))
      ⊢ iprop((∃ f, ((rowM c).view.loc ((peer c 1 : Dev nD) : Thread nD τ) ↦[(rowM c).view.set]{fullShare} f : sProp 𝕄))
        ∗ (∃ f, ((rowM c).view.loc ((peer c 2 : Dev nD) : Thread nD τ) ↦[(rowM c).view.set]{fullShare} f : sProp 𝕄))
        ∗ (∃ f, ((rowM c).view.loc ((peer c 3 : Dev nD) : Thread nD τ) ↦[(rowM c).view.set]{fullShare} f : sProp 𝕄))
        ∗ (∃ f, ((rowM c).view.loc ((peer c 4 : Dev nD) : Thread nD τ) ↦[(rowM c).view.set]{fullShare} f : sProp 𝕄))
        ∗ (∃ f, ((rowM c).view.loc ((peer c 5 : Dev nD) : Thread nD τ) ↦[(rowM c).view.set]{fullShare} f : sProp 𝕄))
        ∗ (∃ f, ((rowM c).view.loc ((peer c 6 : Dev nD) : Thread nD τ) ↦[(rowM c).view.set]{fullShare} f : sProp 𝕄))
        ∗ (∃ f, ((rowM c).view.loc ((peer c 7 : Dev nD) : Thread nD τ) ↦[(rowM c).view.set]{fullShare} f : sProp 𝕄))) := by
  rw [bigSep_erase_peer c, bigSep_steps] <;> exact Entails.rfl

set_option maxRecDepth 16384 in
/-- The own row in its eight shares, the kept share last: the lent shares in the order in which the copies take them. -/
theorem own_shares_last (c : Dev nD) (f : Buf (Elt F) ((rowM c).view.loc (c : Thread nD τ))) :
    ((rowM c).view.loc ((c : Dev nD) : Thread nD τ) ↦[(rowM c).view.set]{fullShare} f : sProp 𝕄)
      ⊢ iprop((((rowM c).view.loc ((c : Dev nD) : Thread nD τ) ↦[(rowM c).view.set]{shr 1} f : sProp 𝕄)
        ∗ ((rowM c).view.loc ((c : Dev nD) : Thread nD τ) ↦[(rowM c).view.set]{shr 2} f : sProp 𝕄)
        ∗ ((rowM c).view.loc ((c : Dev nD) : Thread nD τ) ↦[(rowM c).view.set]{shr 3} f : sProp 𝕄)
        ∗ ((rowM c).view.loc ((c : Dev nD) : Thread nD τ) ↦[(rowM c).view.set]{shr 4} f : sProp 𝕄)
        ∗ ((rowM c).view.loc ((c : Dev nD) : Thread nD τ) ↦[(rowM c).view.set]{shr 5} f : sProp 𝕄)
        ∗ ((rowM c).view.loc ((c : Dev nD) : Thread nD τ) ↦[(rowM c).view.set]{shr 6} f : sProp 𝕄)
        ∗ ((rowM c).view.loc ((c : Dev nD) : Thread nD τ) ↦[(rowM c).view.set]{shr 7} f : sProp 𝕄))
        ∗ ((rowM c).view.loc ((c : Dev nD) : Thread nD τ) ↦[(rowM c).view.set]{shr 0} f : sProp 𝕄)) :=
  (row_shares8 c c f).1.trans Laws.sep_comm.1

/-- A resource set aside: held, and read no more until it is handed back. -/
def Kept (P : sProp 𝕄) : sProp 𝕄 := P
theorem keep {P : sProp 𝕄} : P ⊢ Kept P := Entails.rfl
theorem unkeep {P : sProp 𝕄} : Kept P ⊢ P := Entails.rfl

/-! ## The printed names of the receive semaphores and rows, step by step -/
theorem recv_sem_p1 (c : Dev nD) : ((cc0_scratch2.slice (Rect.unit (s := S8) (k0_off4 c 1#32) S1.size (k0_off4_inb c 0))).squeeze S_ squeezes_S1_S_).sem = recvSem (peer c 1) :=
  Spell.recv_sem_peer c 0
theorem row_p1 (c : Dev nD) : ((Memref.whole cc0_scratch0 : Memref sig .tc .vmem S8x4x2048 .f32).slice (Rect.unit (s := S8x4x2048) (k0_off5 c 1#32) S1x4x2048.size (k0_off5_inb c 0)) (fun _ => rfl)).squeeze S4x2048 squeezes_S1x4x2048_S4x2048 = rowM (peer c 1) :=
  Spell.row_peer c 0
theorem recv_sem_p2 (c : Dev nD) : ((cc0_scratch2.slice (Rect.unit (s := S8) (k0_off4 c 2#32) S1.size (k0_off4_inb c 1))).squeeze S_ squeezes_S1_S_).sem = recvSem (peer c 2) :=
  Spell.recv_sem_peer c 1
theorem row_p2 (c : Dev nD) : ((Memref.whole cc0_scratch0 : Memref sig .tc .vmem S8x4x2048 .f32).slice (Rect.unit (s := S8x4x2048) (k0_off5 c 2#32) S1x4x2048.size (k0_off5_inb c 1)) (fun _ => rfl)).squeeze S4x2048 squeezes_S1x4x2048_S4x2048 = rowM (peer c 2) :=
  Spell.row_peer c 1
theorem recv_sem_p3 (c : Dev nD) : ((cc0_scratch2.slice (Rect.unit (s := S8) (k0_off4 c 3#32) S1.size (k0_off4_inb c 2))).squeeze S_ squeezes_S1_S_).sem = recvSem (peer c 3) :=
  Spell.recv_sem_peer c 2
theorem row_p3 (c : Dev nD) : ((Memref.whole cc0_scratch0 : Memref sig .tc .vmem S8x4x2048 .f32).slice (Rect.unit (s := S8x4x2048) (k0_off5 c 3#32) S1x4x2048.size (k0_off5_inb c 2)) (fun _ => rfl)).squeeze S4x2048 squeezes_S1x4x2048_S4x2048 = rowM (peer c 3) :=
  Spell.row_peer c 2
theorem recv_sem_p4 (c : Dev nD) : ((cc0_scratch2.slice (Rect.unit (s := S8) (k0_off4 c 4#32) S1.size (k0_off4_inb c 3))).squeeze S_ squeezes_S1_S_).sem = recvSem (peer c 4) :=
  Spell.recv_sem_peer c 3
theorem row_p4 (c : Dev nD) : ((Memref.whole cc0_scratch0 : Memref sig .tc .vmem S8x4x2048 .f32).slice (Rect.unit (s := S8x4x2048) (k0_off5 c 4#32) S1x4x2048.size (k0_off5_inb c 3)) (fun _ => rfl)).squeeze S4x2048 squeezes_S1x4x2048_S4x2048 = rowM (peer c 4) :=
  Spell.row_peer c 3
theorem recv_sem_p5 (c : Dev nD) : ((cc0_scratch2.slice (Rect.unit (s := S8) (k0_off4 c 5#32) S1.size (k0_off4_inb c 4))).squeeze S_ squeezes_S1_S_).sem = recvSem (peer c 5) :=
  Spell.recv_sem_peer c 4
theorem row_p5 (c : Dev nD) : ((Memref.whole cc0_scratch0 : Memref sig .tc .vmem S8x4x2048 .f32).slice (Rect.unit (s := S8x4x2048) (k0_off5 c 5#32) S1x4x2048.size (k0_off5_inb c 4)) (fun _ => rfl)).squeeze S4x2048 squeezes_S1x4x2048_S4x2048 = rowM (peer c 5) :=
  Spell.row_peer c 4
theorem recv_sem_p6 (c : Dev nD) : ((cc0_scratch2.slice (Rect.unit (s := S8) (k0_off4 c 6#32) S1.size (k0_off4_inb c 5))).squeeze S_ squeezes_S1_S_).sem = recvSem (peer c 6) :=
  Spell.recv_sem_peer c 5
theorem row_p6 (c : Dev nD) : ((Memref.whole cc0_scratch0 : Memref sig .tc .vmem S8x4x2048 .f32).slice (Rect.unit (s := S8x4x2048) (k0_off5 c 6#32) S1x4x2048.size (k0_off5_inb c 5)) (fun _ => rfl)).squeeze S4x2048 squeezes_S1x4x2048_S4x2048 = rowM (peer c 6) :=
  Spell.row_peer c 5
theorem recv_sem_p7 (c : Dev nD) : ((cc0_scratch2.slice (Rect.unit (s := S8) (k0_off4 c 7#32) S1.size (k0_off4_inb c 6))).squeeze S_ squeezes_S1_S_).sem = recvSem (peer c 7) :=
  Spell.recv_sem_peer c 6
theorem row_p7 (c : Dev nD) : ((Memref.whole cc0_scratch0 : Memref sig .tc .vmem S8x4x2048 .f32).slice (Rect.unit (s := S8x4x2048) (k0_off5 c 7#32) S1x4x2048.size (k0_off5_inb c 6)) (fun _ => rfl)).squeeze S4x2048 squeezes_S1x4x2048_S4x2048 = rowM (peer c 7) :=
  Spell.row_peer c 6

attribute [local sl_canon] recv_sem_p1 row_p1 recv_sem_p2 row_p2 recv_sem_p3 row_p3 recv_sem_p4 row_p4 recv_sem_p5 row_p5 recv_sem_p6 row_p6 recv_sem_p7 row_p7

/-! ## The positions, cell by cell -/
theorem recv_pos (c : Dev nD) : (bigSep Finset.univ fun p : Dev nD => (atPos ER (recvCell c p) 0 ∅ 0 : sProp 𝕄))
    ⊢ iprop(atPos ER (recvCell c c) 0 ∅ 0 ∗ atPos ER (recvCell c (peer c 1)) 0 ∅ 0 ∗ atPos ER (recvCell c (peer c 2)) 0 ∅ 0 ∗ atPos ER (recvCell c (peer c 3)) 0 ∅ 0 ∗ atPos ER (recvCell c (peer c 4)) 0 ∅ 0 ∗ atPos ER (recvCell c (peer c 5)) 0 ∅ 0 ∗ atPos ER (recvCell c (peer c 6)) 0 ∅ 0 ∗ atPos ER (recvCell c (peer c 7)) 0 ∅ 0) := by
  rw [bigSep_dev_peer c, bigSep_fin8, peer_zero] <;> exact Entails.rfl
theorem send_pos (c : Dev nD) : (bigSep Finset.univ fun d : Fin 8 => (atPos ER (sendCell c d) 0 ∅ 0 : sProp 𝕄))
    ⊢ iprop(atPos ER (sendCell c 0) 0 ∅ 0 ∗ atPos ER (sendCell c 1) 0 ∅ 0 ∗ atPos ER (sendCell c 2) 0 ∅ 0 ∗ atPos ER (sendCell c 3) 0 ∅ 0 ∗ atPos ER (sendCell c 4) 0 ∅ 0 ∗ atPos ER (sendCell c 5) 0 ∅ 0 ∗ atPos ER (sendCell c 6) 0 ∅ 0 ∗ atPos ER (sendCell c 7) 0 ∅ 0) := by
  rw [bigSep_fin8] <;> exact Entails.rfl

/-- A row a copy landed holds the gathered table's row. -/
theorem landed (c p : Dev nD) (T : Vec F S8x4x2048 .f32) (x : Vec F S8x4x2048 .f32) :
    ((rowM p).view.loc (c : Thread nD τ) ↦[(rowM p).view.set]{fullShare} ((rowM p).view.write (Elt F) x ((rowM p).view.read (Elt F) T) Finset.univ) : sProp 𝕄)
      ⊢ ((rowM p).view.loc ((c : Dev nD) : Thread nD τ) ↦[(rowM p).view.set]{fullShare} T : sProp 𝕄) :=
  Entails.of_eq (pointsTo_congr (row_write_read p x T))

set_option maxRecDepth 16384 in
/-- One share of a row, and the way back. -/
theorem row_weaken0' (c p : Dev nD) (f : Buf (Elt F) ((rowM p).view.loc (c : Thread nD τ))) :
    ((rowM p).view.loc ((c : Dev nD) : Thread nD τ) ↦[(rowM p).view.set]{fullShare} f : sProp 𝕄) ⊢ iprop(((rowM p).view.loc ((c : Dev nD) : Thread nD τ) ↦[(rowM p).view.set]{shr 0} f : sProp 𝕄) ∗ (((rowM p).view.loc ((c : Dev nD) : Thread nD τ) ↦[(rowM p).view.set]{shr 0} f : sProp 𝕄) -∗ ((rowM p).view.loc ((c : Dev nD) : Thread nD τ) ↦[(rowM p).view.set]{fullShare} f : sProp 𝕄))) :=
  row_weaken0 c p f

set_option maxRecDepth 16384 in
theorem own_shares_join (c : Dev nD) (f : Buf (Elt F) ((rowM c).view.loc (c : Thread nD τ))) :
    iprop(((rowM c).view.loc ((c : Dev nD) : Thread nD τ) ↦[(rowM c).view.set]{shr 0} f : sProp 𝕄)
      ∗ ((rowM c).view.loc ((c : Dev nD) : Thread nD τ) ↦[(rowM c).view.set]{shr 1} f : sProp 𝕄)
      ∗ ((rowM c).view.loc ((c : Dev nD) : Thread nD τ) ↦[(rowM c).view.set]{shr 2} f : sProp 𝕄)
      ∗ ((rowM c).view.loc ((c : Dev nD) : Thread nD τ) ↦[(rowM c).view.set]{shr 3} f : sProp 𝕄)
      ∗ ((rowM c).view.loc ((c : Dev nD) : Thread nD τ) ↦[(rowM c).view.set]{shr 4} f : sProp 𝕄)
      ∗ ((rowM c).view.loc ((c : Dev nD) : Thread nD τ) ↦[(rowM c).view.set]{shr 5} f : sProp 𝕄)
      ∗ ((rowM c).view.loc ((c : Dev nD) : Thread nD τ) ↦[(rowM c).view.set]{shr 6} f : sProp 𝕄)
      ∗ ((rowM c).view.loc ((c : Dev nD) : Thread nD τ) ↦[(rowM c).view.set]{shr 7} f : sProp 𝕄)) ⊢ ((rowM c).view.loc ((c : Dev nD) : Thread nD τ) ↦[(rowM c).view.set]{fullShare} f : sProp 𝕄) :=
  (row_shares8 c c f).2

set_option maxRecDepth 16384 in
/-- The table whole again: from the table at the kept share, the ways back of the seven other rows, and the seven
    returned shares of the own row. -/
theorem table_rejoin (c : Dev nD) (T : Buf (Elt F) ((c : Thread nD τ).loc cc0_scratch0)) :
    iprop((View.loc (c : Thread nD τ) (Memref.whole cc0_scratch0).view ↦{shr 0} T : sProp 𝕄)
        ∗ ((((rowM (peer c 1)).view.loc ((c : Dev nD) : Thread nD τ) ↦[(rowM (peer c 1)).view.set]{shr 0} T : sProp 𝕄) -∗ ((rowM (peer c 1)).view.loc ((c : Dev nD) : Thread nD τ) ↦[(rowM (peer c 1)).view.set]{fullShare} T : sProp 𝕄))
          ∗ (((rowM (peer c 2)).view.loc ((c : Dev nD) : Thread nD τ) ↦[(rowM (peer c 2)).view.set]{shr 0} T : sProp 𝕄) -∗ ((rowM (peer c 2)).view.loc ((c : Dev nD) : Thread nD τ) ↦[(rowM (peer c 2)).view.set]{fullShare} T : sProp 𝕄))
          ∗ (((rowM (peer c 3)).view.loc ((c : Dev nD) : Thread nD τ) ↦[(rowM (peer c 3)).view.set]{shr 0} T : sProp 𝕄) -∗ ((rowM (peer c 3)).view.loc ((c : Dev nD) : Thread nD τ) ↦[(rowM (peer c 3)).view.set]{fullShare} T : sProp 𝕄))
          ∗ (((rowM (peer c 4)).view.loc ((c : Dev nD) : Thread nD τ) ↦[(rowM (peer c 4)).view.set]{shr 0} T : sProp 𝕄) -∗ ((rowM (peer c 4)).view.loc ((c : Dev nD) : Thread nD τ) ↦[(rowM (peer c 4)).view.set]{fullShare} T : sProp 𝕄))
          ∗ (((rowM (peer c 5)).view.loc ((c : Dev nD) : Thread nD τ) ↦[(rowM (peer c 5)).view.set]{shr 0} T : sProp 𝕄) -∗ ((rowM (peer c 5)).view.loc ((c : Dev nD) : Thread nD τ) ↦[(rowM (peer c 5)).view.set]{fullShare} T : sProp 𝕄))
          ∗ (((rowM (peer c 6)).view.loc ((c : Dev nD) : Thread nD τ) ↦[(rowM (peer c 6)).view.set]{shr 0} T : sProp 𝕄) -∗ ((rowM (peer c 6)).view.loc ((c : Dev nD) : Thread nD τ) ↦[(rowM (peer c 6)).view.set]{fullShare} T : sProp 𝕄))
          ∗ (((rowM (peer c 7)).view.loc ((c : Dev nD) : Thread nD τ) ↦[(rowM (peer c 7)).view.set]{shr 0} T : sProp 𝕄) -∗ ((rowM (peer c 7)).view.loc ((c : Dev nD) : Thread nD τ) ↦[(rowM (peer c 7)).view.set]{fullShare} T : sProp 𝕄)))
        ∗ (((rowM c).view.loc ((c : Dev nD) : Thread nD τ) ↦[(rowM c).view.set]{shr 1} T : sProp 𝕄)
          ∗ ((rowM c).view.loc ((c : Dev nD) : Thread nD τ) ↦[(rowM c).view.set]{shr 2} T : sProp 𝕄)
          ∗ ((rowM c).view.loc ((c : Dev nD) : Thread nD τ) ↦[(rowM c).view.set]{shr 3} T : sProp 𝕄)
          ∗ ((rowM c).view.loc ((c : Dev nD) : Thread nD τ) ↦[(rowM c).view.set]{shr 4} T : sProp 𝕄)
          ∗ ((rowM c).view.loc ((c : Dev nD) : Thread nD τ) ↦[(rowM c).view.set]{shr 5} T : sProp 𝕄)
          ∗ ((rowM c).view.loc ((c : Dev nD) : Thread nD τ) ↦[(rowM c).view.set]{shr 6} T : sProp 𝕄)
          ∗ ((rowM c).view.loc ((c : Dev nD) : Thread nD τ) ↦[(rowM c).view.set]{shr 7} T : sProp 𝕄)))
      ⊢ ((((c : Thread nD τ).loc cc0_scratch0) ↦{fullShare} T : sProp 𝕄)) := by
  iintro ⟨Htab, ⟨Hb1, Hb2, Hb3, Hb4, Hb5, Hb6, Hb7⟩, ⟨Hs1, Hs2, Hs3, Hs4, Hs5, Hs6, Hs7⟩⟩
  ihave Htab := (scr_unview c (shr 0) T) $$ Htab
  ihave Hr := (table_split8' c (shr 0) T).1 $$ Htab
  icases Hr with ⟨Hs0, Hz1, Hz2, Hz3, Hz4, Hz5, Hz6, Hz7⟩
  ihave Hf1 := Hb1 $$ Hz1
  ihave Hf2 := Hb2 $$ Hz2
  ihave Hf3 := Hb3 $$ Hz3
  ihave Hf4 := Hb4 $$ Hz4
  ihave Hf5 := Hb5 $$ Hz5
  ihave Hf6 := Hb6 $$ Hz6
  ihave Hf7 := Hb7 $$ Hz7
  ihave Hown := (own_shares_join c T) $$ [Hs0 Hs1 Hs2 Hs3 Hs4 Hs5 Hs6 Hs7]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact Hs7
  iapply (table_split8' c fullShare T).2
  isplitl [Hown]; · iexact Hown
  isplitl [Hf1]; · iexact Hf1
  isplitl [Hf2]; · iexact Hf2
  isplitl [Hf3]; · iexact Hf3
  isplitl [Hf4]; · iexact Hf4
  isplitl [Hf5]; · iexact Hf5
  isplitl [Hf6]; · iexact Hf6
  iexact Hf7

/-- The sixteen own cells closed, from the positions cell by cell. -/
theorem close16' (K : Dev nD × Fin 17 → ℕ) (c : Dev nD) :
    iprop(records m K ∗ atPos ER (sendCell c 0) 0 ∅ 0 ∗ atPos ER (recvCell c c) 0 ∅ 0
        ∗ (atPos ER (sendCell c 1) 1 ∅ 0 ∗ atPos ER (sendCell c 2) 1 ∅ 0 ∗ atPos ER (sendCell c 3) 1 ∅ 0 ∗ atPos ER (sendCell c 4) 1 ∅ 0 ∗ atPos ER (sendCell c 5) 1 ∅ 0 ∗ atPos ER (sendCell c 6) 1 ∅ 0 ∗ atPos ER (sendCell c 7) 1 ∅ 0)
        ∗ (atPos ER (recvCell c (peer c 1)) 1 ∅ 0 ∗ atPos ER (recvCell c (peer c 2)) 1 ∅ 0 ∗ atPos ER (recvCell c (peer c 3)) 1 ∅ 0 ∗ atPos ER (recvCell c (peer c 4)) 1 ∅ 0 ∗ atPos ER (recvCell c (peer c 5)) 1 ∅ 0 ∗ atPos ER (recvCell c (peer c 6)) 1 ∅ 0 ∗ atPos ER (recvCell c (peer c 7)) 1 ∅ 0))
      ⊢ iprop(|={Set.univ}=> bigSep Finset.univ fun k : Fin 16 => semVal ((c : Thread nD τ), osem k) 0) := by
  have h := close16 m K c
  rw [bigSep_steps, bigSep_steps] at h
  exact h

/-- What the body ends with, put together. -/
theorem post_intro (c : Dev nD) (T : Buf (Elt F) ((c : Thread nD τ).loc cc0_scratch0)) (W : Waits sig Unit) :
    iprop(((((c : Thread nD τ).loc cc0_scratch0) ↦{fullShare} T : sProp 𝕄))
        ∗ (bigSep Finset.univ fun k : Fin 16 => semVal ((c : Thread nD τ), osem k) 0)
        ∗ owes (c : Thread nD τ) 0 W
        ∗ (View.loc (c : Thread nD τ) (Memref.whole cc0_stg0_0).view ↦{fullShare} xOf m c)
        ∗ (View.loc (c : Thread nD τ) (Memref.whole cc0_stg1_0).view ↦{fullShare} tOf m c)
        ∗ (View.loc (c : Thread nD τ) (Memref.whole cc0_stg2_0).view ↦{fullShare} wsOf m c)
        ∗ (View.loc (c : Thread nD τ) (Memref.whole cc0_stg3_0).view ↦{fullShare} wshOf m c)
        ∗ (View.loc (c : Thread nD τ) (Memref.whole cc0_stg4_0).view ↦{fullShare} outAt m c))
      ⊢ bodyPost m ρ c := by
  unfold bodyPost Φ₁ stg scrPts
  iintro ⟨Htab, Hsems, HO, Hx, Ht, Hws, Hwsh, Hout⟩
  isplitl [Htab Hsems]
  · isplitl [Htab]
    · iexists T; iexact Htab
    · iexact Hsems
  isplitl [HO]
  · iexists W; isplitr
    · ipureintro; exact fun _ _ => Or.inl (Set.mem_univ _)
    · iexact HO
  isplitl [Hx]
  · iexists _; isplitr
    · ipureintro; rfl
    · iapply (stg0_unview c fullShare (xOf m c)); iexact Hx
  isplitl [Ht]
  · iexists _; isplitr
    · ipureintro; rfl
    · iapply (stg1_unview c fullShare (tOf m c)); iexact Ht
  isplitl [Hws]
  · iexists _; isplitr
    · ipureintro; rfl
    · iapply (stg2_unview c fullShare (wsOf m c)); iexact Hws
  isplitl [Hwsh]
  · iexists _; isplitr
    · ipureintro; rfl
    · iapply (stg3_unview c fullShare (wshOf m c)); iexact Hwsh
  iexists _; isplitr
  · ipureintro; rfl
  · iapply (stg4_unview c fullShare (outAt m c)); iexact Hout

attribute [local irreducible] peer k0_dev1 k0_dev2 k0_dev3 k0_dev4 k0_dev5 k0_dev6 k0_dev7 k0_dev8 k0_dev9 k0_dev10 k0_dev11 k0_dev12 k0_dev13 k0_dev14 k0_off1 k0_off2 k0_off3 k0_off4 k0_off5 in
set_option maxHeartbeats 4000000 in
set_option maxRecDepth 16384 in
theorem sound_body (K : Dev nD × Fin 17 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ (bodyAt0 (F := F) t0_0) Kt := by
  have hmw : (levAts L lv : sProp 𝕄) ⊢ MayWait (c : Thread nD τ) (.reg barS) () (cpyT c 7 + cpyT c 6 + cpyT c 5 + cpyT c 4 + cpyT c 3 + cpyT c 2 + cpyT c 1) := Credit.mayWait_bar (F := F) c
  have hne1 : ¬ c = peer c 1 := fun h => peer_ne c 1 (by decide) h.symm
  have hnp1 : ¬ peer c 1 = c := peer_ne c 1 (by decide)
  have hmb1 : c ∈ (Rd m).duties (barCell (peer c 1)) 0 := by rw [duties_bar]; exact Finset.mem_erase.mpr ⟨hne1, Finset.mem_univ _⟩
  have hne2 : ¬ c = peer c 2 := fun h => peer_ne c 2 (by decide) h.symm
  have hnp2 : ¬ peer c 2 = c := peer_ne c 2 (by decide)
  have hmb2 : c ∈ (Rd m).duties (barCell (peer c 2)) 0 := by rw [duties_bar]; exact Finset.mem_erase.mpr ⟨hne2, Finset.mem_univ _⟩
  have hne3 : ¬ c = peer c 3 := fun h => peer_ne c 3 (by decide) h.symm
  have hnp3 : ¬ peer c 3 = c := peer_ne c 3 (by decide)
  have hmb3 : c ∈ (Rd m).duties (barCell (peer c 3)) 0 := by rw [duties_bar]; exact Finset.mem_erase.mpr ⟨hne3, Finset.mem_univ _⟩
  have hne4 : ¬ c = peer c 4 := fun h => peer_ne c 4 (by decide) h.symm
  have hnp4 : ¬ peer c 4 = c := peer_ne c 4 (by decide)
  have hmb4 : c ∈ (Rd m).duties (barCell (peer c 4)) 0 := by rw [duties_bar]; exact Finset.mem_erase.mpr ⟨hne4, Finset.mem_univ _⟩
  have hne5 : ¬ c = peer c 5 := fun h => peer_ne c 5 (by decide) h.symm
  have hnp5 : ¬ peer c 5 = c := peer_ne c 5 (by decide)
  have hmb5 : c ∈ (Rd m).duties (barCell (peer c 5)) 0 := by rw [duties_bar]; exact Finset.mem_erase.mpr ⟨hne5, Finset.mem_univ _⟩
  have hne6 : ¬ c = peer c 6 := fun h => peer_ne c 6 (by decide) h.symm
  have hnp6 : ¬ peer c 6 = c := peer_ne c 6 (by decide)
  have hmb6 : c ∈ (Rd m).duties (barCell (peer c 6)) 0 := by rw [duties_bar]; exact Finset.mem_erase.mpr ⟨hne6, Finset.mem_univ _⟩
  have hne7 : ¬ c = peer c 7 := fun h => peer_ne c 7 (by decide) h.symm
  have hnp7 : ¬ peer c 7 = c := peer_ne c 7 (by decide)
  have hmb7 : c ∈ (Rd m).duties (barCell (peer c 7)) 0 := by rw [duties_bar]; exact Finset.mem_erase.mpr ⟨hne7, Finset.mem_univ _⟩
  unfold bodyPre ghost linear creds stg scrPts
  rw [bigSep_steps (stepToks c), bigSep_steps (fun d => cred (tallyAt (recvCell c (peer c d)) () N))]
  unfold stepToks
  show _ ⊢ wp frame (wpE (defs₀ (F := F)) 𝒱₀ c none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) cc0_scratch1 cc0_scratch2) Kt
  rw [cc0_body_eq_skeleton]
  unfold cc0_body_skel
  iintro ⟨⟨⟨⟨#Hrec, Hpos, ⟨Htb1, Htr1, Hts1⟩, ⟨Htb2, Htr2, Hts2⟩, ⟨Htb3, Htr3, Hts3⟩, ⟨Htb4, Htr4, Hts4⟩, ⟨Htb5, Htr5, Hts5⟩, ⟨Htb6, Htr6, Hts6⟩, ⟨Htb7, Htr7, Hts7⟩⟩, ⟨Hcbar, Hcr1, Hcr2, Hcr3, Hcr4, Hcr5, Hcr6, Hcr7⟩, #Hlev, ⟨%f0, Htab⟩⟩, HO, Hstg⟩, HK⟩
  icases HO with ⟨%W, %hW, HO⟩
  ihave HO := (Entails.of_eq (congrArg (fun O => (owes (c : Thread nD τ) O W : sProp 𝕄)) (owed0 m ρ c))) $$ HO
  -- the records of the cells this device meets
  ihave Hb0 := (rec_bar m K c) $$ Hrec; icases Hb0 with ⟨#HIb0, #HRb0⟩
  ihave Hb1 := (rec_bar m K (peer c 1)) $$ Hrec; icases Hb1 with ⟨#HIb1, #HRb1⟩
  ihave Hb2 := (rec_bar m K (peer c 2)) $$ Hrec; icases Hb2 with ⟨#HIb2, #HRb2⟩
  ihave Hb3 := (rec_bar m K (peer c 3)) $$ Hrec; icases Hb3 with ⟨#HIb3, #HRb3⟩
  ihave Hb4 := (rec_bar m K (peer c 4)) $$ Hrec; icases Hb4 with ⟨#HIb4, #HRb4⟩
  ihave Hb5 := (rec_bar m K (peer c 5)) $$ Hrec; icases Hb5 with ⟨#HIb5, #HRb5⟩
  ihave Hb6 := (rec_bar m K (peer c 6)) $$ Hrec; icases Hb6 with ⟨#HIb6, #HRb6⟩
  ihave Hb7 := (rec_bar m K (peer c 7)) $$ Hrec; icases Hb7 with ⟨#HIb7, #HRb7⟩
  -- its table by rows
  ihave Hrows := (table_rows_last c fullShare f0) $$ Htab
  icases Hrows with ⟨⟨Hrw1, Hrw2, Hrw3, Hrw4, Hrw5, Hrw6, Hrw7⟩, Hrow⟩
  -- its position on the entry cell
  ihave Hp := (pos_split (F := F) c).1 $$ Hpos
  icases Hp with ⟨Hat0, Hpsend, Hprecv⟩
  -- the block of x (the other staging buffers stay aside until they are read)
  icases Hstg with ⟨⟨%fx, %hx, Hx⟩, Hstg⟩
  subst hx
  ihave Hx := (stg0_view c fullShare (xOf m c)) $$ Hx
  sl_exec (disch := simp only [dev1_eq, dev2_eq, dev3_eq, dev4_eq, dev5_eq, dev6_eq, dev7_eq, dev8_eq, dev9_eq, dev10_eq, dev11_eq, dev12_eq, dev13_eq, dev14_eq])

  -- what the entry wait brought: from every other device the row of its table this device writes
  ihave Hd := (bar_rows (F := F) c) $$ Hat0_pay1
  icases Hd with ⟨⟨%fd1, Hd1⟩, ⟨%fd2, Hd2⟩, ⟨%fd3, Hd3⟩, ⟨%fd4, Hd4⟩, ⟨%fd5, Hd5⟩, ⟨%fd6, Hd6⟩, ⟨%fd7, Hd7⟩⟩
  -- the own row holds this device's statistics: the gathered table's row
  have hval : ∀ i ∈ (rowM c).view.set, sound_body.sl.Hrow_w1 m c f0 i = tableOf m i := by
    intro i hi
    unfold sound_body.sl.Hrow_w1 sound_body.sl.v96
    rw [read_x]
    exact own_row_value c f0 (xOf m) i hi
  ihave Hrow := (Entails.of_eq (pointsTo_congr (ℓ := (rowM c).view.loc (c : Thread nD τ)) (q := fullShare) hval)) $$ Hrow
  ihave Hsh := (own_shares_last c (tableOf m)) $$ Hrow
  icases Hsh with ⟨⟨Hs1, Hs2, Hs3, Hs4, Hs5, Hs6, Hs7⟩, Hs0⟩
  -- the block of x is read no more
  ihave Hx := keep $$ Hx
  -- the records of the copies' cells
  ihave Hc1 := (rec_send m K c 1) $$ Hrec; icases Hc1 with ⟨#HIs1, #HRs1⟩
  ihave Hq1 := (rec_recv m K (peer c 1) c) $$ Hrec; icases Hq1 with ⟨#HIq1, #HRq1⟩
  ihave Hc2 := (rec_send m K c 2) $$ Hrec; icases Hc2 with ⟨#HIs2, #HRs2⟩
  ihave Hq2 := (rec_recv m K (peer c 2) c) $$ Hrec; icases Hq2 with ⟨#HIq2, #HRq2⟩
  ihave Hc3 := (rec_send m K c 3) $$ Hrec; icases Hc3 with ⟨#HIs3, #HRs3⟩
  ihave Hq3 := (rec_recv m K (peer c 3) c) $$ Hrec; icases Hq3 with ⟨#HIq3, #HRq3⟩
  ihave Hc4 := (rec_send m K c 4) $$ Hrec; icases Hc4 with ⟨#HIs4, #HRs4⟩
  ihave Hq4 := (rec_recv m K (peer c 4) c) $$ Hrec; icases Hq4 with ⟨#HIq4, #HRq4⟩
  ihave Hc5 := (rec_send m K c 5) $$ Hrec; icases Hc5 with ⟨#HIs5, #HRs5⟩
  ihave Hq5 := (rec_recv m K (peer c 5) c) $$ Hrec; icases Hq5 with ⟨#HIq5, #HRq5⟩
  ihave Hc6 := (rec_send m K c 6) $$ Hrec; icases Hc6 with ⟨#HIs6, #HRs6⟩
  ihave Hq6 := (rec_recv m K (peer c 6) c) $$ Hrec; icases Hq6 with ⟨#HIq6, #HRq6⟩
  ihave Hc7 := (rec_send m K c 7) $$ Hrec; icases Hc7 with ⟨#HIs7, #HRs7⟩
  ihave Hq7 := (rec_recv m K (peer c 7) c) $$ Hrec; icases Hq7 with ⟨#HIq7, #HRq7⟩
  sl_exec (disch := simp only [dev1_eq, dev2_eq, dev3_eq, dev4_eq, dev5_eq, dev6_eq, dev7_eq, dev8_eq, dev9_eq, dev10_eq, dev11_eq, dev12_eq, dev13_eq, dev14_eq])

  -- the blocks of t, W_scale and W_shift
  icases Hstg with ⟨⟨%ft, %ht, Ht⟩, ⟨%fws, %hws, Hws⟩, ⟨%fwsh, %hwsh, Hwsh⟩, Hout⟩
  subst ht hws hwsh
  ihave Ht := (stg1_view c fullShare (tOf m c)) $$ Ht
  ihave Hws := (stg2_view c fullShare (wsOf m c)) $$ Hws
  ihave Hwsh := (stg3_view c fullShare (wshOf m c)) $$ Hwsh
  -- the own receive cells: records and positions
  ihave Hr1 := (rec_recv m K c (peer c 1)) $$ Hrec; icases Hr1 with ⟨#HIr1, #HRr1⟩
  ihave Hr2 := (rec_recv m K c (peer c 2)) $$ Hrec; icases Hr2 with ⟨#HIr2, #HRr2⟩
  ihave Hr3 := (rec_recv m K c (peer c 3)) $$ Hrec; icases Hr3 with ⟨#HIr3, #HRr3⟩
  ihave Hr4 := (rec_recv m K c (peer c 4)) $$ Hrec; icases Hr4 with ⟨#HIr4, #HRr4⟩
  ihave Hr5 := (rec_recv m K c (peer c 5)) $$ Hrec; icases Hr5 with ⟨#HIr5, #HRr5⟩
  ihave Hr6 := (rec_recv m K c (peer c 6)) $$ Hrec; icases Hr6 with ⟨#HIr6, #HRr6⟩
  ihave Hr7 := (rec_recv m K c (peer c 7)) $$ Hrec; icases Hr7 with ⟨#HIr7, #HRr7⟩
  ihave Hpr := (recv_pos (F := F) c) $$ Hprecv
  icases Hpr with ⟨Hpr0, Hpr1, Hpr2, Hpr3, Hpr4, Hpr5, Hpr6, Hpr7⟩
  sl_exec (disch := simp only [dev1_eq, dev2_eq, dev3_eq, dev4_eq, dev5_eq, dev6_eq, dev7_eq, dev8_eq, dev9_eq, dev10_eq, dev11_eq, dev12_eq, dev13_eq, dev14_eq])

  -- the rows the copies landed hold the gathered table's rows; one share of each joins the own row's kept share
  ihave Hl1 := (landed c (peer c 1) (tableOf m) Hpr1_pay1_v) $$ Hpr1_pay1
  ihave Hw1 := (row_weaken0' c (peer c 1) (tableOf m)) $$ Hl1; icases Hw1 with ⟨Hz1, Hbk1⟩
  ihave Hl2 := (landed c (peer c 2) (tableOf m) Hpr2_pay1_v) $$ Hpr2_pay1
  ihave Hw2 := (row_weaken0' c (peer c 2) (tableOf m)) $$ Hl2; icases Hw2 with ⟨Hz2, Hbk2⟩
  ihave Hl3 := (landed c (peer c 3) (tableOf m) Hpr3_pay1_v) $$ Hpr3_pay1
  ihave Hw3 := (row_weaken0' c (peer c 3) (tableOf m)) $$ Hl3; icases Hw3 with ⟨Hz3, Hbk3⟩
  ihave Hl4 := (landed c (peer c 4) (tableOf m) Hpr4_pay1_v) $$ Hpr4_pay1
  ihave Hw4 := (row_weaken0' c (peer c 4) (tableOf m)) $$ Hl4; icases Hw4 with ⟨Hz4, Hbk4⟩
  ihave Hl5 := (landed c (peer c 5) (tableOf m) Hpr5_pay1_v) $$ Hpr5_pay1
  ihave Hw5 := (row_weaken0' c (peer c 5) (tableOf m)) $$ Hl5; icases Hw5 with ⟨Hz5, Hbk5⟩
  ihave Hl6 := (landed c (peer c 6) (tableOf m) Hpr6_pay1_v) $$ Hpr6_pay1
  ihave Hw6 := (row_weaken0' c (peer c 6) (tableOf m)) $$ Hl6; icases Hw6 with ⟨Hz6, Hbk6⟩
  ihave Hl7 := (landed c (peer c 7) (tableOf m) Hpr7_pay1_v) $$ Hpr7_pay1
  ihave Hw7 := (row_weaken0' c (peer c 7) (tableOf m)) $$ Hl7; icases Hw7 with ⟨Hz7, Hbk7⟩
  ihave Htab := (table_split8' c (shr 0) (tableOf m)).2 $$ [Hs0 Hz1 Hz2 Hz3 Hz4 Hz5 Hz6 Hz7]
  · isplitl [Hs0]; · iexact Hs0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    iexact Hz7
  ihave Htab := (scr_view c (shr 0) (tableOf m)) $$ Htab
  -- the result's staging buffer; the send cells' positions
  icases Hout with ⟨%g0, %fo, %ho, Hout⟩
  ihave Hout := (stg4_view c fullShare fo) $$ Hout
  ihave Hps := (send_pos (F := F) c) $$ Hpsend
  icases Hps with ⟨Hps0, Hps1, Hps2, Hps3, Hps4, Hps5, Hps6, Hps7⟩
  sl_exec (disch := simp only [dev1_eq, dev2_eq, dev3_eq, dev4_eq, dev5_eq, dev6_eq, dev7_eq, dev8_eq, dev9_eq, dev10_eq, dev11_eq, dev12_eq, dev13_eq, dev14_eq])

  -- the table whole again
  ihave Htab := (table_rejoin c (tableOf m)) $$ [Htab Hbk1 Hbk2 Hbk3 Hbk4 Hbk5 Hbk6 Hbk7 Hps1_pay1 Hps2_pay1 Hps3_pay1 Hps4_pay1 Hps5_pay1 Hps6_pay1 Hps7_pay1]
  · isplitl [Htab]; · iexact Htab
    isplitl [Hbk1 Hbk2 Hbk3 Hbk4 Hbk5 Hbk6 Hbk7]
    · isplitl [Hbk1]; · iexact Hbk1
      isplitl [Hbk2]; · iexact Hbk2
      isplitl [Hbk3]; · iexact Hbk3
      isplitl [Hbk4]; · iexact Hbk4
      isplitl [Hbk5]; · iexact Hbk5
      isplitl [Hbk6]; · iexact Hbk6
      iexact Hbk7
    · isplitl [Hps1_pay1]; · iexact Hps1_pay1
      isplitl [Hps2_pay1]; · iexact Hps2_pay1
      isplitl [Hps3_pay1]; · iexact Hps3_pay1
      isplitl [Hps4_pay1]; · iexact Hps4_pay1
      isplitl [Hps5_pay1]; · iexact Hps5_pay1
      isplitl [Hps6_pay1]; · iexact Hps6_pay1
      iexact Hps7_pay1
  -- the sixteen own cells are closed
  imod (close16' m K c) $$ [Hps0 Hpr0 Hps1 Hps2 Hps3 Hps4 Hps5 Hps6 Hps7 Hpr1 Hpr2 Hpr3 Hpr4 Hpr5 Hpr6 Hpr7] with Hsems
  · isplitr; · iexact Hrec
    isplitl [Hps0]; · iexact Hps0
    isplitl [Hpr0]; · iexact Hpr0
    isplitl [Hps1 Hps2 Hps3 Hps4 Hps5 Hps6 Hps7]
    · isplitl [Hps1]; · iexact Hps1
      isplitl [Hps2]; · iexact Hps2
      isplitl [Hps3]; · iexact Hps3
      isplitl [Hps4]; · iexact Hps4
      isplitl [Hps5]; · iexact Hps5
      isplitl [Hps6]; · iexact Hps6
      iexact Hps7
    · isplitl [Hpr1]; · iexact Hpr1
      isplitl [Hpr2]; · iexact Hpr2
      isplitl [Hpr3]; · iexact Hpr3
      isplitl [Hpr4]; · iexact Hpr4
      isplitl [Hpr5]; · iexact Hpr5
      isplitl [Hpr6]; · iexact Hpr6
      iexact Hpr7
  sl_step

  -- the result block holds this device's result
  have hout : (Memref.whole cc0_stg4_0).view.writes (Elt F) fo
      [⟨Rect.unit (s := S2x2048x512) ![0, 0, 0] S2x2048x512.size inb_S2x2048x512_S2x2048x512_0_0_0,
        k0_pay8 (sound_body.sl.r m c) (sound_body.sl.r_1 m c) (sound_body.sl.r_2 m c) (sound_body.sl.r_3 m) (sound_body.sl.r_4 m)⟩]
      = outAt m c := by
    rw [View.writes_singleton]
    refine (write_out fo _).trans ?_
    unfold sound_body.sl.r sound_body.sl.r_1 sound_body.sl.r_2 sound_body.sl.r_3 sound_body.sl.r_4 sound_body.sl.v96
    rw [read_x, read_t, read_ws, read_wsh, read_tab]
    rfl
  ihave Hout := (Entails.of_eq (congrArg (fun g => (View.loc (c : Thread nD τ) (Memref.whole cc0_stg4_0).view ↦{fullShare} g : sProp 𝕄)) hout)) $$ Hout
  ihave Hx := unkeep $$ Hx
  iapply HK
  iapply (post_intro m ρ c (tableOf m) _)
  isplitl [Htab]; · iexact Htab
  isplitl [Hsems]; · iexact Hsems
  isplitl [HO]; · iexact HO
  isplitl [Hx]; · iexact Hx
  isplitl [Ht]; · iexact Ht
  isplitl [Hws]; · iexact Hws
  isplitl [Hwsh]; · iexact Hwsh
  iclear Hat0
  iclear Hat0_reached
  iclear Hpr1_reached
  iclear Hpr2_reached
  iclear Hpr3_reached
  iclear Hpr4_reached
  iclear Hpr5_reached
  iclear Hpr6_reached
  iclear Hpr7_reached
  iclear Hps1_reached
  iclear Hps2_reached
  iclear Hps3_reached
  iclear Hps4_reached
  iclear Hps5_reached
  iclear Hps6_reached
  iclear Hps7_reached
  iexact Hout

/-- info: 'Cert.KernelIdeal.Body.sound_body' depends on axioms: [propext, Classical.choice, Quot.sound] -/
#guard_msgs in #print axioms sound_body

end Cert.KernelIdeal.Body

end
-- ==== Proof.KernelIdeal.Launch.lean ====
/-
  The launch: from every device's body to the run of the whole program on the eight devices.

  The launch mints the protocol's ghost state for all devices at once (every cell's invariant, the owners'
  positions, the payers' tokens), deals every device its credit, and the region's pipeline stages the four
  argument blocks, runs the body and writes the result block back.
-/
import proofs.«900765_g7700000000000766_dist_diff_adaln_cshard_i_b2_s2048_c512_v7x_i8_bf16_1_alg».proof.Proof.KernelIdeal.Data
import proofs.«900765_g7700000000000766_dist_diff_adaln_cshard_i_b2_s2048_c512_v7x_i8_bf16_1_alg».proof.Proof.KernelIdeal.Credit
import proofs.«900765_g7700000000000766_dist_diff_adaln_cshard_i_b2_s2048_c512_v7x_i8_bf16_1_alg».proof.Proof.KernelIdeal.Body

noncomputable section

namespace Cert.KernelIdeal.Launch

open Cert.KernelIdeal Cert.KernelIdeal.Gen Cert.KernelIdeal.Peers Cert.KernelIdeal.Terms Cert.KernelIdeal.Proto Cert.KernelIdeal.Data Cert.KernelIdeal.Credit Cert.KernelIdeal.Body

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens the launch mints -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : Fin 17 → SemLoc sig) := by decide

theorem kcell_injective : Function.Injective (kcell : Dev nD × Fin 17 → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

/-- The seventeen cells of every device. -/
def ringCells : Finset (GSem nD τ sig) := Finset.univ.map ⟨kcell, kcell_injective⟩

/-- A step that is not the null step. -/
abbrev Step : Type := {d : Fin 8 // d ≠ 0}

/-- The three cells device `c` pays at step `d`: the entry cell and the receive cell of the device `d` places on, its own send cell. -/
def tokCell (c : Dev nD) (d : Fin 8) : Fin 3 → GSem nD τ sig
  | 0 => barCell (peer c d)
  | 1 => recvCell (peer c d) c
  | 2 => sendCell c d

/-- The tokens, indexed by their payer: (payer, step, which of the three). -/
def tokOf (x : Dev nD × Step × Fin 3) : GSem nD τ sig × ℕ × Dev nD := (tokCell x.1 x.2.1.1 x.2.2, 0, x.1)

theorem tokCell_inj : ∀ (c : Dev nD) (d d' : Fin 8) (j j' : Fin 3), tokCell c d j = tokCell c d' j' → d = d' ∧ j = j' := by
  decide

theorem tokOf_injective : Function.Injective (tokOf : Dev nD × Step × Fin 3 → GSem nD τ sig × ℕ × Dev nD) := by
  rintro ⟨c, d, j⟩ ⟨c', d', j'⟩ h
  have h1 : c = c' := congrArg (fun x : GSem nD τ sig × ℕ × Dev nD => x.2.2) h
  subst h1
  have h2 : tokCell c d.1 j = tokCell c d'.1 j' := congrArg (fun x : GSem nD τ sig × ℕ × Dev nD => x.1) h
  obtain ⟨hd, hj⟩ := tokCell_inj c d.1 d'.1 j j' h2
  rw [Subtype.ext hd, hj]

def ringToks : Finset (GSem nD τ sig × ℕ × Dev nD) := Finset.univ.map ⟨tokOf, tokOf_injective⟩

def u₀ : UU :=
  (initOf (Pipeline.cells cfgs cellOf_inj) (Pipeline.launchToks cfgs cellOf_inj), initOf ringCells ringToks)

/-! ## What the launch deals a device, and what the global step makes of it -/

/-- What the launch element deals device `c`: the round states, the positions and the reached marks of its seventeen cells, and the
    tokens of the duties it pays. -/
def G (c : Dev nD) : sProp 𝕄 :=
  iprop((bigSep Finset.univ fun k : Fin 17 => roundState ER (Rd m) (kcell (c, k)) 0)
    ∗ (bigSep Finset.univ fun k : Fin 17 => iprop(atPos ER (kcell (c, k)) 0 ∅ 0 ∗ reached ER (kcell (c, k)) 0))
    ∗ bigSep steps (stepToks c))

/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
/-- A conjunction over `n + 1` indices: the first, and the rest. -/
theorem bigSep_fin_succ {n : ℕ} (Φ : Fin (n + 1) → sProp 𝕄) :
    bigSep Finset.univ Φ = iprop(Φ 0 ∗ bigSep Finset.univ fun k : Fin n => Φ k.succ) := by
  rw [Fin.univ_succ, Finset.cons_eq_insert, bigSep_insert (by simp), bigSep_map]
  rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 17 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => bigSep steps (stepToks c) := by
    unfold ringToks; rw [bigSep_map, bigSep_univ_prod]
    refine bigSep_congr fun c _ => ?_
    rw [bigSep_univ_prod, ← BI.bigSep_subtype_ne (0 : Fin 8) (stepToks c)]
    exact bigSep_congr fun d _ => by unfold stepToks; rw [bigSep_fin3]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

omit [FloatOps F] in
/-- The barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem csem_succ : ∀ k : Fin 16, (csem k.succ : SemLoc sig) = osem k := by decide

omit [FloatOps F] in
/-- A conjunction over a device's seventeen cells: the entry cell, and the sixteen own ones. -/
theorem bigSep_cells (c : Dev nD) (Φ : GSem nD τ sig → sProp 𝕄) :
    (bigSep Finset.univ fun k : Fin 17 => Φ (kcell (c, k)))
      = iprop(Φ (barCell c) ∗ bigSep Finset.univ fun k : Fin 16 => Φ ((c : Thread nD τ), osem k)) := by
  rw [bigSep_fin_succ]
  refine congrArg _ (bigSep_congr fun k _ => ?_)
  show Φ ((c : Thread nD τ), csem k.succ) = _
  rw [csem_succ]

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 17 => semVal (kcell (c, k)) 0 : sProp 𝕄) := by
  rw [unscopedSems0_eq, bigSep_cells c fun g => semVal g 0]
  unfold Pipeline.ownSems0
  iintro ⟨HS, HB⟩
  isplitl [HB] <;> iassumption

/-! ## The global step: every cell's invariant allocated, the records shared -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 17 => iprop(∃ κ : ℕ, cellInv ER (Rd m) κ (kcell (c, k))))
          ∗ (bigSep Finset.univ fun k : Fin 17 => iprop(atPos ER (kcell (c, k)) 0 ∅ 0 ∗ reached ER (kcell (c, k)) 0)) ∗ bigSep steps (stepToks c)) := by
  unfold G
  iintro ⟨Hos, Hus, Hst, Hat, Htok⟩
  ihave Hv := (sems0_eq (F := F) c) $$ [Hos Hus]
  · isplitl [Hos] <;> iassumption
  imod (show iprop((bigSep Finset.univ fun k : Fin 17 => semVal (kcell (c, k)) 0) ∗ bigSep Finset.univ fun k : Fin 17 => roundState ER (Rd m) (kcell (c, k)) 0)
      ⊢ (|={Set.univ}=> bigSep Finset.univ fun k : Fin 17 => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 17 → ℕ) (c : Dev nD) : iprop(records m K ∗ linear c) ⊢ G' m c := by
  unfold G' ghost
  iintro H
  iexists K
  iexact H

theorem regroup :
    (bigSep Finset.univ fun c : Dev nD => iprop((bigSep Finset.univ fun k : Fin 17 => iprop(∃ κ : ℕ, cellInv ER (Rd m) κ (kcell (c, k))))
          ∗ (bigSep Finset.univ fun k : Fin 17 => iprop(atPos ER (kcell (c, k)) 0 ∅ 0 ∗ reached ER (kcell (c, k)) 0)) ∗ bigSep steps (stepToks c)) : sProp 𝕄)
      ⊢ bigSep Finset.univ (G' m) := by
  rw [bigSep_sep', bigSep_sep', ← bigSep_univ_prod (fun ck : Dev nD × Fin 17 => iprop(∃ κ : ℕ, cellInv ER (Rd m) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (Rd m) κ (kcell ck) : sProp 𝕄))) $$ HI
  icases HK with ⟨%K, #HI⟩
  iapply (bigSep_with_persistent (R := records m K) fun c _ => ghost_intro m K c)
  isplitr
  · unfold records; isplitl; · iexact HI
    iexact HR
  · iapply (Entails.of_eq ((bigSep_sep' Finset.univ (fun c : Dev nD => bigSep Finset.univ fun k : Fin 17 => (atPos ER (kcell (c, k)) 0 ∅ 0 : sProp 𝕄)) (fun c => bigSep steps (stepToks c))).symm.trans
      (bigSep_congr fun c _ => show _ = linear c from by unfold linear; rfl)))
    isplitl [Hat]; · iexact Hat
    iexact Htok

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scrPts
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ scrPts Pipeline.ownSems0
  iintro ⟨⟨%f, Hr⟩, Hz⟩
  isplitr; · iempintro
  isplitl [Hz]; · iexact Hz
  iexists f; iexact Hr

/-! ## What the body finds in the staging buffers -/

/-- The four argument windows are fetched at the one point, each the whole of its array: the staging buffer holds the device's block. -/
theorem before_0 (c : Dev nD) (d) : (dats m ρ 0 c).before (0 : Fin 5) t0_0 d = xOf m c := by
  unfold Dat.before; rw [if_pos (fetch0_0 t0_0)]
  show View.read (Elt F) ((Memref.whole main_arg0 : Memref sig .tc .hbm S2x2048x512 .f32).slice (win0_0.rect t0_0) fun _ => rfl).view (m ((c : Thread nD τ).loc main_arg0)) = xOf m c
  exact Memref.read_access_unit_zero (Elt F) main_arg0 (off := fun a => win0_0.index t0_0 a * win0_0.size a) (funext fun a => Nat.zero_mul _) _ _
theorem before_1 (c : Dev nD) (d) : (dats m ρ 0 c).before (1 : Fin 5) t0_0 d = tOf m c := by
  unfold Dat.before; rw [if_pos (fetch0_1 t0_0)]
  show View.read (Elt F) ((Memref.whole main_arg1 : Memref sig .tc .hbm S2x128 .f32).slice (win0_1.rect t0_0) fun _ => rfl).view (m ((c : Thread nD τ).loc main_arg1)) = tOf m c
  exact Memref.read_access_unit_zero (Elt F) main_arg1 (off := fun a => win0_1.index t0_0 a * win0_1.size a) (funext fun a => Nat.zero_mul _) _ _
theorem before_2 (c : Dev nD) (d) : (dats m ρ 0 c).before (2 : Fin 5) t0_0 d = wsOf m c := by
  unfold Dat.before; rw [if_pos (fetch0_2 t0_0)]
  show View.read (Elt F) ((Memref.whole main_arg2 : Memref sig .tc .hbm S128x512 .f32).slice (win0_2.rect t0_0) fun _ => rfl).view (m ((c : Thread nD τ).loc main_arg2)) = wsOf m c
  exact Memref.read_access_unit_zero (Elt F) main_arg2 (off := fun a => win0_2.index t0_0 a * win0_2.size a) (funext fun a => Nat.zero_mul _) _ _
theorem before_3 (c : Dev nD) (d) : (dats m ρ 0 c).before (3 : Fin 5) t0_0 d = wshOf m c := by
  unfold Dat.before; rw [if_pos (fetch0_3 t0_0)]
  show View.read (Elt F) ((Memref.whole main_arg3 : Memref sig .tc .hbm S128x512 .f32).slice (win0_3.rect t0_0) fun _ => rfl).view (m ((c : Thread nD τ).loc main_arg3)) = wshOf m c
  exact Memref.read_access_unit_zero (Elt F) main_arg3 (off := fun a => win0_3.index t0_0 a * win0_3.size a) (funext fun a => Nat.zero_mul _) _ _

/-! ## The body obligation -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- What the pipeline hands the body at its one point. -/
def bodyPre' (c : Dev nD) : sProp 𝕄 :=
  iprop(Φ₀ m c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

set_option maxRecDepth 4000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ (bodyAt0 (F := F) t0_0) (fun _ => bodyPost m ρ c)
  unfold bodyPre' Φ₀ start
  iintro ⟨⟨⟨⟨%K, Hg⟩, Hcr, Hlev⟩, Hscr⟩, Ho, ⟨%d0, Hx⟩, ⟨%d1, Ht⟩, ⟨%d2, Hws⟩, ⟨%d3, Hwsh⟩, ⟨%d4, Hout⟩⟩
  rw [before_0, before_1, before_2, before_3]
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx]; · iexact Hx
    isplitl [Ht]; · iexact Ht
    isplitl [Hws]; · iexact Hws
    isplitl [Hwsh]; · iexact Hwsh
    iexists _; iexact Hout
  · iintro H; iexact H

/-! ## The run -/

/-- Window `w`'s array on device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every weakly fair execution of the program on the eight devices terminates, nothing faulting, with every window's array at its computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.Launch.run_main' depends on axioms: [propext, Classical.choice, Quot.sound] -/
#guard_msgs in #print axioms run_main

end Cert.KernelIdeal.Launch

end
-- ==== Proof.KernelIdeal.Final.lean ====
/-
  The arrays after the run: every device's result array holds its result, its four argument arrays what they held.
-/
import proofs.«900765_g7700000000000766_dist_diff_adaln_cshard_i_b2_s2048_c512_v7x_i8_bf16_1_alg».proof.Proof.KernelIdeal.Launch
import Idealize.ShloMosaic.Lib.Pipeline.Value

noncomputable section

namespace Cert.KernelIdeal.Final

open Cert.KernelIdeal Cert.KernelIdeal.Gen Cert.KernelIdeal.Peers Cert.KernelIdeal.Terms Cert.KernelIdeal.Proto Cert.KernelIdeal.Data Cert.KernelIdeal.Launch

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- An argument's array is never written back: after the run it holds what it held at the start. -/
theorem finalA_in (c : Dev nD) (w : Fin cfg0.W) (hw : (cfg0.win w).isOut = false) :
    finalA m ρ c w = m ((cfg0.win w).arr.view.loc (c : Thread nD τ)) :=
  (dats m ρ 0 c).arrAt_in w hw cfg0.N

/-- The one point's block of the result array starts at offset zero on every axis: it is the whole array. -/
theorem off_zero : (fun a : Fin main_v1.ty.shape.rank => win0_4.index t0_0 a * main_v1.ty.shape.size a) = fun _ => 0 :=
  funext fun a => Nat.zero_mul _

/-- The result array after the run: the write-back at the one point covers the whole array with what the body left in
    the result's staging buffer, the device's result. -/
theorem finalA_out (c : Dev nD) : finalA m ρ c 4 = outAt m c := by
  unfold finalA
  rw [show cfg0.N = (t0_0 : Fin cfg0.N).val + 1 from rfl, (dats m ρ 0 c).arrAt_succ 4 t0_0, flush0_4 t0_0, if_pos rfl]
  refine (Memref.write_access_unit_zero_univ (Elt F) main_v1 off_zero
    (fun a => by rw [congrFun off_zero a]; exact Nat.le_of_eq (Nat.zero_add _)) _ _).trans ?_
  show (cfg0.win 4).cut (grid0.coords t0_0) ((dats m ρ 0 c).after 4 t0_0) = _
  dsimp only [dats]
  rfl

/-- The run with every device's result named and its arguments unchanged. -/
theorem run_values : θ_run defs (onTc (τ := τ) (main (F := F))) ⟨m, fun _ => 0, ρ⟩ (fun r => ∀ c : Dev nD,
    r.2.mem ((c.tc : Thread nD τ).loc main_v1) = outAt m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun _ h c =>
    ⟨(h c 4).trans (finalA_out m ρ c),
      (h c 0).trans (finalA_in m ρ c 0 rfl),
      (h c 1).trans (finalA_in m ρ c 1 rfl),
      (h c 2).trans (finalA_in m ρ c 2 rfl),
      (h c 3).trans (finalA_in m ρ c 3 rfl)⟩) (run_main m ρ)

/-- info: 'Cert.KernelIdeal.Final.finalA_in' depends on axioms: [propext, Classical.choice, Quot.sound] -/
#guard_msgs in #print axioms finalA_in

/-- info: 'Cert.KernelIdeal.Final.finalA_out' depends on axioms: [propext, Classical.choice, Quot.sound] -/
#guard_msgs in #print axioms finalA_out

/-- info: 'Cert.KernelIdeal.Final.run_values' depends on axioms: [propext, Classical.choice, Quot.sound] -/
#guard_msgs in #print axioms run_values

end Cert.KernelIdeal.Final

end
-- ==== Proof.RefTerm.lean ====
/-
  The reference's result as one pure function of its four whole arrays, composed of the operations the program
  prints, in the order it prints them.

  For every batch `b` and position `s`: the mean `μ` of the 4096 channels of `x`, the variance as the mean of
  `(x − μ)²` (the count `4096 − 0`, guarded by a test that the count is positive), the normalised value
  `(x − μ) / √(variance + ε)`; and for every batch `b` and channel `j` the two projections `t · W_scale` and
  `t · W_shift`. The result is `normalised · (1 + scale) + shift`.
-/
import proofs.«900765_g7700000000000766_dist_diff_adaln_cshard_i_b2_s2048_c512_v7x_i8_bf16_1_alg».proof.Proof.Gen.ReferenceIdeal

noncomputable section

namespace Cert.ReferenceIdeal.RefTerm

open Idealize.ShloMosaic Cert.ReferenceIdeal Cert.ReferenceIdeal.Gen

variable {F : FTy → Type} [FloatOps F]

/-- A scalar repeated over batch and position. -/
def splat (v : Vec F S_ .f32) : Vec F S2x2048x1 .f32 := broadcastInDim S2x2048x1 ![] bcast_S_S2x2048x1 v

/-- The sum over the 4096 channels, keeping a unit last axis. -/
def chanSum (x : Vec F S2x2048x4096 .f32) : Vec F S2x2048x1 .f32 :=
  broadcastInDim S2x2048x1 ![0, 1] bcast_S2x2048_S2x2048x1_0_1
    (Host.reduceAdd x (constant S_ .f32 0x00000000#32) reducesTo_S2x2048x4096_S2x2048_d2 h_S_)

/-- A per-(batch, position) value repeated over the channels. -/
def overChans (v : Vec F S2x2048x1 .f32) : Vec F S2x2048x4096 .f32 :=
  broadcastInDim S2x2048x4096 ![0, 1, 2] bcast_S2x2048x1_S2x2048x4096_0_1_2 v

/-- The mean over the channels. -/
def mean (x : Vec F S2x2048x4096 .f32) : Vec F S2x2048x1 .f32 :=
  Host.divf (chanSum x) (splat (constant S_ .f32 0x45800000#32))

/-- `x − μ`. -/
def centered (x : Vec F S2x2048x4096 .f32) : Vec F S2x2048x4096 .f32 := subf x (overChans (mean x))

/-- The divisor of the variance: `4096 − 0`. -/
def count : Vec F S_ .f32 := subf (constant S_ .f32 0x45800000#32) (sitofp .f32 (constantI S_ 32 0#32))

/-- The variance: the mean of `(x − μ)²` where the count is positive, the not-a-number pattern otherwise. -/
def variance (x : Vec F S2x2048x4096 .f32) : Vec F S2x2048x1 .f32 :=
  select (broadcastInDim S2x2048x1 ![] bcast_S_S2x2048x1 (cmpf .ogt (count (F := F)) (constant S_ .f32 0x00000000#32)))
    (Host.divf (chanSum (mulf (centered x) (centered x))) (splat count))
    (splat (id (constant S_ .f32 0x7FC00000#32)))

/-- `(x − μ) / √(variance + ε)`. -/
def normed (x : Vec F S2x2048x4096 .f32) : Vec F S2x2048x4096 .f32 :=
  Host.divf (centered x) (overChans (Host.sqrt (addf (variance x) (splat (constant S_ .f32 0x3727C5AC#32)))))

/-- `t · W`: for every batch and channel the sum over the 128 features. -/
def proj (t : Vec F S2x128 .f32) (w : Vec F S128x4096 .f32) : Vec F S2x4096 .f32 :=
  Host.dotGeneral dot_S2x128_S128x4096_S2x4096_1_0_0_1_n_n none t w

/-- A per-(batch, channel) value with a unit position axis. -/
def unitPos (v : Vec F S2x4096 .f32) : Vec F S2x1x4096 .f32 := broadcastInDim S2x1x4096 ![0, 2] bcast_S2x4096_S2x1x4096_0_2 v

/-- A per-(batch, channel) value repeated over the positions. -/
def overPos (v : Vec F S2x1x4096 .f32) : Vec F S2x2048x4096 .f32 :=
  broadcastInDim S2x2048x4096 ![0, 1, 2] bcast_S2x1x4096_S2x2048x4096_0_1_2 v

/-- The reference's result. -/
def refOut (x : Vec F S2x2048x4096 .f32) (t : Vec F S2x128 .f32) (ws wsh : Vec F S128x4096 .f32) : Vec F S2x2048x4096 .bf16 :=
  truncf .bf16
    (addf (mulf (normed x)
        (overPos (addf (broadcastInDim S2x1x4096 ![] bcast_S_S2x1x4096 (constant S_ .f32 0x3F800000#32)) (unitPos (proj t ws)))))
      (overPos (unitPos (proj t wsh))))
    bitsLt_bf16_f32

end Cert.ReferenceIdeal.RefTerm

end
-- ==== Proof.RefRun.lean ====
/-
  The reference program's run.

  The reference computes, on one device, an adaptive layer normalisation: per (batch, position) the mean and the
  variance of the 4096 channels of the input, the normalised value, and a per-(batch, channel) scale and shift
  obtained from two projections of a conditioning vector. Its entry function is a straight line of fifty array
  operations once the two helper functions it calls (the variance, and inside it the guarded selection) are
  substituted at their call sites, each helper's values living in buffers of their own.

  This module lists those fifty operations in order, shows the entry function is exactly that straight line,
  and reads the run back: every execution terminates, the result buffer holds the composed pure function of the
  four argument arrays, and the argument arrays are unchanged.
-/
import proofs.«900765_g7700000000000766_dist_diff_adaln_cshard_i_b2_s2048_c512_v7x_i8_bf16_1_alg».proof.Proof.Gen.ReferenceIdeal
import proofs.«900765_g7700000000000766_dist_diff_adaln_cshard_i_b2_s2048_c512_v7x_i8_bf16_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The entry function's operations in order, the two helper functions substituted at their calls: seven of its own
    (the channel sum, its division by the channel count: the mean; the integer zero the variance helper takes),
    the variance helper's twenty over its own buffers (the mean again, the centred input, its square, the count
    `4096 − 0`, the sum of squares divided by the count, the test that the count is positive, the not-a-number
    pattern), the selection helper's three (the pattern converted to its own type, repeated, the selection), then
    the entry function's remaining twenty (centring, the square root of variance plus epsilon, the division,
    the two projections, one plus the scale, the product, the shift added, the narrowing of the format). -/
abbrev ops : List (HloOp τ sig (Elt F)) :=
  [
    nullary main_cst (constant S_ .f32 0x00000000#32),
    binary main_arg0 main_cst main_v0 ((fun x v => Host.reduceAdd x v reducesTo_S2x2048x4096_S2x2048_d2 h_S_) : (⟨S2x2048x4096, .f32⟩ : BufTy).Contents (Elt F) → (⟨S_, .f32⟩ : BufTy).Contents (Elt F) → (⟨S2x2048, .f32⟩ : BufTy).Contents (Elt F)),
    unary main_v0 main_v1 (broadcastInDim S2x2048x1 ![0, 1] bcast_S2x2048_S2x2048x1_0_1 : (⟨S2x2048, .f32⟩ : BufTy).Contents (Elt F) → (⟨S2x2048x1, .f32⟩ : BufTy).Contents (Elt F)),
    nullary main_cst_0 (constant S_ .f32 0x45800000#32),
    unary main_cst_0 main_v2 (broadcastInDim S2x2048x1 ![] bcast_S_S2x2048x1 : (⟨S_, .f32⟩ : BufTy).Contents (Elt F) → (⟨S2x2048x1, .f32⟩ : BufTy).Contents (Elt F)),
    binary main_v1 main_v2 main_v3 (Host.divf : (⟨S2x2048x1, .f32⟩ : BufTy).Contents (Elt F) → (⟨S2x2048x1, .f32⟩ : BufTy).Contents (Elt F) → (⟨S2x2048x1, .f32⟩ : BufTy).Contents (Elt F)),
    nullary main_c (constantI S_ 32 0#32),
    TRef.nullary main_call0.cst (constant S_ .f32 0x00000000#32),
    TRef.binary (.of main_arg0) main_call0.cst main_call0.v0 (fun x v => Host.reduceAdd x v reducesTo_S2x2048x4096_S2x2048_d2 h_S_),
    TRef.unary main_call0.v0 main_call0.v1 (broadcastInDim S2x2048x1 ![0, 1] bcast_S2x2048_S2x2048x1_0_1),
    TRef.nullary main_call0.cst_0 (constant S_ .f32 0x45800000#32),
    TRef.unary main_call0.cst_0 main_call0.v2 (broadcastInDim S2x2048x1 ![] bcast_S_S2x2048x1),
    TRef.binary main_call0.v1 main_call0.v2 main_call0.v3 Host.divf,
    TRef.unary main_call0.v3 main_call0.v4 (broadcastInDim S2x2048x4096 ![0, 1, 2] bcast_S2x2048x1_S2x2048x4096_0_1_2),
    TRef.binary (.of main_arg0) main_call0.v4 main_call0.v5 subf,
    TRef.binary main_call0.v5 main_call0.v5 main_call0.v6 mulf,
    TRef.unary (.of main_c) main_call0.v7 (sitofp .f32),
    TRef.nullary main_call0.cst_1 (constant S_ .f32 0x45800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S2x2048x4096_S2x2048_d2 h_S_),
    TRef.unary main_call0.v9 main_call0.v10 (broadcastInDim S2x2048x1 ![0, 1] bcast_S2x2048_S2x2048x1_0_1),
    TRef.unary main_call0.v8 main_call0.v11 (broadcastInDim S2x2048x1 ![] bcast_S_S2x2048x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S2x2048x1 ![] bcast_S_S2x2048x1),
    TRef.ternary main_call0.v13 main_call0.v12 main_call0.call0.v1 main_call0.call0.v2 (fun p a b => select (broadcastInDim S2x2048x1 ![] bcast_S_S2x2048x1 p) a b),
    unary main_v3 main_v5 (broadcastInDim S2x2048x4096 ![0, 1, 2] bcast_S2x2048x1_S2x2048x4096_0_1_2 : (⟨S2x2048x1, .f32⟩ : BufTy).Contents (Elt F) → (⟨S2x2048x4096, .f32⟩ : BufTy).Contents (Elt F)),
    binary main_arg0 main_v5 main_v6 (subf : (⟨S2x2048x4096, .f32⟩ : BufTy).Contents (Elt F) → (⟨S2x2048x4096, .f32⟩ : BufTy).Contents (Elt F) → (⟨S2x2048x4096, .f32⟩ : BufTy).Contents (Elt F)),
    nullary main_cst_1 (constant S_ .f32 0x3727C5AC#32),
    unary main_cst_1 main_v7 (broadcastInDim S2x2048x1 ![] bcast_S_S2x2048x1 : (⟨S_, .f32⟩ : BufTy).Contents (Elt F) → (⟨S2x2048x1, .f32⟩ : BufTy).Contents (Elt F)),
    binary main_v4 main_v7 main_v8 (addf : (⟨S2x2048x1, .f32⟩ : BufTy).Contents (Elt F) → (⟨S2x2048x1, .f32⟩ : BufTy).Contents (Elt F) → (⟨S2x2048x1, .f32⟩ : BufTy).Contents (Elt F)),
    unary main_v8 main_v9 (Host.sqrt : (⟨S2x2048x1, .f32⟩ : BufTy).Contents (Elt F) → (⟨S2x2048x1, .f32⟩ : BufTy).Contents (Elt F)),
    unary main_v9 main_v10 (broadcastInDim S2x2048x4096 ![0, 1, 2] bcast_S2x2048x1_S2x2048x4096_0_1_2 : (⟨S2x2048x1, .f32⟩ : BufTy).Contents (Elt F) → (⟨S2x2048x4096, .f32⟩ : BufTy).Contents (Elt F)),
    binary main_v6 main_v10 main_v11 (Host.divf : (⟨S2x2048x4096, .f32⟩ : BufTy).Contents (Elt F) → (⟨S2x2048x4096, .f32⟩ : BufTy).Contents (Elt F) → (⟨S2x2048x4096, .f32⟩ : BufTy).Contents (Elt F)),
    binary main_arg1 main_arg2 main_v12 ((fun l r => Host.dotGeneral dot_S2x128_S128x4096_S2x4096_1_0_0_1_n_n none l r) : (⟨S2x128, .f32⟩ : BufTy).Contents (Elt F) → (⟨S128x4096, .f32⟩ : BufTy).Contents (Elt F) → (⟨S2x4096, .f32⟩ : BufTy).Contents (Elt F)),
    binary main_arg1 main_arg3 main_v13 ((fun l r => Host.dotGeneral dot_S2x128_S128x4096_S2x4096_1_0_0_1_n_n none l r) : (⟨S2x128, .f32⟩ : BufTy).Contents (Elt F) → (⟨S128x4096, .f32⟩ : BufTy).Contents (Elt F) → (⟨S2x4096, .f32⟩ : BufTy).Contents (Elt F)),
    unary main_v12 main_v14 (broadcastInDim S2x1x4096 ![0, 2] bcast_S2x4096_S2x1x4096_0_2 : (⟨S2x4096, .f32⟩ : BufTy).Contents (Elt F) → (⟨S2x1x4096, .f32⟩ : BufTy).Contents (Elt F)),
    nullary main_cst_2 (constant S_ .f32 0x3F800000#32),
    unary main_cst_2 main_v15 (broadcastInDim S2x1x4096 ![] bcast_S_S2x1x4096 : (⟨S_, .f32⟩ : BufTy).Contents (Elt F) → (⟨S2x1x4096, .f32⟩ : BufTy).Contents (Elt F)),
    binary main_v15 main_v14 main_v16 (addf : (⟨S2x1x4096, .f32⟩ : BufTy).Contents (Elt F) → (⟨S2x1x4096, .f32⟩ : BufTy).Contents (Elt F) → (⟨S2x1x4096, .f32⟩ : BufTy).Contents (Elt F)),
    unary main_v16 main_v17 (broadcastInDim S2x2048x4096 ![0, 1, 2] bcast_S2x1x4096_S2x2048x4096_0_1_2 : (⟨S2x1x4096, .f32⟩ : BufTy).Contents (Elt F) → (⟨S2x2048x4096, .f32⟩ : BufTy).Contents (Elt F)),
    binary main_v11 main_v17 main_v18 (mulf : (⟨S2x2048x4096, .f32⟩ : BufTy).Contents (Elt F) → (⟨S2x2048x4096, .f32⟩ : BufTy).Contents (Elt F) → (⟨S2x2048x4096, .f32⟩ : BufTy).Contents (Elt F)),
    unary main_v13 main_v19 (broadcastInDim S2x1x4096 ![0, 2] bcast_S2x4096_S2x1x4096_0_2 : (⟨S2x4096, .f32⟩ : BufTy).Contents (Elt F) → (⟨S2x1x4096, .f32⟩ : BufTy).Contents (Elt F)),
    unary main_v19 main_v20 (broadcastInDim S2x2048x4096 ![0, 1, 2] bcast_S2x1x4096_S2x2048x4096_0_1_2 : (⟨S2x1x4096, .f32⟩ : BufTy).Contents (Elt F) → (⟨S2x2048x4096, .f32⟩ : BufTy).Contents (Elt F)),
    binary main_v18 main_v20 main_v21 (addf : (⟨S2x2048x4096, .f32⟩ : BufTy).Contents (Elt F) → (⟨S2x2048x4096, .f32⟩ : BufTy).Contents (Elt F) → (⟨S2x2048x4096, .f32⟩ : BufTy).Contents (Elt F)),
    unary main_v21 main_v22 ((truncf .bf16 · bitsLt_bf16_f32) : (⟨S2x2048x4096, .f32⟩ : BufTy).Contents (Elt F) → (⟨S2x2048x4096, .bf16⟩ : BufTy).Contents (Elt F)) ]

-- fifty binds re-associated: the rewriting under the chain recurses once per statement
set_option maxRecDepth 2048 in
/-- The entry function is that straight line: the helpers' definitions unfolded at their calls, both sides are one
    chain of steps once sequencing is re-associated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the one core only. -/
theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., binary_bufs_sub .., binary_bufs_sub .., unary_bufs_sub .., nullary_bufs_sub .., unary_bufs_sub .., binary_bufs_sub .., unary_bufs_sub .., binary_bufs_sub .., unary_bufs_sub .., unary_bufs_sub .., binary_bufs_sub .., unary_bufs_sub ..⟩

/-- What the result buffer holds once the fifty operations have run from contents `V`: the result term of the four
    argument arrays. Each operation's result is read at its own buffer and passed over at every other; what is left
    is the operations composed in the printed order, which is the result term's definition unfolded. -/
theorem out_eq (V : Valuation τ sig (Elt F)) :
    after ops V (main_v22 : DevRef τ sig)
      = RefTerm.refOut (V (main_arg0 : DevRef τ sig)) (V (main_arg1 : DevRef τ sig)) (V (main_arg2 : DevRef τ sig))
          (V (main_arg3 : DevRef τ sig)) := by
  after_results_simp
  rfl

/-- The four argument arrays are written by no operation. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp

/-- On the one device, for any float values, from any memory with zero counters: every weakly fair execution of the
    entry function terminates, the result buffer holding the result term of the four argument arrays' launch
    contents and the argument arrays unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v22) = RefTerm.refOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v22).trans (out_eq _),
      (h c main_arg0).trans (arg0_eq _),
      (h c main_arg1).trans (arg1_eq _),
      (h c main_arg2).trans (arg2_eq _),
      (h c main_arg3).trans (arg3_eq _)⟩)
    (run_seq scopedRefs_eq scopedSems_eq defs main (fun _ => ops) main_eq (fun _ => ops_sub) m ρ)

/-- The frame: the run with the result dropped. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun _ h c => (h c).2) (run m ρ)

end Cert.ReferenceIdeal.RefRun

end
-- ==== Proof.Finite.lean ====
/-
  From the precondition to "every entry is a real number".

  The precondition is a rank-0 one-bit array: the conjunction, over the four argument arrays, of
  "every element's absolute value is below +∞". Over the extended reals the pattern 0x7F800000 denotes ⊤,
  and max a (−a) < ⊤ says a ≠ ⊤ and a ≠ ⊥, that is: a is a real number.
-/
import proofs.«900765_g7700000000000766_dist_diff_adaln_cshard_i_b2_s2048_c512_v7x_i8_bf16_1_alg».proof.Proof.Gen.Pre_finite_inputs_Kernel
import proofs.«900765_g7700000000000766_dist_diff_adaln_cshard_i_b2_s2048_c512_v7x_i8_bf16_1_alg».proof.Defs
import Idealize.ShloMosaic.Lib.ReduceAll
import Idealize.ShloMosaic.Lib.ValueIdx
import Idealize.ShloMosaic.PureOps.Ideal

noncomputable section

namespace Cert.Finite

open Idealize.ShloMosaic Idealize.SL.Sem Cert.Pre_finite_inputs_Kernel

/-- The rank-0 index set has one element. -/
instance subsingleton_S_ : Subsingleton S_.Idx := ⟨fun a b => funext fun d => d.elim0⟩

/-- The pattern of +∞ denotes ⊤. -/
theorem ofBits_inf : Ideal.ofBits .f32 0x7F800000#32 = (⊤ : EReal) := by simp [Ideal.ofBits, Ideal.ieee]

/-- One element: if |a| < +∞ compares true, a is a real number. -/
theorem real_of_abs_lt_inf (a : Ideal .f32)
    (h : FloatOps.cmpf .olt (FloatOps.hostAbsf a) (FloatOps.ofBits (F := Ideal) .f32 0x7F800000#32) = 1#1) :
    ∃ r : ℝ, a = (r : EReal) := by
  have h' : Ideal.cmp .olt (max (a : EReal) (-(a : EReal))) (Ideal.ofBits .f32 0x7F800000#32) = 1#1 := h
  rw [ofBits_inf] at h'
  unfold Ideal.cmp at h'
  induction a using EReal.rec with
  | bot => simp at h'
  | coe r => exact ⟨r, rfl⟩
  | top => simp at h'

/-- One array: if the conjunction over all elements of "|x| < +∞" is 1, every element is a real number. -/
theorem all_real {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi
        (cmpf .olt (Host.absf x) (broadcastInDim s ![] hb (constant (F := Ideal) S_ .f32 0x7F800000#32)))
        (constantI S_ 1 1#1) hr hu ValueIdx.ix0 = 1#1) :
    ∀ i, ∃ r : ℝ, x i = (r : EReal) := by
  intro i
  have hi := Host.reduce_andi_all _ _ hr hu ValueIdx.ix0 h i
  exact real_of_abs_lt_inf (x i) hi

theorem of_fn [Facts] (x : Vec Ideal S2x2048x512 .f32) (t : Vec Ideal S2x128 .f32) (ws wsh : Vec Ideal S128x512 .f32)
    (h : Cert.Pre_finite_inputs_Kernel.fn (F := Ideal) x t ws wsh = (fun _ => 1#1)) :
    (∀ i, ∃ r : ℝ, x i = (r : EReal)) ∧ (∀ i, ∃ r : ℝ, t i = (r : EReal))
      ∧ (∀ i, ∃ r : ℝ, ws i = (r : EReal)) ∧ (∀ i, ∃ r : ℝ, wsh i = (r : EReal)) := by
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨all_real x _ _ _ h1, all_real t _ _ _ h2, all_real ws _ _ _ h3, all_real wsh _ _ _ h4⟩

/-- Over a memory: under the precondition, every entry of every device's four argument buffers is a real number. -/
theorem of_pre [hPre : Cert.Pre_finite_inputs_Kernel.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal)) :=
  of_fn _ _ _ _ (h c)

/-- The same, each buffer read as an array over its literal shape. -/
theorem of_pre_vec [hPre : Cert.Pre_finite_inputs_Kernel.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : S2x2048x512.Idx, ∃ r : ℝ,
        (m ((c.tc : Thread Cert.KernelIdeal.nD Cert.KernelIdeal.τ).loc Cert.KernelIdeal.main_arg0) : Vec Ideal S2x2048x512 .f32) i = (r : EReal))
      ∧ (∀ i : S2x128.Idx, ∃ r : ℝ,
        (m ((c.tc : Thread Cert.KernelIdeal.nD Cert.KernelIdeal.τ).loc Cert.KernelIdeal.main_arg1) : Vec Ideal S2x128 .f32) i = (r : EReal))
      ∧ (∀ i : S128x512.Idx, ∃ r : ℝ,
        (m ((c.tc : Thread Cert.KernelIdeal.nD Cert.KernelIdeal.τ).loc Cert.KernelIdeal.main_arg2) : Vec Ideal S128x512 .f32) i = (r : EReal))
      ∧ (∀ i : S128x512.Idx, ∃ r : ℝ,
        (m ((c.tc : Thread Cert.KernelIdeal.nD Cert.KernelIdeal.τ).loc Cert.KernelIdeal.main_arg3) : Vec Ideal S128x512 .f32) i = (r : EReal)) :=
  of_fn _ _ _ _ (h c)

end Cert.Finite

end
-- ==== Proof.KernelValue.lean ====
/-
  The kernel's values read at an index, on the extended reals.

  One device holds a block `x` of shape 2 × 2048 × 512 (batch, position, channel): its 512 channels of the 4096 the
  eight devices share. Its row of statistics has, at batch `b` and position `s`, the sum over its channels of `x`
  (rows 0 and 1) and of `x²` (rows 2 and 3). The gathered table `st` (8 × 4 × 2048) stacks the eight devices' rows;
  its sum over the eight rows is the sum over all 4096 channels. From it
      mean(b, s)   = (Σ_p st(p, b, s)) / 4096,
      meanSq(b, s) = (Σ_p st(p, 2 + b, s)) / 4096,
      inv(b, s)    = rsqrt(meanSq − mean² + ε),
  and the result at `(b, s, j)` is
      (x(b, s, j) · inv + (0 − mean) · inv) · (1 + Σ_k t(b, k) · ws(k, j)) + Σ_k t(b, k) · wsh(k, j),
  with `t` the 2 × 128 conditioning vector and `ws`, `wsh` the 128 × 512 scale and shift weights.

  Every operation that is not elementwise is read once at explicit coordinates: a sum along one axis as the sum over
  that axis's coordinate, a stack of two arrays as the one the row falls in, a cut as the rows it keeps, a unit axis
  added as the same entry, a factor laid along an axis as constant along it, and a product into a zero accumulator as
  the sum over the one contracted axis. A change of float format is the identity here, and adding to the zero word
  is adding to zero, so no leftover `0 +` remains in a sum. The literals 4096, ε and 1 stay as their words.
-/
import proofs.«900765_g7700000000000766_dist_diff_adaln_cshard_i_b2_s2048_c512_v7x_i8_bf16_1_alg».proof.Proof.KernelIdeal.Terms
import Idealize.ShloMosaic.Lib.ValueIdx
import Idealize.ShloMosaic.Lib.ValueLayout
import Idealize.ShloMosaic.PureOps.Ideal.Laws

noncomputable section

open scoped BigOperators

namespace Cert.KernelValue

open Idealize.ShloMosaic Idealize.ShloMosaic.ValueIdx Cert.KernelIdeal Cert.KernelIdeal.Gen Cert.KernelIdeal.Terms

/-! ## The non-pointwise operations, each read at explicit coordinates -/

/-- A sum over the 512 channels of a block: at batch `b`, position `s`, the sum over `j` of the block at `(b, s, j)`. -/
theorem laneSum_apply (v : FVec Ideal S2x2048x512 .f32) (hφ : FKind.Formats .f32)
    (hacc : (0x00000000#32 : BitVec 32) = FKind.add.neutral .f32 hφ) (b : Fin 2) (s : Fin 2048) :
    multiReduction (F := Ideal) .add [2] S2x2048 v 0x00000000#32 reduces_S2x2048x512_S2x2048 hφ hacc (ix2 b s)
      = ∑ j : Fin 512, v (ix3 b s j) := by
  refine (Ideal.multiReduction_add_single v 0x00000000#32 reduces_S2x2048x512_S2x2048 hφ hacc (ix2 b s)).trans ?_
  refine Finset.sum_congr rfl fun k _ => congrArg v (funext fun a => Fin.ext ?_)
  match a with
  | ⟨0, _⟩ => rfl
  | ⟨1, _⟩ => rfl
  | ⟨2, _⟩ => rfl

/-- A sum over the 8 rows of the table: at row `r`, position `s`, the sum over `p` of the table at `(p, r, s)`. -/
theorem rowSum_apply (st : FVec Ideal S8x4x2048 .f32) (hφ : FKind.Formats .f32)
    (hacc : (0x00000000#32 : BitVec 32) = FKind.add.neutral .f32 hφ) (r : Fin 4) (s : Fin 2048) :
    multiReduction (F := Ideal) .add [0] S4x2048 st 0x00000000#32 reduces_S8x4x2048_S4x2048 hφ hacc (ix2 r s)
      = ∑ p : Fin 8, st (ix3 p r s) := by
  refine (Ideal.multiReduction_add_single st 0x00000000#32 reduces_S8x4x2048_S4x2048 hφ hacc (ix2 r s)).trans ?_
  refine Finset.sum_congr rfl fun k _ => congrArg st (funext fun a => Fin.ext ?_)
  match a with
  | ⟨0, _⟩ => rfl
  | ⟨1, _⟩ => rfl
  | ⟨2, _⟩ => rfl

/-- Two 2 × 2048 arrays stacked along the rows, read in the first: row `b` of the stack is row `b` of the first. -/
theorem stack_top {α : Type} (u w : S2x2048.Idx → α) (b : Fin 2) (s : Fin 2048) :
    concatenate S4x2048 0 [⟨S2x2048, u⟩, ⟨S2x2048, w⟩] concatenates_S2x2048_S2x2048_S4x2048_d0
      (ix2 (⟨b.val, by omega⟩ : Fin 4) s) = u (ix2 b s) := by
  refine concatenate_pair_apply_left (t := S4x2048) 0 u w concatenates_S2x2048_S2x2048_S4x2048_d0 (ix2 (⟨b.val, by omega⟩ : Fin 4) s) rfl (ix2 b s) fun a => ?_
  match a with
  | ⟨0, _⟩ => rfl
  | ⟨1, _⟩ => rfl

/-- … and in the second: row `2 + b` of the stack is row `b` of the second. -/
theorem stack_bottom {α : Type} (u w : S2x2048.Idx → α) (b : Fin 2) (s : Fin 2048) :
    concatenate S4x2048 0 [⟨S2x2048, u⟩, ⟨S2x2048, w⟩] concatenates_S2x2048_S2x2048_S4x2048_d0
      (ix2 (⟨2 + b.val, by omega⟩ : Fin 4) s) = w (ix2 b s) := by
  refine concatenate_pair_apply_right (t := S4x2048) 0 u w concatenates_S2x2048_S2x2048_S4x2048_d0 (ix2 (⟨2 + b.val, by omega⟩ : Fin 4) s) rfl rfl (ix2 b s) (fun a ha => ?_) ?_
  · match a with
    | ⟨0, _⟩ => exact absurd rfl ha
    | ⟨1, _⟩ => rfl
  · show b.val + 2 = 2 + b.val
    omega

/-- A 2 × 2048 array viewed 2 × 2048 × 1 reads, at `(b, s, 0)`, the array at `(b, s)`. -/
theorem column_apply {α : Type} (v : S2x2048.Idx → α) (b : Fin 2) (s : Fin 2048) (u : Fin 1) :
    shapeCast S2x2048x1 v shapeCasts_S2x2048_S2x2048x1 (ix3 b s u) = v (ix2 b s) :=
  shapeCast_apply v _ _ _ (by
    have hu : u.val = 0 := by omega
    rw [Shape.rowMajor_val_three, Shape.rowMajor_val_two]
    show b.val * 2048 + s.val = (b.val * 2048 + s.val) * 1 + u.val
    rw [hu, Nat.mul_one, Nat.add_zero])

/-- A 2 × 512 array viewed 2 × 1 × 512 reads, at `(b, 0, j)`, the array at `(b, j)`. -/
theorem rowOf_apply {α : Type} (v : S2x512.Idx → α) (b : Fin 2) (u : Fin 1) (j : Fin 512) :
    shapeCast S2x1x512 v shapeCasts_S2x512_S2x1x512 (ix3 b u j) = v (ix2 b j) :=
  shapeCast_apply v _ _ _ (by
    have hu : u.val = 0 := by omega
    rw [Shape.rowMajor_val_three, Shape.rowMajor_val_two]
    show b.val * 512 + j.val = (b.val * 1 + u.val) * 512 + j.val
    rw [hu, Nat.mul_one, Nat.add_zero])

/-- A 2 × 2048 × 1 array laid along the 512 channels reads, at `(b, s, j)`, the array at `(b, s, 0)`. -/
theorem alongChannels_apply {α : Type} (v : S2x2048x1.Idx → α) (b : Fin 2) (s : Fin 2048) (j : Fin 512) :
    broadcastTo S2x2048x512 v broadcasts_S2x2048x1_S2x2048x512 (ix3 b s j) = v (ix3 b s (0 : Fin 1)) := by
  refine broadcastTo_apply v _ (ix3 b s j) (ix3 b s (0 : Fin 1)) fun a => ?_
  match a with
  | ⟨0, _⟩ => rfl
  | ⟨1, _⟩ => rfl
  | ⟨2, _⟩ => rfl

/-- A 2 × 1 × 512 array laid along the 2048 positions reads, at `(b, s, j)`, the array at `(b, 0, j)`. -/
theorem alongPositions_apply {α : Type} (v : S2x1x512.Idx → α) (b : Fin 2) (s : Fin 2048) (j : Fin 512) :
    broadcastTo S2x2048x512 v broadcasts_S2x1x512_S2x2048x512 (ix3 b s j) = v (ix3 b (0 : Fin 1) j) := by
  refine broadcastTo_apply v _ (ix3 b s j) (ix3 b (0 : Fin 1) j) fun a => ?_
  match a with
  | ⟨0, _⟩ => rfl
  | ⟨1, _⟩ => rfl
  | ⟨2, _⟩ => rfl

/-! ## The product of the conditioning vector with a 128 × 512 weight matrix

The contraction runs over the one axis of extent 128: axis 1 of the left operand, axis 0 of the right. -/

theorem lhs_axis0 (i : S2x512.Idx) (q : dot_S2x128_S128x512_S2x512_1_0_0_1_n_n.contr.Idx) :
    (dot_S2x128_S128x512_S2x512_1_0_0_1_n_n.lhsIdx i q 0).val = (i 0).val := by
  unfold DotDims.lhsIdx
  rw [dif_neg (show ¬(0 : Fin S2x128.rank) ∈ dot_S2x128_S128x512_S2x512_1_0_0_1_n_n.lhsBatch by decide), dif_pos (show (0 : Fin S2x128.rank) ∈ dot_S2x128_S128x512_S2x512_1_0_0_1_n_n.lhsNonContracting by decide)]
  rfl

theorem lhs_axis1 (i : S2x512.Idx) (q : dot_S2x128_S128x512_S2x512_1_0_0_1_n_n.contr.Idx) :
    (dot_S2x128_S128x512_S2x512_1_0_0_1_n_n.lhsIdx i q 1).val = (q ⟨0, by decide⟩).val :=
  dot_S2x128_S128x512_S2x512_1_0_0_1_n_n.lhsIdx_val_of_single rfl i q

theorem rhs_axis0 (i : S2x512.Idx) (q : dot_S2x128_S128x512_S2x512_1_0_0_1_n_n.contr.Idx) :
    (dot_S2x128_S128x512_S2x512_1_0_0_1_n_n.rhsIdx i q 0).val = (q ⟨0, by decide⟩).val :=
  dot_S2x128_S128x512_S2x512_1_0_0_1_n_n.rhsIdx_val_of_single rfl i q

theorem rhs_axis1 (i : S2x512.Idx) (q : dot_S2x128_S128x512_S2x512_1_0_0_1_n_n.contr.Idx) :
    (dot_S2x128_S128x512_S2x512_1_0_0_1_n_n.rhsIdx i q 1).val = (i 1).val := by
  unfold DotDims.rhsIdx
  rw [dif_neg (show ¬(1 : Fin S128x512.rank) ∈ dot_S2x128_S128x512_S2x512_1_0_0_1_n_n.rhsBatch by decide), dif_pos (show (1 : Fin S128x512.rank) ∈ dot_S2x128_S128x512_S2x512_1_0_0_1_n_n.rhsNonContracting by decide)]
  rfl

/-- The product into a zero accumulator, at `(b, j)`: the sum over `k` of the left at `(b, k)` times the right at `(k, j)`. -/
theorem product_apply (l : FVec Ideal S2x128 .f32) (r : FVec Ideal S128x512 .f32) (b : Fin 2) (j : Fin 512) :
    matmul dot_S2x128_S128x512_S2x512_1_0_0_1_n_n none l r (constant (F := Ideal) S2x512 .f32 0x00000000#32) (ix2 b j)
      = ∑ k : Fin 128, l (ix2 b k) * r (ix2 k j) := by
  show FloatOps.matmul dot_S2x128_S128x512_S2x512_1_0_0_1_n_n none l r (constant (F := Ideal) S2x512 .f32 0x00000000#32) (ix2 b j) = _
  rw [Ideal.matmul_constant_zero_apply, ← Equiv.sum_comp (contrEquiv1 dot_S2x128_S128x512_S2x512_1_0_0_1_n_n 128 rfl rfl).symm]
  refine Finset.sum_congr rfl fun k _ => ?_
  have hk := contrEquiv1_symm_val dot_S2x128_S128x512_S2x512_1_0_0_1_n_n 128 rfl rfl k
  have el : dot_S2x128_S128x512_S2x512_1_0_0_1_n_n.lhsIdx (ix2 b j) ((contrEquiv1 dot_S2x128_S128x512_S2x512_1_0_0_1_n_n 128 rfl rfl).symm k) = ix2 b k := funext fun a => Fin.ext (by
    match a with
    | ⟨0, _⟩ => exact lhs_axis0 _ _
    | ⟨1, _⟩ => exact (lhs_axis1 _ _).trans hk)
  have er : dot_S2x128_S128x512_S2x512_1_0_0_1_n_n.rhsIdx (ix2 b j) ((contrEquiv1 dot_S2x128_S128x512_S2x512_1_0_0_1_n_n 128 rfl rfl).symm k) = ix2 k j := funext fun a => Fin.ext (by
    match a with
    | ⟨0, _⟩ => exact (rhs_axis0 _ _).trans hk
    | ⟨1, _⟩ => exact rhs_axis1 _ _)
  rw [el, er]

/-! ## The statistics the result is computed from -/

/-- The mean over all 4096 channels at batch `b`, position `s`: the eight devices' channel sums added, over 4096. -/
def kMean (st : Vec Ideal S8x4x2048 .f32) (b : Fin 2) (s : Fin 2048) : EReal :=
  Ideal.div (∑ p : Fin 8, st (ix3 p (⟨b.val, by omega⟩ : Fin 4) s)) (Ideal.ofBits .f32 0x45800000#32)

/-- The mean of the squares over all 4096 channels at batch `b`, position `s`. -/
def kMeanSq (st : Vec Ideal S8x4x2048 .f32) (b : Fin 2) (s : Fin 2048) : EReal :=
  Ideal.div (∑ p : Fin 8, st (ix3 p (⟨2 + b.val, by omega⟩ : Fin 4) s)) (Ideal.ofBits .f32 0x45800000#32)

/-- The inverse standard deviation: the reciprocal square root of the variance plus ε. -/
def kInv (st : Vec Ideal S8x4x2048 .f32) (b : Fin 2) (s : Fin 2048) : EReal :=
  Ideal.rsqrt (kMeanSq st b s - kMean st b s * kMean st b s + Ideal.ofBits .f32 0x3727C5AC#32)

/-! ## One device's row of statistics -/

/-- The block as loaded is the block. -/
theorem loaded_eq (x : Vec Ideal S2x2048x512 .f32) : k0_pay1 (F := Ideal) x = x := shapeCast_self x _

/-- Rows 0 and 1 of a device's row of statistics: the channel sums of its block. -/
theorem stats_sum (v : FVec Ideal S2x2048x512 .f32) (u : Fin 1) (b : Fin 2) (s : Fin 2048) :
    k0_pay3 (F := Ideal) v (ix3 u (⟨b.val, by omega⟩ : Fin 4) s) = ∑ j : Fin 512, v (ix3 b s j) := by
  unfold k0_pay3
  refine (congrFun (shapeCast_self _ _) _).trans ?_
  refine (shapeCast_ab_1ab_apply _ _ u _ s).trans ?_
  refine (stack_top _ _ b s).trans ?_
  exact laneSum_apply v _ _ b s

/-- Rows 2 and 3: the channel sums of the squares. -/
theorem stats_sumsq (v : FVec Ideal S2x2048x512 .f32) (u : Fin 1) (b : Fin 2) (s : Fin 2048) :
    k0_pay3 (F := Ideal) v (ix3 u (⟨2 + b.val, by omega⟩ : Fin 4) s) = ∑ j : Fin 512, v (ix3 b s j) * v (ix3 b s j) := by
  unfold k0_pay3
  refine (congrFun (shapeCast_self _ _) _).trans ?_
  refine (shapeCast_ab_1ab_apply _ _ u _ s).trans ?_
  refine (stack_bottom _ _ b s).trans ?_
  refine (laneSum_apply _ _ _ b s).trans ?_
  rfl

theorem allStats_sum (X : Dev 8 → Vec Ideal S2x2048x512 .f32) (p : Fin 8) (b : Fin 2) (s : Fin 2048) :
    allStats X (ix3 p (⟨b.val, by omega⟩ : Fin 4) s) = ∑ j : Fin 512, X p (ix3 b s j) := by
  show k0_pay3 (F := Ideal) (k0_pay1 (F := Ideal) (X p)) (ix3 (0 : Fin 1) (⟨b.val, by omega⟩ : Fin 4) s) = _
  rw [loaded_eq]
  exact stats_sum (X p) 0 b s

theorem allStats_sumsq (X : Dev 8 → Vec Ideal S2x2048x512 .f32) (p : Fin 8) (b : Fin 2) (s : Fin 2048) :
    allStats X (ix3 p (⟨2 + b.val, by omega⟩ : Fin 4) s) = ∑ j : Fin 512, X p (ix3 b s j) * X p (ix3 b s j) := by
  show k0_pay3 (F := Ideal) (k0_pay1 (F := Ideal) (X p)) (ix3 (0 : Fin 1) (⟨2 + b.val, by omega⟩ : Fin 4) s) = _
  rw [loaded_eq]
  exact stats_sumsq (X p) 0 b s

/-! ## The gathered table summed over its eight rows -/

/-- The total at row `r`, position `s`. -/
theorem total_apply (st : Vec Ideal S8x4x2048 .f32) (r : Fin 4) (s : Fin 2048) :
    k0_pay6 (F := Ideal) st (ix2 r s) = ∑ p : Fin 8, st (ix3 p r s) := by
  unfold k0_pay6
  exact rowSum_apply st _ _ r s

/-- Its first two rows, cut out. -/
theorem totalTop_apply (st : Vec Ideal S8x4x2048 .f32) (b : Fin 2) (s : Fin 2048) :
    k0_pay7 (F := Ideal) st (ix2 b s) = ∑ p : Fin 8, st (ix3 p (⟨b.val, by omega⟩ : Fin 4) s) := by
  unfold k0_pay7
  refine (slice2_axis0_apply 0 _ _ b s (⟨b.val, by omega⟩ : Fin 4) (Nat.zero_add _).symm).trans ?_
  exact total_apply st _ s

/-! ## The two products with the conditioning vector -/

/-- The shift: the conditioning vector times the shift weights. -/
theorem shift_apply (t : Vec Ideal S2x128 .f32) (w : Vec Ideal S128x512 .f32) (b : Fin 2) (j : Fin 512) :
    k0_pay4 (F := Ideal) t w (ix2 b j) = ∑ k : Fin 128, t (ix2 b k) * w (ix2 k j) := by
  unfold k0_pay4
  refine (product_apply _ _ b j).trans ?_
  exact Finset.sum_congr rfl fun k _ =>
    congrArg₂ (· * ·) (congrFun (shapeCast_self t _) _) (congrFun (shapeCast_self w _) _)

/-- The scale: one plus the conditioning vector times the scale weights. -/
theorem scale_apply (t : Vec Ideal S2x128 .f32) (w : Vec Ideal S128x512 .f32) (b : Fin 2) (j : Fin 512) :
    k0_pay5 (F := Ideal) t w (ix2 b j)
      = Ideal.ofBits .f32 0x3F800000#32 + ∑ k : Fin 128, t (ix2 b k) * w (ix2 k j) := by
  show Ideal.ofBits .f32 0x3F800000#32 + k0_pay4 (F := Ideal) t w (ix2 b j) = _
  rw [shift_apply]

/-! ## The result -/

/-- The last payload at `(b, s, j)`, over the values it is handed: the block normalised by the statistics at `(b, s)`,
    scaled and shifted at `(b, j)`. The per-position factors are laid along the channels and the per-channel ones along
    the positions; every change of float format is the identity on the extended reals. -/
theorem normalised_apply (v : FVec Ideal S2x2048x512 .bf16) (sh sc : FVec Ideal S2x512 .f32)
    (tot : FVec Ideal S4x2048 .f32) (top : FVec Ideal S2x2048 .f32) (b : Fin 2) (s : Fin 2048) (j : Fin 512) :
    k0_pay8 (F := Ideal) v sh sc tot top (ix3 b s j)
      = (v (ix3 b s j)
            * Ideal.rsqrt (Ideal.div (tot (ix2 (⟨2 + b.val, by omega⟩ : Fin 4) s)) (Ideal.ofBits .f32 0x45800000#32)
                - Ideal.div (top (ix2 b s)) (Ideal.ofBits .f32 0x45800000#32)
                  * Ideal.div (top (ix2 b s)) (Ideal.ofBits .f32 0x45800000#32)
                + Ideal.ofBits .f32 0x3727C5AC#32)
          + (0 - Ideal.div (top (ix2 b s)) (Ideal.ofBits .f32 0x45800000#32))
            * Ideal.rsqrt (Ideal.div (tot (ix2 (⟨2 + b.val, by omega⟩ : Fin 4) s)) (Ideal.ofBits .f32 0x45800000#32)
                - Ideal.div (top (ix2 b s)) (Ideal.ofBits .f32 0x45800000#32)
                  * Ideal.div (top (ix2 b s)) (Ideal.ofBits .f32 0x45800000#32)
                + Ideal.ofBits .f32 0x3727C5AC#32))
          * sc (ix2 b j)
        + sh (ix2 b j) := by
  have hcol : ∀ w : FVec Ideal S2x2048 .bf16,
      broadcastTo S2x2048x512 (shapeCast S2x2048x1 w shapeCasts_S2x2048_S2x2048x1) broadcasts_S2x2048x1_S2x2048x512 (ix3 b s j)
        = w (ix2 b s) :=
    fun w => (alongChannels_apply _ b s j).trans (column_apply w b s 0)
  have hrow : ∀ w : FVec Ideal S2x512 .bf16,
      broadcastTo S2x2048x512 (shapeCast S2x1x512 w shapeCasts_S2x512_S2x1x512) broadcasts_S2x1x512_S2x2048x512 (ix3 b s j)
        = w (ix2 b j) :=
    fun w => (alongPositions_apply _ b s j).trans (rowOf_apply w b 0 j)
  have hcut : extractStridedSlice S2x2048 ![2, 0] tot slices_S4x2048_o2_0_S2x2048 (ix2 b s)
      = tot (ix2 (⟨2 + b.val, by omega⟩ : Fin 4) s) :=
    slice2_axis0_apply 2 tot _ b s _ rfl
  unfold k0_pay8
  refine (congrArg₂ (· + ·) (congrArg₂ (· * ·) (congrArg₂ (· + ·) (congrArg₂ (· * ·) rfl (hcol _)) (hcol _)) (hrow _)) (hrow _)).trans ?_
  show (v (ix3 b s j)
            * Ideal.rsqrt (Ideal.div (extractStridedSlice S2x2048 ![2, 0] tot slices_S4x2048_o2_0_S2x2048 (ix2 b s)) (Ideal.ofBits .f32 0x45800000#32)
                - Ideal.div (top (ix2 b s)) (Ideal.ofBits .f32 0x45800000#32)
                  * Ideal.div (top (ix2 b s)) (Ideal.ofBits .f32 0x45800000#32)
                + Ideal.ofBits .f32 0x3727C5AC#32)
          + (Ideal.ofBits .f32 0x00000000#32 - Ideal.div (top (ix2 b s)) (Ideal.ofBits .f32 0x45800000#32))
            * Ideal.rsqrt (Ideal.div (extractStridedSlice S2x2048 ![2, 0] tot slices_S4x2048_o2_0_S2x2048 (ix2 b s)) (Ideal.ofBits .f32 0x45800000#32)
                - Ideal.div (top (ix2 b s)) (Ideal.ofBits .f32 0x45800000#32)
                  * Ideal.div (top (ix2 b s)) (Ideal.ofBits .f32 0x45800000#32)
                + Ideal.ofBits .f32 0x3727C5AC#32))
          * sc (ix2 b j)
        + sh (ix2 b j) = _
  rw [hcut, Ideal.ofBits_zero_f32]

theorem outOf_apply (x : Vec Ideal S2x2048x512 .f32) (t : Vec Ideal S2x128 .f32) (ws wsh : Vec Ideal S128x512 .f32)
    (st : Vec Ideal S8x4x2048 .f32) (b : Fin 2) (s : Fin 2048) (j : Fin 512) :
    outOf (F := Ideal) x t ws wsh st (ix3 b s j)
      = (x (ix3 b s j) * kInv st b s + (0 - kMean st b s) * kInv st b s)
          * (Ideal.ofBits .f32 0x3F800000#32 + ∑ k : Fin 128, t (ix2 b k) * ws (ix2 k j))
        + ∑ k : Fin 128, t (ix2 b k) * wsh (ix2 k j) := by
  unfold outOf
  refine (normalised_apply _ _ _ _ _ b s j).trans ?_
  rw [scale_apply, shift_apply, totalTop_apply, total_apply, loaded_eq]
  rfl

end Cert.KernelValue

end
-- ==== Proof.RefValue.lean ====
/-
  The reference's result read at one index (b, s, j), at the extended reals.

  For a batch b and a position s, the mean of row (b, s) is the sum of its 4096 channels divided by 4096, and its
  variance is the sum of the squared deviations from that mean, again divided by 4096: the reference's own divisor,
  4096 less the integer zero made a float, is 4096, and its test that this divisor is positive holds, so the branch
  carrying the not-a-number pattern is never taken. The normalised entry is the deviation over the square root of
  the variance plus a small constant. Each of the two projections of t, at (b, j), is the sum over the 128 features k
  of t (b, k) times the weight at (k, j). The result at (b, s, j) is the normalised entry times one plus the first
  projection, plus the second projection; the final change of float format does nothing to an extended real.

  Every named piece of the reference's term is read at an index in a lemma of its own: a broadcast reads its operand
  at the coordinates it keeps, the sum over the channels is a sum over Fin 4096, and the product of a 2 x 128 by a
  128 x 4096 matrix is a sum over Fin 128.
-/
import proofs.«900765_g7700000000000766_dist_diff_adaln_cshard_i_b2_s2048_c512_v7x_i8_bf16_1_alg».proof.Proof.RefTerm
import Idealize.ShloMosaic.Lib.IdealHost
import Idealize.ShloMosaic.Lib.StackMember
import Idealize.ShloMosaic.Lib.Pipeline.Value

noncomputable section

namespace Cert.RefValue

open Idealize.ShloMosaic Idealize.ShloMosaic.ValueIdx Idealize.ShloMosaic.StackMember
open Cert.ReferenceIdeal Cert.ReferenceIdeal.Gen Cert.ReferenceIdeal.RefTerm
open scoped BigOperators

/-! ## The mean and the variance of a row -/

/-- The mean of row (b, s): the sum of its 4096 channels over the float 4096. -/
def rMean (x : FVec Ideal S2x2048x4096 .f32) (b : Fin 2) (s : Fin 2048) : EReal :=
  Ideal.div (∑ j : Fin 4096, x (ix3 b s j)) (Ideal.ofBits .f32 0x45800000#32)

/-- The variance of row (b, s): the sum of the squared deviations from the mean over the float 4096. -/
def rVar (x : FVec Ideal S2x2048x4096 .f32) (b : Fin 2) (s : Fin 2048) : EReal :=
  Ideal.div (∑ j : Fin 4096, (x (ix3 b s j) - rMean x b s) * (x (ix3 b s j) - rMean x b s))
    (Ideal.ofBits .f32 0x45800000#32)

/-! ## The two literals that are evaluated -/

/-- The pattern 0x45800000 denotes the real 4096. -/
theorem ofBits_4096 : Ideal.ofBits .f32 0x45800000#32 = ((4096 : ℝ) : EReal) := by
  simp [Ideal.ofBits, Ideal.ieee, -EReal.coe_mul]; norm_num

/-- The divisor of the variance, 4096 less the integer zero made a float, is the float 4096. -/
theorem count_apply : count (F := Ideal) ix0 = Ideal.ofBits .f32 0x45800000#32 := by
  show Ideal.ofBits .f32 0x45800000#32 - (((0#32 : BitVec 32).toInt : ℝ) : EReal) = _
  rw [BitVec.toInt_zero, Int.cast_zero, EReal.coe_zero, sub_zero]

/-- The test that the divisor is positive holds. -/
theorem count_pos : cmpf .ogt (count (F := Ideal)) (constant (F := Ideal) S_ .f32 0x00000000#32) ix0 = 1#1 := by
  show Ideal.cmp .ogt (count (F := Ideal) ix0) (Ideal.ofBits .f32 0x00000000#32) = 1#1
  rw [count_apply, Ideal.ofBits_zero_f32, ofBits_4096]
  have h : (0 : EReal) < ((4096 : ℝ) : EReal) := EReal.coe_pos.mpr (by norm_num)
  simp [Ideal.cmp, h]

/-! ## The broadcasts at an index -/

/-- A scalar repeated over batch and position reads the scalar. -/
theorem splat_apply (v : FVec Ideal S_ .f32) (j : S2x2048x1.Idx) : splat (F := Ideal) v j = v ix0 :=
  broadcastInDim_scalar_apply _ v j

/-- A per-(batch, position) value repeated over the channels reads that value. -/
theorem overChans_apply (v : FVec Ideal S2x2048x1 .f32) (b : Fin 2) (s : Fin 2048) (j : Fin 4096) :
    overChans (F := Ideal) v (ix3 b s j) = v (ix3 b s (0 : Fin 1)) :=
  broadcastInDim_apply _ _ v (ix3 b s j) (ix3 b s (0 : Fin 1))
    (fun a => match a with | ⟨0, _⟩ => rfl | ⟨1, _⟩ => rfl | ⟨2, _⟩ => rfl)

/-- A per-(batch, channel) value given a unit position axis reads that value. -/
theorem unitPos_apply (v : FVec Ideal S2x4096 .f32) (b : Fin 2) (u : Fin 1) (j : Fin 4096) :
    unitPos (F := Ideal) v (ix3 b u j) = v (ix2 b j) :=
  broadcastInDim_apply _ _ v (ix3 b u j) (ix2 b j)
    (fun a => match a with | ⟨0, _⟩ => rfl | ⟨1, _⟩ => rfl)

/-- A per-(batch, channel) value repeated over the positions reads that value. -/
theorem overPos_apply (v : FVec Ideal S2x1x4096 .f32) (b : Fin 2) (s : Fin 2048) (j : Fin 4096) :
    overPos (F := Ideal) v (ix3 b s j) = v (ix3 b (0 : Fin 1) j) :=
  broadcastInDim_apply _ _ v (ix3 b s j) (ix3 b (0 : Fin 1) j)
    (fun a => match a with | ⟨0, _⟩ => rfl | ⟨1, _⟩ => rfl | ⟨2, _⟩ => rfl)

/-! ## The sum over the channels -/

/-- The sum over the channels, read at (b, s), is the sum over Fin 4096 of the row's entries: the reduction's zero
    initial value adds nothing. -/
theorem chanSum_apply (x : FVec Ideal S2x2048x4096 .f32) (b : Fin 2) (s : Fin 2048) (u : Fin 1) :
    chanSum (F := Ideal) x (ix3 b s u) = ∑ j : Fin 4096, x (ix3 b s j) := by
  have h : S2x2048x4096.Reduces [2] S2x2048 :=
    ⟨reducesTo_S2x2048x4096_S2x2048_d2.1, Nat.two_pos, reducesTo_S2x2048x4096_S2x2048_d2.2⟩
  unfold chanSum
  refine (broadcastInDim_apply _ _ _ (ix3 b s u) (ix2 b s)
    (fun a => match a with | ⟨0, _⟩ => rfl | ⟨1, _⟩ => rfl)).trans ?_
  rw [hostReduceAdd_apply, Ideal.hostReduceAdd_single reducesTo_S2x2048x4096_S2x2048_d2 h]
  show Ideal.ofBits .f32 0x00000000#32 + _ = _
  rw [Ideal.ofBits_zero_f32, zero_add]
  refine Finset.sum_congr rfl fun k _ => congrArg x (funext fun a => Fin.ext ?_)
  match a with
  | ⟨0, _⟩ => rfl
  | ⟨1, _⟩ => rfl
  | ⟨2, _⟩ => rfl

/-! ## The pieces of the normalisation -/

/-- The host's square root at an index is the square root of the element. -/
theorem hostSqrt_apply {S : Shape} (a : FVec Ideal S .f32) (i : S.Idx) : Host.sqrt a i = Ideal.sqrt (a i) := rfl

/-- The mean at (b, s). -/
theorem mean_apply (x : FVec Ideal S2x2048x4096 .f32) (b : Fin 2) (s : Fin 2048) (u : Fin 1) :
    mean (F := Ideal) x (ix3 b s u) = rMean x b s := by
  unfold mean rMean
  rw [hostDivf_apply, chanSum_apply, splat_apply, constant_apply]

/-- The deviation from the mean at (b, s, j). -/
theorem centered_apply (x : FVec Ideal S2x2048x4096 .f32) (b : Fin 2) (s : Fin 2048) (j : Fin 4096) :
    centered (F := Ideal) x (ix3 b s j) = x (ix3 b s j) - rMean x b s := by
  unfold centered
  rw [subf_apply, overChans_apply, mean_apply]

/-- The variance at (b, s): the test on the divisor holds, so the first branch is read. -/
theorem variance_apply (x : FVec Ideal S2x2048x4096 .f32) (b : Fin 2) (s : Fin 2048) (u : Fin 1) :
    variance (F := Ideal) x (ix3 b s u) = rVar x b s := by
  unfold variance rVar
  rw [select_apply, broadcastInDim_scalar_apply, count_pos, select_one, hostDivf_apply, chanSum_apply, splat_apply,
    count_apply]
  refine congrArg (fun z => Ideal.div z _) (Finset.sum_congr rfl fun j _ => ?_)
  rw [mulf_apply, centered_apply]

/-- The normalised entry at (b, s, j). -/
theorem normed_apply (x : FVec Ideal S2x2048x4096 .f32) (b : Fin 2) (s : Fin 2048) (j : Fin 4096) :
    normed (F := Ideal) x (ix3 b s j)
      = Ideal.div (x (ix3 b s j) - rMean x b s) (Ideal.sqrt (rVar x b s + Ideal.ofBits .f32 0x3727C5AC#32)) := by
  unfold normed
  rw [hostDivf_apply, centered_apply, overChans_apply, hostSqrt_apply, addf_apply, variance_apply, splat_apply,
    constant_apply]

/-! ## The projections -/

/-- The product of t with a weight matrix at (b, j) is the sum over the 128 features. -/
theorem proj_apply (t : FVec Ideal S2x128 .f32) (w : FVec Ideal S128x4096 .f32) (b : Fin 2) (j : Fin 4096) :
    proj (F := Ideal) t w (ix2 b j) = ∑ k : Fin 128, t (ix2 b k) * w (ix2 k j) := by
  have e : dot_S2x128_S128x4096_S2x4096_1_0_0_1_n_n = DotDims.plain 2 128 4096 := rfl
  unfold proj
  rw [e]
  exact dotGeneral_plain_apply none t w b j

/-! ## The result -/

/-- The reference's result at (b, s, j). -/
theorem refOut_apply (x : FVec Ideal S2x2048x4096 .f32) (t : FVec Ideal S2x128 .f32) (ws wsh : FVec Ideal S128x4096 .f32)
    (b : Fin 2) (s : Fin 2048) (j : Fin 4096) :
    refOut (F := Ideal) x t ws wsh (ix3 b s j)
      = Ideal.div (x (ix3 b s j) - rMean x b s) (Ideal.sqrt (rVar x b s + Ideal.ofBits .f32 0x3727C5AC#32))
          * (Ideal.ofBits .f32 0x3F800000#32 + ∑ k : Fin 128, t (ix2 b k) * ws (ix2 k j))
        + ∑ k : Fin 128, t (ix2 b k) * wsh (ix2 k j) := by
  unfold refOut
  rw [truncf_apply, addf_apply, mulf_apply, normed_apply, overPos_apply, overPos_apply, addf_apply,
    broadcastInDim_scalar_apply, constant_apply, unitPos_apply, unitPos_apply, proj_apply, proj_apply]

end Cert.RefValue

end
-- ==== Proof.Algebra.lean ====
/-
  The real-number identity behind the certificate. A row of 4096 real entries, held as eight blocks of 512,
  is normalised in two ways: from its two moments (the sum and the sum of squares over all blocks), and from
  its mean and its centred sum of squares. Read on the extended reals, the two results agree, because the
  centred sum of squares of exactly 4096 terms is the sum of squares less 4096 times the squared mean, and
  the variance is non-negative, so that the added positive constant keeps the root's argument positive.
-/
import Idealize.ShloMosaic.PureOps.Ideal
import Mathlib.Analysis.SpecialFunctions.Pow.Real
import Mathlib.Algebra.BigOperators.Fin
import Mathlib.Logic.Equiv.Fin.Basic
import Mathlib.Tactic.FieldSimp
import Mathlib.Tactic.Ring
import Mathlib.Tactic.NormNum
import Mathlib.Tactic.Positivity

noncomputable section

open scoped BigOperators

namespace Cert.Algebra

open Idealize.ShloMosaic

/-! ### The two float literals -/

/-- The divisor's word denotes the real number 4096. -/
theorem ofBits_4096 : Ideal.ofBits .f32 0x45800000#32 = ((4096 : ℝ) : EReal) := by
  simp [Ideal.ofBits, Ideal.ieee, -EReal.coe_mul]; norm_num

/-- The added constant's word denotes a positive real number. -/
theorem ofBits_eps : ∃ e : ℝ, 0 < e ∧ Ideal.ofBits .f32 0x3727C5AC#32 = (e : EReal) := by
  simp [Ideal.ofBits, Ideal.ieee, -EReal.coe_mul]

/-! ### Sums -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over 4096 channels is the sum over the eight blocks of the sums over each block's 512 channels,
    channel `j` of block `p` being channel `p · 512 + j` of the whole. -/
theorem sum_blocks {M : Type*} [AddCommMonoid M] (f : Fin 4096 → M) :
    ∑ j' : Fin 4096, f j' = ∑ p : Fin 8, ∑ j : Fin 512, f ⟨p.val * 512 + j.val, by omega⟩ := by
  rw [← Equiv.sum_comp (finProdFinEquiv : Fin 8 × Fin 512 ≃ Fin (8 * 512)) f, Fintype.sum_prod_type]
  refine Finset.sum_congr rfl fun p _ => Finset.sum_congr rfl fun j _ => ?_
  congr 1
  apply Fin.ext
  show j.val + 512 * p.val = p.val * 512 + j.val
  omega

/-! ### The identity over the reals -/

/-- The centred sum of squares of eight blocks of 512 terms about their mean is the sum of squares less
    4096 times the squared mean, here divided by 4096 on both sides. -/
theorem centred_sum_sq (xs : Fin 8 → Fin 512 → ℝ) :
    (∑ p, ∑ j, (xs p j - (∑ p, ∑ j, xs p j) * (1 / 4096)) * (xs p j - (∑ p, ∑ j, xs p j) * (1 / 4096))) * (1 / 4096)
      = (∑ p, ∑ j, xs p j * xs p j) * (1 / 4096)
          - (∑ p, ∑ j, xs p j) * (1 / 4096) * ((∑ p, ∑ j, xs p j) * (1 / 4096)) := by
  generalize hμ : (∑ p, ∑ j, xs p j) * (1 / 4096) = μ
  have h1 : ∀ p j, (xs p j - μ) * (xs p j - μ) = xs p j * xs p j - 2 * μ * xs p j + μ * μ := fun p j => by ring
  simp only [h1, Finset.sum_add_distrib, Finset.sum_sub_distrib, ← Finset.mul_sum, Finset.sum_const,
    Finset.card_univ, Fintype.card_fin, nsmul_eq_mul]
  have h2 : (∑ p, ∑ j, xs p j) = 4096 * μ := by rw [← hμ]; ring
  rw [h2]; push_cast; ring

/-- The centred sum of squares is non-negative. -/
theorem centred_sum_sq_nonneg (xs : Fin 8 → Fin 512 → ℝ) (μ : ℝ) :
    0 ≤ ∑ p, ∑ j, (xs p j - μ) * (xs p j - μ) :=
  Finset.sum_nonneg fun p _ => Finset.sum_nonneg fun j _ => mul_self_nonneg _

/-! ### The identity on the extended reals -/

/-- The normalisation from the two moments is the normalisation from the mean and the centred sum of squares.
    `S1`, `S2` and `V` are the sum, the sum of squares and the centred sum of squares of the real entries
    `xs`, `n` is 4096 and `ε` a positive real; `x` is any real entry, and the scale `a` and the shift `bb`
    are any extended reals. -/
theorem normalise_eq (xs : Fin 8 → Fin 512 → ℝ) (x : ℝ) (S1 S2 V n ε a bb : EReal) (e : ℝ) (he : 0 < e)
    (hn : n = ((4096 : ℝ) : EReal)) (hε : ε = (e : EReal))
    (hS1 : S1 = ∑ p, ∑ j, (xs p j : EReal))
    (hS2 : S2 = ∑ p, ∑ j, (xs p j : EReal) * (xs p j : EReal))
    (hV : V = ∑ p, ∑ j, ((xs p j : EReal) - Ideal.div S1 n) * ((xs p j : EReal) - Ideal.div S1 n)) :
    ((x : EReal) * Ideal.rsqrt (Ideal.div S2 n - Ideal.div S1 n * Ideal.div S1 n + ε)
        + (0 - Ideal.div S1 n) * Ideal.rsqrt (Ideal.div S2 n - Ideal.div S1 n * Ideal.div S1 n + ε)) * a + bb
      = Ideal.div ((x : EReal) - Ideal.div S1 n) (Ideal.sqrt (Ideal.div V n + ε)) * a + bb := by
  have h4096 : (4096 : ℝ) ≠ 0 := by norm_num
  -- the three sums are real
  have hS1r : S1 = ((∑ p, ∑ j, xs p j : ℝ) : EReal) := by
    rw [hS1, coe_sum]; exact Finset.sum_congr rfl fun p _ => (coe_sum _ _).symm
  have hS2r : S2 = ((∑ p, ∑ j, xs p j * xs p j : ℝ) : EReal) := by
    rw [hS2, coe_sum]
    refine Finset.sum_congr rfl fun p _ => ?_
    rw [coe_sum]; exact Finset.sum_congr rfl fun j _ => (EReal.coe_mul _ _).symm
  have hμ : Ideal.div S1 n = (((∑ p, ∑ j, xs p j) * (1 / 4096) : ℝ) : EReal) := by
    rw [hn, Ideal.div_coe h4096, hS1r, ← EReal.coe_mul]
  have hm2 : Ideal.div S2 n = (((∑ p, ∑ j, xs p j * xs p j) * (1 / 4096) : ℝ) : EReal) := by
    rw [hn, Ideal.div_coe h4096, hS2r, ← EReal.coe_mul]
  rw [hμ] at hV ⊢
  rw [hm2]
  generalize hμr : (∑ p, ∑ j, xs p j) * (1 / 4096) = μ at hV ⊢
  have hVr : V = ((∑ p, ∑ j, (xs p j - μ) * (xs p j - μ) : ℝ) : EReal) := by
    rw [hV, coe_sum]
    refine Finset.sum_congr rfl fun p _ => ?_
    rw [coe_sum]
    exact Finset.sum_congr rfl fun j _ => by rw [← EReal.coe_sub, ← EReal.coe_mul]
  have hvar : Ideal.div V n = (((∑ p, ∑ j, (xs p j - μ) * (xs p j - μ)) * (1 / 4096) : ℝ) : EReal) := by
    rw [hn, Ideal.div_coe h4096, hVr, ← EReal.coe_mul]
  rw [hvar, hε]
  -- the root's argument is one positive real on both sides
  have hkey : (∑ p, ∑ j, xs p j * xs p j) * (1 / 4096) - μ * μ
      = (∑ p, ∑ j, (xs p j - μ) * (xs p j - μ)) * (1 / 4096) := by
    rw [← hμr]; exact (centred_sum_sq xs).symm
  rw [← EReal.coe_mul, ← EReal.coe_sub, hkey, ← EReal.coe_add]
  generalize hy : (∑ p, ∑ j, (xs p j - μ) * (xs p j - μ)) * (1 / 4096) + e = y
  have hypos : 0 < y := by
    rw [← hy]
    have := centred_sum_sq_nonneg xs μ
    positivity
  have hsq : 0 < Real.sqrt y := Real.sqrt_pos.2 hypos
  rw [Ideal.rsqrt_coe, if_neg (not_lt.2 hypos.le), if_neg hypos.ne', Ideal.sqrt_coe, if_neg (not_lt.2 hypos.le),
    Ideal.div_coe hsq.ne', ← EReal.coe_zero, ← EReal.coe_sub, ← EReal.coe_sub, ← EReal.coe_mul, ← EReal.coe_mul,
    ← EReal.coe_mul, ← EReal.coe_add]
  congr 3
  rw [one_div]; ring

/-- The same with the two float literals spelt as their words. -/
theorem normalise_eq_words (xs : Fin 8 → Fin 512 → ℝ) (x : ℝ) (S1 S2 V a bb : EReal)
    (hS1 : S1 = ∑ p, ∑ j, (xs p j : EReal))
    (hS2 : S2 = ∑ p, ∑ j, (xs p j : EReal) * (xs p j : EReal))
    (hV : V = ∑ p, ∑ j, ((xs p j : EReal) - Ideal.div S1 (Ideal.ofBits .f32 0x45800000#32))
        * ((xs p j : EReal) - Ideal.div S1 (Ideal.ofBits .f32 0x45800000#32))) :
    ((x : EReal) * Ideal.rsqrt (Ideal.div S2 (Ideal.ofBits .f32 0x45800000#32)
            - Ideal.div S1 (Ideal.ofBits .f32 0x45800000#32) * Ideal.div S1 (Ideal.ofBits .f32 0x45800000#32)
            + Ideal.ofBits .f32 0x3727C5AC#32)
        + (0 - Ideal.div S1 (Ideal.ofBits .f32 0x45800000#32))
          * Ideal.rsqrt (Ideal.div S2 (Ideal.ofBits .f32 0x45800000#32)
            - Ideal.div S1 (Ideal.ofBits .f32 0x45800000#32) * Ideal.div S1 (Ideal.ofBits .f32 0x45800000#32)
            + Ideal.ofBits .f32 0x3727C5AC#32)) * a + bb
      = Ideal.div ((x : EReal) - Ideal.div S1 (Ideal.ofBits .f32 0x45800000#32))
          (Ideal.sqrt (Ideal.div V (Ideal.ofBits .f32 0x45800000#32) + Ideal.ofBits .f32 0x3727C5AC#32)) * a + bb := by
  obtain ⟨e, he, hε⟩ := ofBits_eps
  exact normalise_eq xs x S1 S2 V _ _ a bb e he ofBits_4096 hε hS1 hS2 hV

end Cert.Algebra

end
-- ==== Proof.Bridge.lean ====
/-
  The value identity: on every device the kernel's result term, applied to the device's blocks of the whole
  arrays and to the table gathered from all eight devices' blocks, is the device's block of the reference's
  result term — for arrays whose entries are all real numbers.

  At batch `b`, position `s` and channel `j` of device `c`'s block, the kernel's value is read from the two
  moments of the whole row (the sums over the eight devices of their blocks' channel sums and sums of squares),
  the reference's from the row's mean and centred sum of squares at the whole array's channel `c · 512 + j`.
  The whole row's sums split into the eight blocks' sums, the entries are real numbers, and the two
  normalisations of a real row agree; the scale and the shift are the same sums on both sides.
-/
import proofs.«900765_g7700000000000766_dist_diff_adaln_cshard_i_b2_s2048_c512_v7x_i8_bf16_1_alg».proof.Proof.KernelIdeal.Terms
import proofs.«900765_g7700000000000766_dist_diff_adaln_cshard_i_b2_s2048_c512_v7x_i8_bf16_1_alg».proof.Proof.RefTerm
import proofs.«900765_g7700000000000766_dist_diff_adaln_cshard_i_b2_s2048_c512_v7x_i8_bf16_1_alg».proof.Proof.KernelValue
import proofs.«900765_g7700000000000766_dist_diff_adaln_cshard_i_b2_s2048_c512_v7x_i8_bf16_1_alg».proof.Proof.RefValue
import proofs.«900765_g7700000000000766_dist_diff_adaln_cshard_i_b2_s2048_c512_v7x_i8_bf16_1_alg».proof.Proof.Algebra
import Idealize.ShloMosaic.Lib.Layout
import Idealize.ShloMosaic.Lib.ValueIdx
import Idealize.ShloMosaic.PureOps.Ideal

noncomputable section

open scoped BigOperators

namespace Cert.Bridge

open Idealize.ShloMosaic Idealize.ShloMosaic.ValueIdx

/-- Where channel `j` of block `c` of a (batch, position, channel) array lies in the whole array. -/
theorem idx_chan (h : Layout.Tiles ⟨3, ![2, 2048, 512]⟩ ⟨3, ![2, 2048, 4096]⟩ 2 8) (c : Fin 8)
    (b : Fin 2) (s : Fin 2048) (j : Fin 512) :
    h.idx c (ix3 b s j) = ix3 b s (⟨c.val * 512 + j.val, by omega⟩ : Fin 4096) := by
  funext a
  match a with
  | ⟨0, _⟩ => exact Fin.ext rfl
  | ⟨1, _⟩ => exact Fin.ext rfl
  | ⟨2, _⟩ => exact Fin.ext rfl

/-- Where column `j` of block `c` of a (feature, channel) array lies in the whole array. -/
theorem idx_col (h : Layout.Tiles ⟨2, ![128, 512]⟩ ⟨2, ![128, 4096]⟩ 1 8) (c : Fin 8)
    (k : Fin 128) (j : Fin 512) :
    h.idx c (ix2 k j) = ix2 k (⟨c.val * 512 + j.val, by omega⟩ : Fin 4096) := by
  funext a
  match a with
  | ⟨0, _⟩ => exact Fin.ext rfl
  | ⟨1, _⟩ => exact Fin.ext rfl

/-- Channel `p · 512 + j` of the whole array is channel `j` of block `p`. -/
theorem whole_chan (X : Vec Ideal Cert.ReferenceIdeal.S2x2048x4096 .f32) (p : Fin 8) (b : Fin 2) (s : Fin 2048) (j : Fin 512) :
    X (ix3 b s (⟨p.val * 512 + j.val, by omega⟩ : Fin 4096))
      = (Layout.block ⟨3, ![2, 2048, 512]⟩ ⟨3, ![2, 2048, 4096]⟩ 2 8 p X) (ix3 b s j) := by
  rw [Layout.block_apply, idx_chan]

/-- Column `j` of block `c` of a (feature, channel) array is column `c · 512 + j` of the whole. -/
theorem block_col (W : Vec Ideal Cert.ReferenceIdeal.S128x4096 .f32) (c : Fin 8) (k : Fin 128) (j : Fin 512) :
    (Layout.block ⟨2, ![128, 512]⟩ ⟨2, ![128, 4096]⟩ 1 8 c W) (ix2 k j)
      = W (ix2 k (⟨c.val * 512 + j.val, by omega⟩ : Fin 4096)) := by
  rw [Layout.block_apply, idx_col]

/-- Block `c` of the result is the reference's block `c`. -/
theorem out_eq_block
    (X : Vec Ideal Cert.ReferenceIdeal.S2x2048x4096 .f32) (T : Vec Ideal Cert.ReferenceIdeal.S2x128 .f32)
    (WS WSH : Vec Ideal Cert.ReferenceIdeal.S128x4096 .f32)
    (hX : ∀ (p : Fin 8) i, ∃ r : ℝ, (Layout.block ⟨3, ![2, 2048, 512]⟩ ⟨3, ![2, 2048, 4096]⟩ 2 8 p X) i = (r : EReal))
    (hT : ∀ i, ∃ r : ℝ, T i = (r : EReal))
    (c : Fin 8)
    (hWS : ∀ i, ∃ r : ℝ, (Layout.block ⟨2, ![128, 512]⟩ ⟨2, ![128, 4096]⟩ 1 8 c WS) i = (r : EReal))
    (hWSH : ∀ i, ∃ r : ℝ, (Layout.block ⟨2, ![128, 512]⟩ ⟨2, ![128, 4096]⟩ 1 8 c WSH) i = (r : EReal)) :
    Cert.KernelIdeal.Terms.outOf (F := Ideal)
        (Layout.block ⟨3, ![2, 2048, 512]⟩ ⟨3, ![2, 2048, 4096]⟩ 2 8 c X) T
        (Layout.block ⟨2, ![128, 512]⟩ ⟨2, ![128, 4096]⟩ 1 8 c WS)
        (Layout.block ⟨2, ![128, 512]⟩ ⟨2, ![128, 4096]⟩ 1 8 c WSH)
        (Cert.KernelIdeal.Terms.allStats fun p => Layout.block ⟨3, ![2, 2048, 512]⟩ ⟨3, ![2, 2048, 4096]⟩ 2 8 p X)
      = Layout.block ⟨3, ![2, 2048, 512]⟩ ⟨3, ![2, 2048, 4096]⟩ 2 8 c (Cert.ReferenceIdeal.RefTerm.refOut (F := Ideal) X T WS WSH) := by
  funext i
  obtain ⟨b, s, j, rfl⟩ : ∃ (b : Fin 2) (s : Fin 2048) (j : Fin 512), i = ix3 b s j := ⟨i 0, i 1, i 2, eq_ix3 i⟩
  -- the row's entries, block by block, as real numbers
  choose xr hxr using hX
  obtain ⟨xs, hxs⟩ : ∃ xs : Fin 8 → Fin 512 → ℝ, ∀ p j,
      (Layout.block ⟨3, ![2, 2048, 512]⟩ ⟨3, ![2, 2048, 4096]⟩ 2 8 p X) (ix3 b s j) = (xs p j : EReal) :=
    ⟨fun p j => xr p (ix3 b s j), fun p j => hxr p _⟩
  -- the kernel's two sums over the gathered table
  have e1 : (∑ p : Fin 8, Cert.KernelIdeal.Terms.allStats (F := Ideal)
        (fun p => Layout.block ⟨3, ![2, 2048, 512]⟩ ⟨3, ![2, 2048, 4096]⟩ 2 8 p X) (ix3 p (⟨b.val, by omega⟩ : Fin 4) s))
      = ∑ p : Fin 8, ∑ j : Fin 512, (xs p j : EReal) :=
    Finset.sum_congr rfl fun p _ => by
      rw [Cert.KernelValue.allStats_sum]; exact Finset.sum_congr rfl fun j _ => hxs p j
  have e2 : (∑ p : Fin 8, Cert.KernelIdeal.Terms.allStats (F := Ideal)
        (fun p => Layout.block ⟨3, ![2, 2048, 512]⟩ ⟨3, ![2, 2048, 4096]⟩ 2 8 p X) (ix3 p (⟨2 + b.val, by omega⟩ : Fin 4) s))
      = ∑ p : Fin 8, ∑ j : Fin 512, (xs p j : EReal) * (xs p j : EReal) :=
    Finset.sum_congr rfl fun p _ => by
      rw [Cert.KernelValue.allStats_sumsq]; exact Finset.sum_congr rfl fun j _ => by rw [hxs p j]
  -- the reference's two sums over the whole row
  have e3 : (∑ j' : Fin 4096, X (ix3 b s j')) = ∑ p : Fin 8, ∑ j : Fin 512, (xs p j : EReal) := by
    rw [Cert.Algebra.sum_blocks]
    exact Finset.sum_congr rfl fun p _ => Finset.sum_congr rfl fun j _ => by rw [whole_chan X, hxs]
  have e4 : ∀ μ : EReal, (∑ j' : Fin 4096, (X (ix3 b s j') - μ) * (X (ix3 b s j') - μ))
      = ∑ p : Fin 8, ∑ j : Fin 512, ((xs p j : EReal) - μ) * ((xs p j : EReal) - μ) := fun μ => by
    rw [Cert.Algebra.sum_blocks]
    exact Finset.sum_congr rfl fun p _ => Finset.sum_congr rfl fun j _ => by rw [whole_chan X, hxs]
  -- the entry itself, and the two projections' columns
  have e6 : X (ix3 b s (⟨c.val * 512 + j.val, by omega⟩ : Fin 4096)) = (xs c j : EReal) := by rw [whole_chan X, hxs]
  rw [Layout.block_apply, idx_chan, Cert.RefValue.refOut_apply, Cert.KernelValue.outOf_apply]
  unfold Cert.KernelValue.kInv Cert.KernelValue.kMeanSq Cert.KernelValue.kMean Cert.RefValue.rVar Cert.RefValue.rMean
  rw [e1, e2, e3, e4, e6, hxs c j]
  have e7 : ∀ W : Vec Ideal Cert.ReferenceIdeal.S128x4096 .f32,
      (∑ k : Fin 128, T (ix2 b k) * (Layout.block ⟨2, ![128, 512]⟩ ⟨2, ![128, 4096]⟩ 1 8 c W) (ix2 k j))
        = ∑ k : Fin 128, T (ix2 b k) * W (ix2 k (⟨c.val * 512 + j.val, by omega⟩ : Fin 4096)) := fun W =>
    Finset.sum_congr rfl fun k _ => congrArg (T (ix2 b k) * ·) (block_col W c k j)
  rw [e7 WS, e7 WSH]
  exact Cert.Algebra.normalise_eq_words xs (xs c j) _ _ _ _ _ rfl rfl rfl

end Cert.Bridge

end
-- ==== Proof.lean ====
/-
  The certificate: the normalisation of every row of `x` over its 4096 channels, modulated by two projections of
  `t`, computed on eight devices that each hold 512 of the channels, equals the one-device reference.

  Each device sums its 512 channels of `x` and of `x²`; the eight devices exchange these partial sums, so that every
  device holds all eight; their totals give the mean and the mean of squares over all 4096 channels. The kernel
  normalises with the variance as (mean of squares) − mean², the reference with the mean of the squared deviations:
  the two are equal for real data because there are exactly 4096 terms, and then
  `x · v^(-1/2) + (0 − μ) · v^(-1/2) = (x − μ) / √v`. All entries are real because the inputs are finite.
  The frames are the programs' runs with the values dropped; the one rewrite of the idealization (a narrowing to
  bf16 widened back is the identity on extended reals) is its rule's statement.
-/
import proofs.«900765_g7700000000000766_dist_diff_adaln_cshard_i_b2_s2048_c512_v7x_i8_bf16_1_alg».proof.Defs
import proofs.«900765_g7700000000000766_dist_diff_adaln_cshard_i_b2_s2048_c512_v7x_i8_bf16_1_alg».proof.Proof.Gen.Kernel
import proofs.«900765_g7700000000000766_dist_diff_adaln_cshard_i_b2_s2048_c512_v7x_i8_bf16_1_alg».proof.Proof.Gen.KernelIdeal
import proofs.«900765_g7700000000000766_dist_diff_adaln_cshard_i_b2_s2048_c512_v7x_i8_bf16_1_alg».proof.Proof.Gen.ReferenceIdeal
import proofs.«900765_g7700000000000766_dist_diff_adaln_cshard_i_b2_s2048_c512_v7x_i8_bf16_1_alg».proof.Proof.Gen.Pre_finite_inputs_Kernel
import proofs.«900765_g7700000000000766_dist_diff_adaln_cshard_i_b2_s2048_c512_v7x_i8_bf16_1_alg».proof.Proof.Gen.Pre_finite_inputs_ReferenceIdeal
import proofs.«900765_g7700000000000766_dist_diff_adaln_cshard_i_b2_s2048_c512_v7x_i8_bf16_1_alg».proof.Proof.Kernel.Final
import proofs.«900765_g7700000000000766_dist_diff_adaln_cshard_i_b2_s2048_c512_v7x_i8_bf16_1_alg».proof.Proof.KernelIdeal.Final
import proofs.«900765_g7700000000000766_dist_diff_adaln_cshard_i_b2_s2048_c512_v7x_i8_bf16_1_alg».proof.Proof.RefRun
import proofs.«900765_g7700000000000766_dist_diff_adaln_cshard_i_b2_s2048_c512_v7x_i8_bf16_1_alg».proof.Proof.Finite
import proofs.«900765_g7700000000000766_dist_diff_adaln_cshard_i_b2_s2048_c512_v7x_i8_bf16_1_alg».proof.Proof.Bridge
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ =>
  (θ_run (Cert.Kernel.defs (F := Bits)) _ _).mono (fun _ h c => (h c).2) (Cert.Kernel.Final.run_values (F := Bits) m ρ)

/-- The idealized kernel runs and leaves its arguments unchanged. -/
theorem frame_kernelIdeal : Cert.frame_KernelIdeal := fun m ρ _ =>
  (θ_run (Cert.KernelIdeal.defs (F := Ideal)) _ _).mono (fun _ h c => (h c).2) (Cert.KernelIdeal.Final.run_values (F := Ideal) m ρ)

/-- The reference runs and leaves its arguments unchanged. -/
theorem frame_reference : Cert.frame_ReferenceIdeal := fun m ρ _ => Cert.ReferenceIdeal.RefRun.frame (F := Ideal) m ρ

/-- The idealization's one rewrite: narrowing to bf16 and widening back is the identity on extended reals. -/
theorem preserves : Cert.preserves_Kernel_KernelIdeal :=
  IdealRules.truncf_extf.statement Cert.KernelIdeal.S2x2048x512 .f32 .bf16

/-- Every device's result is its block of the reference's. -/
theorem algebraic : Cert.algebraic_KernelIdeal_ReferenceIdeal := by
  intro m ρ m' ρ' hpre hagree
  refine ⟨Cert.ReferenceIdeal.RefTerm.refOut (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)), ?_, ?_⟩
  · refine (θ_run (Cert.KernelIdeal.defs (F := Ideal)) _ _).mono (fun r h c => ⟨(h c).1.trans ?_, (h c).2⟩)
      (Cert.KernelIdeal.Final.run_values (F := Ideal) m ρ)
    have hfin := fun p => Cert.Finite.of_pre m hpre p
    have hx : Cert.KernelIdeal.Data.xOf m = fun p => Layout.block ⟨3, ![2, 2048, 512]⟩ ⟨3, ![2, 2048, 4096]⟩ 2 8 p
        (m' (((0 : Dev Cert.ReferenceIdeal.nD).tc : Thread Cert.ReferenceIdeal.nD Cert.ReferenceIdeal.τ).loc Cert.ReferenceIdeal.main_arg0)) :=
      funext fun p => (hagree p).1
    show Cert.KernelIdeal.Terms.outOf (Cert.KernelIdeal.Data.xOf m c) (Cert.KernelIdeal.Data.tOf m c) (Cert.KernelIdeal.Data.wsOf m c)
      (Cert.KernelIdeal.Data.wshOf m c) (Cert.KernelIdeal.Terms.allStats (Cert.KernelIdeal.Data.xOf m)) = _
    rw [hx]
    show Cert.KernelIdeal.Terms.outOf _ (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) _ = _
    rw [(hagree c).2.1, (hagree c).2.2.1, (hagree c).2.2.2]
    refine Cert.Bridge.out_eq_block _ _ _ _ (fun p i => ?_) (fun i => ?_) c (fun i => ?_) (fun i => ?_)
    · have := (hfin p).1 i; rw [(hagree p).1] at this; exact this
    · have := (hfin c).2.1 i; rw [(hagree c).2.1] at this; exact this
    · have := (hfin c).2.2.1 i; rw [(hagree c).2.2.1] at this; exact this
    · have := (hfin c).2.2.2 i; rw [(hagree c).2.2.2] at this; exact this
  · exact (θ_run (Cert.ReferenceIdeal.defs (F := Ideal)) _ _).mono (fun r h => h 0) (Cert.ReferenceIdeal.RefRun.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_kernel, frame_kernelIdeal, frame_reference, preserves, algebraic⟩

end Cert.Proof

end
